-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x2 : Shape := ⟨3, ![256, 64, 2]⟩
abbrev S64x2x256x512 : Shape := ⟨4, ![64, 2, 256, 512]⟩
abbrev S2048x2 : Shape := ⟨2, ![2048, 2]⟩
abbrev S2048x512 : Shape := ⟨2, ![2048, 512]⟩
abbrev S2048 : Shape := ⟨1, ![2048]⟩
abbrev S_ : Shape := ⟨0, ![]⟩

class Facts : Prop where
  bcast_S_S256x64x2 : S_.BroadcastsInDim S256x64x2 (![] : Fin 0 → Fin S256x64x2.rank)
  reducesTo_S256x64x2_S_d0_1_2 : S256x64x2.ReducesTo [0, 1, 2] S_
  h_S_ : 0 < S_.numel
  bcast_S_S64x2x256x512 : S_.BroadcastsInDim S64x2x256x512 (![] : Fin 0 → Fin S64x2x256x512.rank)
  reducesTo_S64x2x256x512_S_d0_1_2_3 : S64x2x256x512.ReducesTo [0, 1, 2, 3] S_
  bcast_S_S2048x2 : S_.BroadcastsInDim S2048x2 (![] : Fin 0 → Fin S2048x2.rank)
  reducesTo_S2048x2_S_d0_1 : S2048x2.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x512 .f32) (main_arg8 : FVec F S2048x512 .f32) (main_arg9 : FVec F S2048 .f32) (main_arg10 : FVec F S2048 .f32) (main_v33 : IVec S_ 1) : IVec S_ 1 :=
  let main_v34 : FVec F S2048x512 .f32 := Host.absf main_arg7
  let main_cst_12 : FVec F S_ .f32 := constant S_ .f32 0x7F800000#32
  let main_v35 : FVec F S2048x512 .f32 := broadcastInDim S2048x512 ![] bcast_S_S2048x512 main_cst_12
  let main_v36 : IVec S2048x512 1 := cmpf .olt main_v34 main_v35
  let main_c_13 : IVec S_ 1 := constantI S_ 1 1#1
  let main_v37 : IVec S_ 1 := (fun x v => Host.reduce IntOp.andi x v reducesTo_S2048x512_S_d0_1 h_S_) main_v36 main_c_13
  let main_v38 : IVec S_ 1 := andi main_v33 main_v37
  let main_v39 : FVec F S2048x512 .f32 := Host.absf main_arg8
  let main_cst_14 : FVec F S_ .f32 := constant S_ .f32 0x7F800000#32
  let main_v40 : FVec F S2048x512 .f32 := broadcastInDim S2048x512 ![] bcast_S_S2048x512 main_cst_14
  let main_v41 : IVec S2048x512 1 := cmpf .olt main_v39 main_v40
  let main_c_15 : IVec S_ 1 := constantI S_ 1 1#1
  let main_v42 : IVec S_ 1 := (fun x v => Host.reduce IntOp.andi x v reducesTo_S2048x512_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048x512 .f32) (main_arg5 : FVec F S2048 .f32) (main_arg6 : FVec F S2048 .f32) (main_arg7 : FVec F S2048x512 .f32) (main_arg8 : FVec F S2048x512 .f32) (main_arg9 : FVec F S2048 .f32) (main_arg10 : FVec F S2048 .f32) (main_v13 : IVec S_ 1) (main_v16 : IVec S2048x2 1) : IVec S_ 1 :=
  let main_c_5 : IVec S_ 1 := constantI S_ 1 1#1
  let main_v17 : IVec S_ 1 := (fun x v => Host.reduce IntOp.andi x v reducesTo_S2048x2_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S256x64x2 .f32) (main_arg1 : FVec F S64x2x256x512 .f32) (main_arg2 : FVec F S64x2x256x512 .f32) (main_arg3 : FVec F S2048x2 .f32) (main_arg4 : FVec F S2048x512 .f32) (main_arg5 : FVec F S2048 .f32) (main_arg6 : FVec F S2048 .f32) (main_arg7 : FVec F S2048x512 .f32) (main_arg8 : FVec F S2048x512 .f32) (main_arg9 : FVec F S2048 .f32) (main_arg10 : FVec F S2048 .f32) : IVec S_ 1 :=
  let main_v0 : FVec F S256x64x2 .f32 := Host.absf main_arg0
  let main_cst : FVec F S_ .f32 := constant S_ .f32 0x7F800000#32
  let main_v1 : FVec F S256x64x2 .f32 := broadcastInDim S256x64x2 ![] bcast_S_S256x64x2 main_cst
  let main_v2 : IVec S256x64x2 1 := cmpf .olt main_v0 main_v1
  let main_c : IVec S_ 1 := constantI S_ 1 1#1
  let main_v3 : IVec S_ 1 := (fun x v => Host.reduce IntOp.andi x v reducesTo_S256x64x2_S_d0_1_2 h_S_) main_v2 main_c
  let main_v4 : FVec F S64x2x256x512 .f32 := Host.absf main_arg1
  let main_cst_0 : FVec F S_ .f32 := constant S_ .f32 0x7F800000#32
  let main_v5 : FVec F S64x2x256x512 .f32 := broadcastInDim S64x2x256x512 ![] bcast_S_S64x2x256x512 main_cst_0
  let main_v6 : IVec S64x2x256x512 1 := cmpf .olt main_v4 main_v5
  let main_c_1 : IVec S_ 1 := constantI S_ 1 1#1
  let main_v7 : IVec S_ 1 := (fun x v => Host.reduce IntOp.andi x v reducesTo_S64x2x256x512_S_d0_1_2_3 h_S_) main_v6 main_c_1
  let main_v8 : IVec S_ 1 := andi main_v3 main_v7
  let main_v9 : FVec F S64x2x256x512 .f32 := Host.absf main_arg2
  let main_cst_2 : FVec F S_ .f32 := constant S_ .f32 0x7F800000#32
  let main_v10 : FVec F S64x2x256x512 .f32 := broadcastInDim S64x2x256x512 ![] bcast_S_S64x2x256x512 main_cst_2
  let main_v11 : IVec S64x2x256x512 1 := cmpf .olt main_v9 main_v10
  let main_c_3 : IVec S_ 1 := constantI S_ 1 1#1
  let main_v12 : IVec S_ 1 := (fun x v => Host.reduce IntOp.andi x v reducesTo_S64x2x256x512_S_d0_1_2_3 h_S_) main_v11 main_c_3
  let main_v13 : IVec S_ 1 := andi main_v8 main_v12
  let main_v14 : FVec F S2048x2 .f32 := Host.absf main_arg3
  let main_cst_4 : FVec F S_ .f32 := constant S_ .f32 0x7F800000#32
  let main_v15 : FVec F S2048x2 .f32 := broadcastInDim S2048x2 ![] bcast_S_S2048x2 main_cst_4
  let main_v16 : IVec S2048x2 1 := cmpf .olt main_v14 main_v15
  fn_part1 (F := F) main_arg4 main_arg5 main_arg6 main_arg7 main_arg8 main_arg9 main_arg10 main_v13 main_v16
-- ==== Kernel.lean ====
abbrev S256x64x2 : Shape := ⟨3, ![256, 64, 2]⟩
abbrev S64x2x256x512 : Shape := ⟨4, ![64, 2, 256, 512]⟩
abbrev S2048x2 : Shape := ⟨2, ![2048, 2]⟩
abbrev S2048x512 : Shape := ⟨2, ![2048, 512]⟩
abbrev S2048 : Shape := ⟨1, ![2048]⟩
abbrev S64x256x2 : Shape := ⟨3, ![64, 256, 2]⟩
abbrev S2x2048 : Shape := ⟨2, ![2, 2048]⟩
abbrev S512x2048 : Shape := ⟨2, ![512, 2048]⟩
abbrev S64x256x512 : Shape := ⟨3, ![64, 256, 512]⟩
abbrev S2x256x2 : Shape := ⟨3, ![2, 256, 2]⟩
abbrev S2x1x256x512 : Shape := ⟨4, ![2, 1, 256, 512]⟩
abbrev S2x256x512 : Shape := ⟨3, ![2, 256, 512]⟩
abbrev S512x2 : Shape := ⟨2, ![512, 2]⟩
abbrev S512x512 : Shape := ⟨2, ![512, 512]⟩
abbrev S1x2048 : Shape := ⟨2, ![1, 2048]⟩
abbrev S64x1x256x512 : Shape := ⟨4, ![64, 1, 256, 512]⟩
abbrev S256x64x512 : Shape := ⟨3, ![256, 64, 512]⟩

abbrev nBuf : Space → Nat
  | .hbm => 31
  | .vmem => 26
  | .smem => 0
  | _ => 0

abbrev bufTy : (tb : Table) → Fin (tcTables nBuf tb) → BufTy
  | .hbm, ⟨0, _⟩ => ⟨S256x64x2, .f32⟩
  | .hbm, ⟨1, _⟩ => ⟨S64x2x256x512, .f32⟩
  | .hbm, ⟨2, _⟩ => ⟨S64x2x256x512, .f32⟩
  | .hbm, ⟨3, _⟩ => ⟨S2048x2, .f32⟩
  | .hbm, ⟨4, _⟩ => ⟨S2048x512, .f32⟩
  | .hbm, ⟨5, _⟩ => ⟨S2048, .f32⟩
  | .hbm, ⟨6, _⟩ => ⟨S2048, .f32⟩
  | .hbm, ⟨7, _⟩ => ⟨S2048x512, .f32⟩
  | .hbm, ⟨8, _⟩ => ⟨S2048x512, .f32⟩
  | .hbm, ⟨9, _⟩ => ⟨S2048, .f32⟩
  | .hbm, ⟨10, _⟩ => ⟨S2048, .f32⟩
  | .hbm, ⟨11, _⟩ => ⟨S64x256x2, .f32⟩
  | .hbm, ⟨12, _⟩ => ⟨S2x2048, .f32⟩
  | .hbm, ⟨13, _⟩ => ⟨S2x2048, .bf16⟩
  | .hbm, ⟨14, _⟩ => ⟨S512x2048, .f32⟩
  | .hbm, ⟨15, _⟩ => ⟨S512x2048, .bf16⟩
  | .hbm, ⟨16, _⟩ => ⟨S512x2048, .f32⟩
  | .hbm, ⟨17, _⟩ => ⟨S512x2048, .bf16⟩
  | .hbm, ⟨18, _⟩ => ⟨S512x2048, .f32⟩
  | .hbm, ⟨19, _⟩ => ⟨S512x2048, .bf16⟩
  | .hbm, ⟨20, _⟩ => ⟨S64x256x512, .f32⟩
  | .hbm, ⟨21, _⟩ => ⟨S64x256x512, .f32⟩
  | .hbm, ⟨22, _⟩ => ⟨S64x256x512, .f32⟩
  | .hbm, ⟨23, _⟩ => ⟨S64x256x512, .f32⟩
  | .hbm, ⟨24, _⟩ => ⟨S64x1x256x512, .f32⟩
  | .hbm, ⟨25, _⟩ => ⟨S64x1x256x512, .f32⟩
  | .hbm, ⟨26, _⟩ => ⟨S64x2x256x512, .f32⟩
  | .hbm, ⟨27, _⟩ => ⟨S64x1x256x512, .f32⟩
  | .hbm, ⟨28, _⟩ => ⟨S64x1x256x512, .f32⟩
  | .hbm, ⟨29, _⟩ => ⟨S64x2x256x512, .f32⟩
  | .hbm, ⟨30, _⟩ => ⟨S256x64x512, .f32⟩
  | .local _ .vmem, ⟨0, _⟩ => ⟨S2x256x2, .f32⟩
  | .local _ .vmem, ⟨1, _⟩ => ⟨S2x256x2, .f32⟩
  | .local _ .vmem, ⟨2, _⟩ => ⟨S2x1x256x512, .f32⟩
  | .local _ .vmem, ⟨3, _⟩ => ⟨S2x1x256x512, .f32⟩
  | .local _ .vmem, ⟨4, _⟩ => ⟨S2x1x256x512, .f32⟩
  | .local _ .vmem, ⟨5, _⟩ => ⟨S2x1x256x512, .f32⟩
  | .local _ .vmem, ⟨6, _⟩ => ⟨S2x1x256x512, .f32⟩
  | .local _ .vmem, ⟨7, _⟩ => ⟨S2x1x256x512, .f32⟩
  | .local _ .vmem, ⟨8, _⟩ => ⟨S2x1x256x512, .f32⟩
  | .local _ .vmem, ⟨9, _⟩ => ⟨S2x1x256x512, .f32⟩
  | .local _ .vmem, ⟨10, _⟩ => ⟨S2x2048, .bf16⟩
  | .local _ .vmem, ⟨11, _⟩ => ⟨S512x2048, .bf16⟩
  | .local _ .vmem, ⟨12, _⟩ => ⟨S2048, .f32⟩
  | .local _ .vmem, ⟨13, _⟩ => ⟨S2048, .f32⟩
  | .local _ .vmem, ⟨14, _⟩ => ⟨S512x2048, .bf16⟩
  | .local _ .vmem, ⟨15, _⟩ => ⟨S512x2048, .bf16⟩
  | .local _ .vmem, ⟨16, _⟩ => ⟨S2048, .f32⟩
  | .local _ .vmem, ⟨17, _⟩ => ⟨S2048, .f32⟩
  | .local _ .vmem, ⟨18, _⟩ => ⟨S2x256x512, .f32⟩
  | .local _ .vmem, ⟨19, _⟩ => ⟨S2x256x512, .f32⟩
  | .local _ .vmem, ⟨20, _⟩ => ⟨S2x256x512, .f32⟩
  | .local _ .vmem, ⟨21, _⟩ => ⟨S2x256x512, .f32⟩
  | .local _ .vmem, ⟨22, _⟩ => ⟨S2x256x512, .f32⟩
  | .local _ .vmem, ⟨23, _⟩ => ⟨S2x256x512, .f32⟩
  | .local _ .vmem, ⟨24, _⟩ => ⟨S2x256x512, .f32⟩
  | .local _ .vmem, ⟨25, _⟩ => ⟨S2x256x512, .f32⟩
  | _, _ => ⟨S256x64x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  transposes_S256x64x2_S64x256x2_1_0_2 : S256x64x2.Transposes [1, 0, 2] S64x256x2
  transposes_S2048x2_S2x2048_1_0 : S2048x2.Transposes [1, 0] S2x2048
  bitsLt_bf16_f32 : FTy.bits .bf16 < FTy.bits .f32
  transposes_S2048x512_S512x2048_1_0 : S2048x512.Transposes [1, 0] S512x2048
  inb_S2x256x2_S2x256x2_0_0_0 : ∀ a, (![0, 0, 0] : Fin 3 → Nat) a + S2x256x2.size a ≤ S2x256x2.size a
  h_S2x256x2 : 0 < S2x256x2.numel
  shapeCasts_S2x256x2_S2x256x2 : S2x256x2.ShapeCasts S2x256x2
  shapeCasts_S2x256x2_S512x2 : S2x256x2.ShapeCasts S512x2
  inb_S2x1x256x512_S2x1x256x512_0_0_0_0 : ∀ a, (![0, 0, 0, 0] : Fin 4 → Nat) a + S2x1x256x512.size a ≤ S2x1x256x512.size a
  h_S2x1x256x512 : 0 < S2x1x256x512.numel
  shapeCasts_S2x1x256x512_S2x256x512 : S2x1x256x512.ShapeCasts S2x256x512
  shapeCasts_S2x256x512_S512x512 : S2x256x512.ShapeCasts S512x512
  inb_S2x2048_S2x2048_0_0 : ∀ a, (![0, 0] : Fin 2 → Nat) a + S2x2048.size a ≤ S2x2048.size a
  h_S2x2048 : 0 < S2x2048.numel
  shapeCasts_S2x2048_S2x2048 : S2x2048.ShapeCasts S2x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  shapeCasts_S512x512_S2x256x512 : S512x512.ShapeCasts S2x256x512
  inb_S2x256x512_S2x256x512_0_0_0 : ∀ a, (![0, 0, 0] : Fin 3 → Nat) a + S2x256x512.size a ≤ S2x256x512.size a
  h_S2x256x512 : 0 < S2x256x512.numel
  bcast_S64x256x512_S64x1x256x512_0_2_3 : S64x256x512.BroadcastsInDim S64x1x256x512 (![0, 2, 3] : Fin 3 → Fin S64x1x256x512.rank)
  concatenates_S64x1x256x512_S64x1x256x512_S64x2x256x512_d1 : Shape.Concatenates [S64x1x256x512, S64x1x256x512] S64x2x256x512 1
  transposes_S64x256x512_S256x64x512_1_0_2 : S64x256x512.Transposes [1, 0, 2] S256x64x512
  dot_S512x2_S2x2048_S512x2048_1_0_0_1_n_n_wf : DotDims.WF S512x2 S2x2048 S512x2048 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x2.size a ≤ S64x256x2.size a
  hwx0_0 : ∀ i : grid0.Coords, EltTy.bits .f32 = 32 ∨ (Rect.block (s := S64x256x2) S2x256x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x256x512.size a ≤ S64x2x256x512.size a
  hwx0_1 : ∀ i : grid0.Coords, EltTy.bits .f32 = 32 ∨ (Rect.block (s := S64x2x256x512) S2x1x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x256x512.size a ≤ S64x2x256x512.size a
  hwx0_2 : ∀ i : grid0.Coords, EltTy.bits .f32 = 32 ∨ (Rect.block (s := S64x2x256x512) S2x1x256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x256x512.size a ≤ S64x2x256x512.size a
  hwx0_3 : ∀ i : grid0.Coords, EltTy.bits .f32 = 32 ∨ (Rect.block (s := S64x2x256x512) S2x1x256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1x256x512.size a ≤ S64x2x256x512.size a
  hwx0_4 : ∀ i : grid0.Coords, EltTy.bits .f32 = 32 ∨ (Rect.block (s := S64x2x256x512) S2x1x256x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x2048.size a ≤ S2x2048.size a
  hwx0_5 : ∀ i : grid0.Coords, EltTy.bits .bf16 = 32 ∨ (Rect.block (s := S2x2048) S2x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S512x2048.size a
  hwx0_6 : ∀ i : grid0.Coords, EltTy.bits .bf16 = 32 ∨ (Rect.block (s := S512x2048) S512x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048.size a ≤ S2048.size a
  hwx0_7 : ∀ i : grid0.Coords, EltTy.bits .f32 = 32 ∨ (Rect.block (s := S2048) S2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048.size a ≤ S2048.size a
  hwx0_8 : ∀ i : grid0.Coords, EltTy.bits .f32 = 32 ∨ (Rect.block (s := S2048) S2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x2048.size a ≤ S512x2048.size a
  hwx0_9 : ∀ i : grid0.Coords, EltTy.bits .bf16 = 32 ∨ (Rect.block (s := S512x2048) S512x2048.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x2048.size a ≤ S512x2048.size a
  hwx0_10 : ∀ i : grid0.Coords, EltTy.bits .bf16 = 32 ∨ (Rect.block (s := S512x2048) S512x2048.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048.size a ≤ S2048.size a
  hwx0_11 : ∀ i : grid0.Coords, EltTy.bits .f32 = 32 ∨ (Rect.block (s := S2048) S2048.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2048.size a ≤ S2048.size a
  hwx0_12 : ∀ i : grid0.Coords, EltTy.bits .f32 = 32 ∨ (Rect.block (s := S2048) S2048.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2x256x512.size a ≤ S64x256x512.size a
  hwx0_13 : ∀ i : grid0.Coords, EltTy.bits .f32 = 32 ∨ (Rect.block (s := S64x256x512) S2x256x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2x256x512.size a ≤ S64x256x512.size a
  hwx0_14 : ∀ i : grid0.Coords, EltTy.bits .f32 = 32 ∨ (Rect.block (s := S64x256x512) S2x256x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2x256x512.size a ≤ S64x256x512.size a
  hwx0_15 : ∀ i : grid0.Coords, EltTy.bits .f32 = 32 ∨ (Rect.block (s := S64x256x512) S2x256x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2x256x512.size a ≤ S64x256x512.size a
  hwx0_16 : ∀ i : grid0.Coords, EltTy.bits .f32 = 32 ∨ (Rect.block (s := S64x256x512) S2x256x512.size (cc0_transform_16 i) (hinb0_16 i)).WholeWords (EltTy.packing .f32)

variable [Facts₀]

def dot_S512x2_S2x2048_S512x2048_1_0_0_1_n_n : DotDims S512x2 S2x2048 S512x2048 where
  lhsContracting := [1]
  rhsContracting := [0]
  lhsNonContracting := [0]
  rhsNonContracting := [1]
  lhsBatch := []
  rhsBatch := []
  wf := dot_S512x2_S2x2048_S512x2048_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v0) S2x256x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x1x256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S2x1x256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S2x1x256x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S512x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S512x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S2048.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v9_0) S2x256x512.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v9_1) S2x256x512.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v9_2) S2x256x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v9_3) S2x256x512.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S256x64x2 : Shape := ⟨3, ![256, 64, 2]⟩
abbrev S64x2x256x512 : Shape := ⟨4, ![64, 2, 256, 512]⟩
abbrev S2048x2 : Shape := ⟨2, ![2048, 2]⟩
abbrev S2048x512 : Shape := ⟨2, ![2048, 512]⟩
abbrev S2048 : Shape := ⟨1, ![2048]⟩
abbrev S64x256x2 : Shape := ⟨3, ![64, 256, 2]⟩
abbrev S16384x2 : Shape := ⟨2, ![16384, 2]⟩
abbrev S2x64x256x512 : Shape := ⟨4, ![2, 64, 256, 512]⟩
abbrev S2x16384x512 : Shape := ⟨3, ![2, 16384, 512]⟩
abbrev S2x2048 : Shape := ⟨2, ![2, 2048]⟩
abbrev S16384x2048 : Shape := ⟨2, ![16384, 2048]⟩
abbrev S1x2048 : Shape := ⟨2, ![1, 2048]⟩
abbrev S1x16384x512 : Shape := ⟨3, ![1, 16384, 512]⟩
abbrev S16384x512 : Shape := ⟨2, ![16384, 512]⟩
abbrev S512x2048 : Shape := ⟨2, ![512, 2048]⟩
abbrev S_ : Shape := ⟨0, ![]⟩
abbrev S64x256x512 : Shape := ⟨3, ![64, 256, 512]⟩
abbrev S256x64x512 : Shape := ⟨3, ![256, 64, 512]⟩

abbrev nBuf : Space → Nat
  | .hbm => 127
  | .vmem => 0
  | .smem => 0
  | _ => 0

abbrev bufTy : (tb : Table) → Fin (tcTables nBuf tb) → BufTy
  | .hbm, ⟨0, _⟩ => ⟨S256x64x2, .f32⟩
  | .hbm, ⟨1, _⟩ => ⟨S64x2x256x512, .f32⟩
  | .hbm, ⟨2, _⟩ => ⟨S64x2x256x512, .f32⟩
  | .hbm, ⟨3, _⟩ => ⟨S2048x2, .f32⟩
  | .hbm, ⟨4, _⟩ => ⟨S2048x512, .f32⟩
  | .hbm, ⟨5, _⟩ => ⟨S2048, .f32⟩
  | .hbm, ⟨6, _⟩ => ⟨S2048, .f32⟩
  | .hbm, ⟨7, _⟩ => ⟨S2048x512, .f32⟩
  | .hbm, ⟨8, _⟩ => ⟨S2048x512, .f32⟩
  | .hbm, ⟨9, _⟩ => ⟨S2048, .f32⟩
  | .hbm, ⟨10, _⟩ => ⟨S2048, .f32⟩
  | .hbm, ⟨11, _⟩ => ⟨S64x256x2, .f32⟩
  | .hbm, ⟨12, _⟩ => ⟨S16384x2, .f32⟩
  | .hbm, ⟨13, _⟩ => ⟨S2x64x256x512, .f32⟩
  | .hbm, ⟨14, _⟩ => ⟨S2x16384x512, .f32⟩
  | .hbm, ⟨15, _⟩ => ⟨S2x64x256x512, .f32⟩
  | .hbm, ⟨16, _⟩ => ⟨S2x16384x512, .f32⟩
  | .hbm, ⟨17, _⟩ => ⟨S2x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x16384x512, .f32⟩
  | .hbm, ⟨23, _⟩ => ⟨S16384x512, .f32⟩
  | .hbm, ⟨24, _⟩ => ⟨S512x2048, .f32⟩
  | .hbm, ⟨25, _⟩ => ⟨S16384x2048, .f32⟩
  | .hbm, ⟨26, _⟩ => ⟨S16384x2048, .f32⟩
  | .hbm, ⟨27, _⟩ => ⟨S1x2048, .f32⟩
  | .hbm, ⟨28, _⟩ => ⟨S16384x2048, .f32⟩
  | .hbm, ⟨29, _⟩ => ⟨S16384x2048, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S16384x512, .f32⟩
  | .hbm, ⟨38, _⟩ => ⟨S16384x512, .f32⟩
  | .hbm, ⟨39, _⟩ => ⟨S_, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S_, .f32⟩
  | .hbm, ⟨45, _⟩ => ⟨S16384x512, .f32⟩
  | .hbm, ⟨46, _⟩ => ⟨S16384x512, .f32⟩
  | .hbm, ⟨47, _⟩ => ⟨S_, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S_, .f32⟩
  | .hbm, ⟨53, _⟩ => ⟨S16384x512, .f32⟩
  | .hbm, ⟨54, _⟩ => ⟨S16384x512, .f32⟩
  | .hbm, ⟨55, _⟩ => ⟨S_, .f32⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S1x16384x512, .f32⟩
  | .hbm, ⟨60, _⟩ => ⟨S16384x512, .f32⟩
  | .hbm, ⟨61, _⟩ => ⟨S16384x512, .f32⟩
  | .hbm, ⟨62, _⟩ => ⟨S16384x512, .f32⟩
  | .hbm, ⟨63, _⟩ => ⟨S16384x512, .f32⟩
  | .hbm, ⟨64, _⟩ => ⟨S16384x512, .f32⟩
  | .hbm, ⟨65, _⟩ => ⟨S16384x512, .f32⟩
  | .hbm, ⟨66, _⟩ => ⟨S512x2048, .f32⟩
  | .hbm, ⟨67, _⟩ => ⟨S16384x2048, .f32⟩
  | .hbm, ⟨68, _⟩ => ⟨S1x2048, .f32⟩
  | .hbm, ⟨69, _⟩ => ⟨S16384x2048, .f32⟩
  | .hbm, ⟨70, _⟩ => ⟨S16384x2048, .f32⟩
  | .hbm, ⟨71, _⟩ => ⟨S1x16384x512, .f32⟩
  | .hbm, ⟨72, _⟩ => ⟨S16384x512, .f32⟩
  | .hbm, ⟨73, _⟩ => ⟨S512x2048, .f32⟩
  | .hbm, ⟨74, _⟩ => ⟨S16384x2048, .f32⟩
  | .hbm, ⟨75, _⟩ => ⟨S16384x2048, .f32⟩
  | .hbm, ⟨76, _⟩ => ⟨S1x2048, .f32⟩
  | .hbm, ⟨77, _⟩ => ⟨S16384x2048, .f32⟩
  | .hbm, ⟨78, _⟩ => ⟨S16384x2048, .f32⟩
  | .hbm, ⟨79, _⟩ => ⟨S16384x512, .f32⟩
  | .hbm, ⟨80, _⟩ => ⟨S16384x512, .f32⟩
  | .hbm, ⟨81, _⟩ => ⟨S16384x512, .f32⟩
  | .hbm, ⟨82, _⟩ => ⟨S16384x512, .f32⟩
  | .hbm, ⟨83, _⟩ => ⟨S16384x512, .f32⟩
  | .hbm, ⟨84, _⟩ => ⟨S16384x512, .f32⟩
  | .hbm, ⟨85, _⟩ => ⟨S_, .f32⟩
  | .hbm, ⟨86, _⟩ => ⟨S16384x512, .f32⟩
  | .hbm, ⟨87, _⟩ => ⟨S16384x512, .f32⟩
  | .hbm, ⟨88, _⟩ => ⟨S_, .f32⟩
  | .hbm, ⟨89, _⟩ => ⟨S16384x512, .f32⟩
  | .hbm, ⟨90, _⟩ => ⟨S16384x512, .f32⟩
  | .hbm, ⟨91, _⟩ => ⟨S16384x512, .f32⟩
  | .hbm, ⟨92, _⟩ => ⟨S16384x512, .f32⟩
  | .hbm, ⟨93, _⟩ => ⟨S_, .f32⟩
  | .hbm, ⟨94, _⟩ => ⟨S16384x512, .f32⟩
  | .hbm, ⟨95, _⟩ => ⟨S16384x512, .f32⟩
  | .hbm, ⟨96, _⟩ => ⟨S_, .f32⟩
  | .hbm, ⟨97, _⟩ => ⟨S16384x512, .f32⟩
  | .hbm, ⟨98, _⟩ => ⟨S16384x512, .f32⟩
  | .hbm, ⟨99, _⟩ => ⟨S16384x512, .f32⟩
  | .hbm, ⟨100, _⟩ => ⟨S16384x512, .f32⟩
  | .hbm, ⟨101, _⟩ => ⟨S_, .f32⟩
  | .hbm, ⟨102, _⟩ => ⟨S16384x512, .f32⟩
  | .hbm, ⟨103, _⟩ => ⟨S16384x512, .f32⟩
  | .hbm, ⟨104, _⟩ => ⟨S_, .f32⟩
  | .hbm, ⟨105, _⟩ => ⟨S16384x512, .f32⟩
  | .hbm, ⟨106, _⟩ => ⟨S16384x512, .f32⟩
  | .hbm, ⟨107, _⟩ => ⟨S16384x512, .f32⟩
  | .hbm, ⟨108, _⟩ => ⟨S1x16384x512, .f32⟩
  | .hbm, ⟨109, _⟩ => ⟨S16384x512, .f32⟩
  | .hbm, ⟨110, _⟩ => ⟨S16384x512, .f32⟩
  | .hbm, ⟨111, _⟩ => ⟨S16384x512, .f32⟩
  | .hbm, ⟨112, _⟩ => ⟨S16384x512, .f32⟩
  | .hbm, ⟨113, _⟩ => ⟨S16384x512, .f32⟩
  | .hbm, ⟨114, _⟩ => ⟨S16384x512, .f32⟩
  | .hbm, ⟨115, _⟩ => ⟨S64x256x512, .f32⟩
  | .hbm, ⟨116, _⟩ => ⟨S256x64x512, .f32⟩
  | .hbm, ⟨117, _⟩ => ⟨S1x16384x512, .f32⟩
  | .hbm, ⟨118, _⟩ => ⟨S1x16384x512, .f32⟩
  | .hbm, ⟨119, _⟩ => ⟨S2x16384x512, .f32⟩
  | .hbm, ⟨120, _⟩ => ⟨S2x64x256x512, .f32⟩
  | .hbm, ⟨121, _⟩ => ⟨S64x2x256x512, .f32⟩
  | .hbm, ⟨122, _⟩ => ⟨S1x16384x512, .f32⟩
  | .hbm, ⟨123, _⟩ => ⟨S1x16384x512, .f32⟩
  | .hbm, ⟨124, _⟩ => ⟨S2x16384x512, .f32⟩
  | .hbm, ⟨125, _⟩ => ⟨S2x64x256x512, .f32⟩
  | .hbm, ⟨126, _⟩ => ⟨S64x2x256x512, .f32⟩
  | _, _ => ⟨S256x64x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_cst_0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_1 : Ref sig .tc := ⟨.hbm, 44, rfl⟩
abbrev main_v31 : Ref sig .tc := ⟨.hbm, 45, rfl⟩
abbrev main_v32 : Ref sig .tc := ⟨.hbm, 46, rfl⟩
abbrev main_cst_2 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_5 : Ref sig .tc := ⟨.hbm, 85, rfl⟩
abbrev main_v68 : Ref sig .tc := ⟨.hbm, 86, rfl⟩
abbrev main_v69 : Ref sig .tc := ⟨.hbm, 87, rfl⟩
abbrev main_cst_6 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_7 : Ref sig .tc := ⟨.hbm, 93, rfl⟩
abbrev main_v74 : Ref sig .tc := ⟨.hbm, 94, rfl⟩
abbrev main_v75 : Ref sig .tc := ⟨.hbm, 95, rfl⟩
abbrev main_cst_8 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_9 : Ref sig .tc := ⟨.hbm, 101, rfl⟩
abbrev main_v80 : Ref sig .tc := ⟨.hbm, 102, rfl⟩
abbrev main_v81 : Ref sig .tc := ⟨.hbm, 103, rfl⟩
abbrev main_cst_10 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩

abbrev nD : Nat := 1
abbrev τ : Topo := Topo.v7x

variable {F : FTy → Type} [FloatOps F]

class Facts₀ : Prop where
  transposes_S256x64x2_S64x256x2_1_0_2 : S256x64x2.Transposes [1, 0, 2] S64x256x2
  shapeCasts_S64x256x2_S16384x2 : S64x256x2.ShapeCasts S16384x2
  transposes_S64x2x256x512_S2x64x256x512_1_0_2_3 : S64x2x256x512.Transposes [1, 0, 2, 3] S2x64x256x512
  shapeCasts_S2x64x256x512_S2x16384x512 : S2x64x256x512.ShapeCasts S2x16384x512
  transposes_S2048x2_S2x2048_1_0 : S2048x2.Transposes [1, 0] S2x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S2x16384x512_S1x16384x512_0_0_0 : S2x16384x512.Slices ![0, 0, 0] S1x16384x512
  shapeCasts_S1x16384x512_S16384x512 : S1x16384x512.ShapeCasts S16384x512
  transposes_S2048x512_S512x2048_1_0 : S2048x512.Transposes [1, 0] S512x2048
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  slices_S2x16384x512_S1x16384x512_1_0_0 : S2x16384x512.Slices ![1, 0, 0] S1x16384x512
  shapeCasts_S16384x512_S64x256x512 : S16384x512.ShapeCasts S64x256x512
  transposes_S64x256x512_S256x64x512_1_0_2 : S64x256x512.Transposes [1, 0, 2] S256x64x512
  bcast_S16384x512_S1x16384x512_1_2 : S16384x512.BroadcastsInDim S1x16384x512 (![1, 2] : Fin 2 → Fin S1x16384x512.rank)
  concatenates_S1x16384x512_S1x16384x512_S2x16384x512_d0 : Shape.Concatenates [S1x16384x512, S1x16384x512] S2x16384x512 0
  shapeCasts_S2x16384x512_S2x64x256x512 : S2x16384x512.ShapeCasts S2x64x256x512
  transposes_S2x64x256x512_S64x2x256x512_1_0_2_3 : S2x64x256x512.Transposes [1, 0, 2, 3] S64x2x256x512
  dot_S16384x2_S2x2048_S16384x2048_1_0_0_1_n_n_wf : DotDims.WF S16384x2 S2x2048 S16384x2048 [1] [0] [0] [1] [] []
  dot_S16384x512_S512x2048_S16384x2048_1_0_0_1_n_n_wf : DotDims.WF S16384x512 S512x2048 S16384x2048 [1] [0] [0] [1] [] []

variable [Facts₀]

def dot_S16384x2_S2x2048_S16384x2048_1_0_0_1_n_n : DotDims S16384x2 S2x2048 S16384x2048 where
  lhsContracting := [1]
  rhsContracting := [0]
  lhsNonContracting := [0]
  rhsNonContracting := [1]
  lhsBatch := []
  rhsBatch := []
  wf := dot_S16384x2_S2x2048_S16384x2048_1_0_0_1_n_n_wf
def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf

class Facts : Prop extends Facts₀ where

variable [Facts]
-- ==== Proof.K.Body.lean ====
/-
  The body of the two-layer LSTM cell kernel and the pipeline's proof data.

  One grid point handles two pedestrians: the body loads the thirteen input blocks whole (the x rows, the two
  layers' h and c rows, four weight matrices, four bias vectors), computes both layers' gates and states, and
  stores four output blocks whole (h and c of layer 0, h and c of layer 1). This module names what each output
  block holds after the body as a function of the input blocks (`out0_13` … `out0_16`: the single whole-block
  store of each), proves the body's triple, and gives the pipeline's proof data: the arrays as the region finds
  them (the nine host operations before the region applied to the launch memory), every input block kept, every
  output block at its named value. The h0 array and the c0 array are each read through two windows (layer 0's
  and layer 1's rows); the proof data holds each of those at half the full share.
-/
import proofs.«175595_j15547781612107_1_alg».proof.Proof.Gen.Kernel.Launch
import proofs.«175595_j15547781612107_1_alg».proof.Proof.Gen.Kernel.Skeleton
import proofs.«175595_j15547781612107_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays when the region is entered -/

/-- Core `c`'s buffers at launch, as a valuation. -/
abbrev V₀ (c : Dev nD) : Valuation τ sig (Elt F) := fun b => m ((c : Dev nD), b)

/-- Core `c`'s TensorCore buffers when the region is entered: the nine host operations (the transposes of the
    x rows and of the four weight matrices, and the weights' narrowing) have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole block -/

abbrev rX : Rect S2x256x2 := Rect.unit (s := S2x256x2) ![0, 0, 0] S2x256x2.size inb_S2x256x2_S2x256x2_0_0_0
abbrev rH : Rect S2x1x256x512 := Rect.unit (s := S2x1x256x512) ![0, 0, 0, 0] S2x1x256x512.size inb_S2x1x256x512_S2x1x256x512_0_0_0_0
abbrev rWi : Rect S2x2048 := Rect.unit (s := S2x2048) ![0, 0] S2x2048.size inb_S2x2048_S2x2048_0_0
abbrev rW : Rect S512x2048 := Rect.unit (s := S512x2048) ![0, 0] S512x2048.size inb_S512x2048_S512x2048_0_0
abbrev rB : Rect S2048 := Rect.unit (s := S2048) ![0] S2048.size inb_S2048_S2048_0
abbrev rO : Rect S2x256x512 := Rect.unit (s := S2x256x512) ![0, 0, 0] S2x256x512.size inb_S2x256x512_S2x256x512_0_0_0

/-! ## What the body leaves in each output window's buffer -/

/-- Window 13's staging buffer after the body (layer 0's new h rows), from the input windows' blocks: its one whole-block store. -/
def out0_13 (x0 : Vec F S2x256x2 .f32) (x1 : Vec F S2x1x256x512 .f32) (x2 : Vec F S2x1x256x512 .f32) (x5 : Vec F S2x2048 .bf16) (x6 : Vec F S512x2048 .bf16) (x7 : Vec F S2048 .f32) (x8 : Vec F S2048 .f32) : Vec F S2x256x512 .f32 :=
  View.canon [⟨rO, k0_pay12 (k0_pay3 (View.ld x2 rH)) (k0_pay6 (View.ld x0 rX) (View.ld x1 rH) (View.ld x5 rWi) (View.ld x6 rW) (View.ld x7 rB) (View.ld x8 rB))⟩]

/-- Window 14's staging buffer after the body (layer 0's new c rows), from the input windows' blocks: its one whole-block store. -/
def out0_14 (x0 : Vec F S2x256x2 .f32) (x1 : Vec F S2x1x256x512 .f32) (x2 : Vec F S2x1x256x512 .f32) (x5 : Vec F S2x2048 .bf16) (x6 : Vec F S512x2048 .bf16) (x7 : Vec F S2048 .f32) (x8 : Vec F S2048 .f32) : Vec F S2x256x512 .f32 :=
  View.canon [⟨rO, k0_pay13 (k0_pay3 (View.ld x2 rH)) (k0_pay6 (View.ld x0 rX) (View.ld x1 rH) (View.ld x5 rWi) (View.ld x6 rW) (View.ld x7 rB) (View.ld x8 rB))⟩]

/-- Window 15's staging buffer after the body (layer 1's new h rows), from the input windows' blocks: its one whole-block store. -/
def out0_15 (x0 : Vec F S2x256x2 .f32) (x1 : Vec F S2x1x256x512 .f32) (x2 : Vec F S2x1x256x512 .f32) (x3 : Vec F S2x1x256x512 .f32) (x4 : Vec F S2x1x256x512 .f32) (x5 : Vec F S2x2048 .bf16) (x6 : Vec F S512x2048 .bf16) (x7 : Vec F S2048 .f32) (x8 : Vec F S2048 .f32) (x9 : Vec F S512x2048 .bf16) (x10 : Vec F S512x2048 .bf16) (x11 : Vec F S2048 .f32) (x12 : Vec F S2048 .f32) : Vec F S2x256x512 .f32 :=
  View.canon [⟨rO, k0_pay1 (k0_pay11 (k0_pay3 (View.ld x2 rH)) (k0_pay4 (View.ld x3 rH)) (k0_pay5 (View.ld x4 rH)) (k0_pay6 (View.ld x0 rX) (View.ld x1 rH) (View.ld x5 rWi) (View.ld x6 rW) (View.ld x7 rB) (View.ld x8 rB)) (View.ld x9 rW) (View.ld x10 rW) (View.ld x11 rB) (View.ld x12 rB))⟩]

/-- Window 16's staging buffer after the body (layer 1's new c rows), from the input windows' blocks: its one whole-block store. -/
def out0_16 (x0 : Vec F S2x256x2 .f32) (x1 : Vec F S2x1x256x512 .f32) (x2 : Vec F S2x1x256x512 .f32) (x3 : Vec F S2x1x256x512 .f32) (x4 : Vec F S2x1x256x512 .f32) (x5 : Vec F S2x2048 .bf16) (x6 : Vec F S512x2048 .bf16) (x7 : Vec F S2048 .f32) (x8 : Vec F S2048 .f32) (x9 : Vec F S512x2048 .bf16) (x10 : Vec F S512x2048 .bf16) (x11 : Vec F S2048 .f32) (x12 : Vec F S2048 .f32) : Vec F S2x256x512 .f32 :=
  View.canon [⟨rO, k0_pay2 (k0_pay10 (k0_pay3 (View.ld x2 rH)) (k0_pay4 (View.ld x3 rH)) (k0_pay5 (View.ld x4 rH)) (k0_pay6 (View.ld x0 rX) (View.ld x1 rH) (View.ld x5 rWi) (View.ld x6 rW) (View.ld x7 rB) (View.ld x8 rB)) (View.ld x9 rW) (View.ld x10 rW) (View.ld x11 rB) (View.ld x12 rB))⟩]

/-- One whole-block store covers the block. -/
theorem cover0 (p0 : Vec F S2x256x512 .f32) (y : S2x256x512.Idx) :
    ∃ pc ∈ ([⟨rO, p0⟩] : List (View.Piece (Elt F) S2x256x512 .f32)), y ∈ pc.1.set :=
  View.cover_of_tiled [⟨rO, p0⟩] S2x256x512.size (by rfl) y

/-! ## The body's triple -/

set_option maxHeartbeats 4000000 in
/-- The kernel body on whole staging memrefs, the inputs' at read contents `xW` and the outputs' at anything, runs to
    the continuation holding the inputs' as they were and each output's at `out0_W` of the inputs'. -/
theorem sound_kernel (c : Dev nD) (E : Set ℕ) (i : grid0.Coords) (arg1 : Memref sig .tc .vmem S2x256x2 .f32) (harg1 : arg1.IsWhole) (arg2 : Memref sig .tc .vmem S2x1x256x512 .f32) (harg2 : arg2.IsWhole) (arg3 : Memref sig .tc .vmem S2x1x256x512 .f32) (harg3 : arg3.IsWhole) (arg4 : Memref sig .tc .vmem S2x1x256x512 .f32) (harg4 : arg4.IsWhole) (arg5 : Memref sig .tc .vmem S2x1x256x512 .f32) (harg5 : arg5.IsWhole) (arg6 : Memref sig .tc .vmem S2x2048 .bf16) (harg6 : arg6.IsWhole) (arg7 : Memref sig .tc .vmem S512x2048 .bf16) (harg7 : arg7.IsWhole) (arg8 : Memref sig .tc .vmem S2048 .f32) (harg8 : arg8.IsWhole) (arg9 : Memref sig .tc .vmem S2048 .f32) (harg9 : arg9.IsWhole) (arg10 : Memref sig .tc .vmem S512x2048 .bf16) (harg10 : arg10.IsWhole) (arg11 : Memref sig .tc .vmem S512x2048 .bf16) (harg11 : arg11.IsWhole) (arg12 : Memref sig .tc .vmem S2048 .f32) (harg12 : arg12.IsWhole) (arg13 : Memref sig .tc .vmem S2048 .f32) (harg13 : arg13.IsWhole) (arg14 : Memref sig .tc .vmem S2x256x512 .f32) (harg14 : arg14.IsWhole) (arg15 : Memref sig .tc .vmem S2x256x512 .f32) (harg15 : arg15.IsWhole) (arg16 : Memref sig .tc .vmem S2x256x512 .f32) (harg16 : arg16.IsWhole) (arg17 : Memref sig .tc .vmem S2x256x512 .f32) (harg17 : arg17.IsWhole)
    (x0 : Vec F S2x256x2 .f32) (x1 : Vec F S2x1x256x512 .f32) (x2 : Vec F S2x1x256x512 .f32) (x3 : Vec F S2x1x256x512 .f32) (x4 : Vec F S2x1x256x512 .f32) (x5 : Vec F S2x2048 .bf16) (x6 : Vec F S512x2048 .bf16) (x7 : Vec F S2048 .f32) (x8 : Vec F S2048 .f32) (x9 : Vec F S512x2048 .bf16) (x10 : Vec F S512x2048 .bf16) (x11 : Vec F S2048 .f32) (x12 : Vec F S2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x5 x6 x7 x8) ∗ owns (c : Thread nD τ) arg15 fullShare (out0_14 x0 x1 x2 x5 x6 x7 x8) ∗ owns (c : Thread nD τ) arg16 fullShare (out0_15 x0 x1 x2 x3 x4 x5 x6 x7 x8 x9 x10 x11 x12) ∗ owns (c : Thread nD τ) arg17 fullShare (out0_16 x0 x1 x2 x3 x4 x5 x6 x7 x8 x9 x10 x11 x12)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  -- the body is its sequence of whole-block loads and stores over the named payloads
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, Hk⟩
  subst hf0 hf1 hf2 hf3 hf4 hf5 hf6 hf7 hf8 hf9 hf10 hf11 hf12
  sl_exec
  sl_step
  -- every input buffer is as it was; every output buffer holds its one whole-block store, which covers the block
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover0 _)
  isplitl [H14]
  · iexists _; isplitr
    swap; · iexact H14
    ipureintro
    exact View.read_writes_eq_canon _ _ _ (cover0 _)
  isplitl [H15]
  · iexists _; isplitr
    swap; · iexact H15
    ipureintro
    exact View.read_writes_eq_canon _ _ _ (cover0 _)
  iexists _; isplitr
  swap; · iexact H16
  ipureintro
  exact View.read_writes_eq_canon _ _ _ (cover0 _)

/-! ## The pipeline's proof data -/

/-- The proof data of the one pipeline on core `c`: the arrays as the region finds them; after the body at point `t`
    each input's buffer at its block and each output's at `out0_W` of the input blocks; the invariant the scoped
    buffers no window stages (there are none); nothing owed; the two windows on the h0 array, and the two on the c0
    array, at half the full share each, every other input at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 5 t) (iblk m c 6 t) (iblk m c 7 t) (iblk m c 8 t)
    | ⟨14, _⟩ => out0_14 (iblk m c 0 t) (iblk m c 1 t) (iblk m c 2 t) (iblk m c 5 t) (iblk m c 6 t) (iblk m c 7 t) (iblk m c 8 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨_ + 17, h⟩ => absurd h (Nat.not_lt.2 (Nat.le_add_left _ _))
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.left
    | ⟨3, _⟩ => fullShare.right
    | ⟨4, _⟩ => fullShare.right
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨_ + 17, h⟩ => absurd h (Nat.not_lt.2 (Nat.le_add_left _ _))
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 5 t) (iblk m c 6 t) (iblk m c 7 t) (iblk m c 8 t) := by dsimp only [dats]
theorem after0_14 (c : Dev nD) (t : Fin cfg0.N) : (dats m 0 c).after 14 t = out0_14 (iblk m c 0 t) (iblk m c 1 t) (iblk m c 2 t) (iblk m c 5 t) (iblk m c 6 t) (iblk m c 7 t) (iblk m c 8 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- The invariant is the same at every point. -/
theorem Φ_eq (c : Dev nD) (n : Fin (cfg0.N + 1)) : (dats m 0 c).Φ n
    = Pipeline.scopedRest (Ix := Unit) (Name := ℕ) (U := UR sig nD τ) (Lvl := ℕ) (Val := Elt F) spec0 c := by
  dsimp only [dats]

/-- Nothing is owed at any point. -/
theorem owed_eq (c : Dev nD) (n : Fin (cfg0.N + 1)) : (dats m 0 c).owed n = 0 := by dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

/-- The body at any point: the inputs' memrefs hold their blocks, so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  -- each input's staging buffer holds its block; the invariant and what is owed are the same before and after
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Tail.lean ====
/-
  The host operations after the region: the four result arrays the kernel wrote are broadcast to a unit layer axis
  and concatenated pairwise along it (the stacked h rows, the stacked c rows), and layer 1's h rows are transposed
  to batch-major order. This module names the valuation those seven operations start from: the buffers as the region
  was entered, with the four result arrays at what the pipeline's write-backs left in them.
-/
import proofs.«175595_j15547781612107_1_alg».proof.Proof.K.Body
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- Window `w`'s array after the last grid point's write-back. -/
abbrev res (c : Dev nD) (w : Fin cfg0.W) : Buf (Elt F) ((cfg0.win w).arr.view.loc (c : Thread nD τ)) := (dats m 0 c).arrAt w cfg0.N

/-- The four output windows (13 … 16), whose arrays are four distinct buffers. -/
abbrev outWin : Fin 4 → Pipeline.WinSpec sig grid0.rank := fun | 0 => spec0 13 | 1 => spec0 14 | 2 => spec0 15 | 3 => spec0 16

theorem outWin_inj : Function.Injective (Pipeline.arrRef outWin) := by decide

/-- The four result arrays after the region, as a family over `outWin`. -/
abbrev resOut (c : Dev nD) : (k : Fin 4) → Buf (Elt F) ((outWin k).arr.view.loc (c : Thread nD τ)) :=
  fun | 0 => res m c 13 | 1 => res m c 14 | 2 => res m c 15 | 3 => res m c 16

/-- The buffers the host operations after the region start from: as the region was entered, the four results as the
    region left them. -/
def Vt (c : Dev nD) : Valuation τ sig (Elt F) :=
  Pipeline.withArrays outWin c (StableHlo.after hostOps0 (V₀ m c)) (resOut m c)

theorem Vt_v9_0 (c : Dev nD) : Vt m c (Proc.devRef .tc main_v9_0) = res m c 13 :=
  Pipeline.withArrays_arr outWin outWin_inj c _ (resOut m c) 0
theorem Vt_v9_1 (c : Dev nD) : Vt m c (Proc.devRef .tc main_v9_1) = res m c 14 :=
  Pipeline.withArrays_arr outWin outWin_inj c _ (resOut m c) 1
theorem Vt_v9_2 (c : Dev nD) : Vt m c (Proc.devRef .tc main_v9_2) = res m c 15 :=
  Pipeline.withArrays_arr outWin outWin_inj c _ (resOut m c) 2
theorem Vt_v9_3 (c : Dev nD) : Vt m c (Proc.devRef .tc main_v9_3) = res m c 16 :=
  Pipeline.withArrays_arr outWin outWin_inj c _ (resOut m c) 3

/-- A buffer that is none of the four results is as the region was entered. -/
theorem Vt_of_ne (c : Dev nD) (b : Ref sig .tc) (hb : b ≠ main_v9_0 ∧ b ≠ main_v9_1 ∧ b ≠ main_v9_2 ∧ b ≠ main_v9_3) :
    Vt m c (Proc.devRef .tc b) = StableHlo.after hostOps0 (V₀ m c) (Proc.devRef .tc b) :=
  Pipeline.withArrays_of_ne outWin c _ (resOut m c) b (fun | 0 => hb.1.symm | 1 => hb.2.1.symm | 2 => hb.2.2.1.symm | 3 => hb.2.2.2.symm)

end Cert.Kernel.Hand

end
-- ==== Proof.K.Launch.lean ====
/-
  The launch of the two-layer LSTM cell program: @main as three segments, and its run.

  @main is nine host operations (the transposes of the x rows and of the four weight matrices, the weights'
  narrowing), ONE kernel region (the pipeline over seventeen windows on a grid of thirty-two points), and seven host
  operations (the four result arrays broadcast to a unit layer axis and concatenated pairwise, layer 1's h rows
  transposed). Its run, for every float model: from any memory whose semaphore counters are zero, every weakly fair
  execution of @main on the TensorCores terminates, and every final state holds the three returned values as the last
  seven operations compute them from what the pipeline's write-backs left in the four result arrays, and the eleven
  arguments as launched (`run_main`).

  Two pairs of windows share an array: windows 1 and 3 both read the h0 array, windows 2 and 4 both read the c0 array.
  So the arrays behind the seventeen windows are fifteen buffers, and at the region's entry the h0 buffer and the c0
  buffer, each held whole at the full share, are each split into the two halves of the full share their two windows
  hold (`arrays_of_arrBufs`). Every other unscoped buffer bypasses the region. At the region's exit the four result
  arrays and the seven buffers the last operations fill make the buffers those operations run over, at the valuation
  `Vt`; the eleven arguments' buffers — six of them windows' arrays, never written, five of them bypassing — ride past
  the last seven operations and are read at the end, where each is shown to hold its launch contents because no host
  operation writes an argument.
-/
import proofs.«175595_j15547781612107_1_alg».proof.Proof.K.Tail
import Idealize.ShloMosaic.Lib.Pipeline.Regions

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pipeline library's algebra is the whole user component. -/
abbrev EP : Emb (UR sig nD τ) (MT nD τ sig Unit (Elt F) ℕ (UR sig nD τ) ℕ) := emb₁

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

abbrev R (c : Dev nD) : sProp 𝕄 := iprop(∃ W, owes (c : Thread nD τ) (0 : CellTallies nD τ sig Unit) W)

/-- The nine operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-! ## The arrays behind the windows -/

/-- The fifteen distinct buffers behind the seventeen windows' arrays. -/
theorem arrImage : Finset.univ.image (Pipeline.arrRef spec0)
    = [main_v0, main_arg1, main_arg2, main_v2, main_v4, main_arg5, main_arg6, main_v6, main_v8, main_arg9, main_arg10,
        main_v9_0, main_v9_1, main_v9_2, main_v9_3].toFinset := by decide

omit [FloatOps F] in
/-- Those buffers whole at the full share, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_arg1) ↦{fullShare} W main_arg1)
        ∗ (((c : Thread nD τ).loc main_arg2) ↦{fullShare} W main_arg2) ∗ (((c : Thread nD τ).loc main_v2) ↦{fullShare} W main_v2)
        ∗ (((c : Thread nD τ).loc main_v4) ↦{fullShare} W main_v4) ∗ (((c : Thread nD τ).loc main_arg5) ↦{fullShare} W main_arg5)
        ∗ (((c : Thread nD τ).loc main_arg6) ↦{fullShare} W main_arg6) ∗ (((c : Thread nD τ).loc main_v6) ↦{fullShare} W main_v6)
        ∗ (((c : Thread nD τ).loc main_v8) ↦{fullShare} W main_v8) ∗ (((c : Thread nD τ).loc main_arg9) ↦{fullShare} W main_arg9)
        ∗ (((c : Thread nD τ).loc main_arg10) ↦{fullShare} W main_arg10) ∗ (((c : Thread nD τ).loc main_v9_0) ↦{fullShare} W main_v9_0)
        ∗ (((c : Thread nD τ).loc main_v9_1) ↦{fullShare} W main_v9_1) ∗ (((c : Thread nD τ).loc main_v9_2) ↦{fullShare} W main_v9_2)
        ∗ (((c : Thread nD τ).loc main_v9_3) ↦{fullShare} W main_v9_3)) := by
  unfold Pipeline.arrBufs
  exact bigSep_eq_bigSepL_of_eq _ arrImage (by decide) _

/-- A window's array is a whole buffer. -/
theorem arr_pt (c : Dev nD) (w : Fin cfg0.W) (G : Buf (Elt F) ((cfg0.win w).arr.view.loc (c : Thread nD τ))) :
    ((cfg0.win w).arr.view.loc (c : Thread nD τ) ↦[(cfg0.win w).arr.view.set]{(dats m 0 c).share w} G : sProp 𝕄)
      = ((cfg0.win w).arr.view.loc (c : Thread nD τ) ↦{(dats m 0 c).share w} G) := by
  rw [(arr_whole0 w).set_eq_univ]

/-- The pipeline's arrays at contents `G`, window by window: each a whole buffer, the h0 and c0 arrays at half the full share
    per window. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_v0) ↦{fullShare} G 0) ∗ (((c : Thread nD τ).loc main_arg1) ↦{fullShare.left} G 1)
        ∗ (((c : Thread nD τ).loc main_arg2) ↦{fullShare.left} G 2) ∗ (((c : Thread nD τ).loc main_arg1) ↦{fullShare.right} G 3)
        ∗ (((c : Thread nD τ).loc main_arg2) ↦{fullShare.right} G 4) ∗ (((c : Thread nD τ).loc main_v2) ↦{fullShare} G 5)
        ∗ (((c : Thread nD τ).loc main_v4) ↦{fullShare} G 6) ∗ (((c : Thread nD τ).loc main_arg5) ↦{fullShare} G 7)
        ∗ (((c : Thread nD τ).loc main_arg6) ↦{fullShare} G 8) ∗ (((c : Thread nD τ).loc main_v6) ↦{fullShare} G 9)
        ∗ (((c : Thread nD τ).loc main_v8) ↦{fullShare} G 10) ∗ (((c : Thread nD τ).loc main_arg9) ↦{fullShare} G 11)
        ∗ (((c : Thread nD τ).loc main_arg10) ↦{fullShare} G 12) ∗ (((c : Thread nD τ).loc main_v9_0) ↦{fullShare} G 13)
        ∗ (((c : Thread nD τ).loc main_v9_1) ↦{fullShare} G 14) ∗ (((c : Thread nD τ).loc main_v9_2) ↦{fullShare} G 15)
        ∗ (((c : Thread nD τ).loc main_v9_3) ↦{fullShare} G 16)) := by
  unfold Pipeline.Dat.arrays
  refine (bigSep_congr fun w _ => arr_pt m c w (G w)).trans ?_
  rw [bigSep_W0]
  rfl

/-- ENTRY, the arrays: the fifteen buffers behind the windows' arrays, whole at the region-entry contents, make the
    pipeline's arrays at entry — the h0 buffer and the c0 buffer each split into the halves their two windows hold. -/
theorem arrays_of_arrBufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_chain]
  iintro ⟨H0, H1, H2, H5, H6, H7, H8, H9, H10, H11, H12, H13, H14, H15, H16⟩
  ihave H1' := (pointsTo_share (PosShare.mem_left_op_right fullShare)).1 $$ H1
  icases H1' with ⟨H1, H3⟩
  ihave H2' := (pointsTo_share (PosShare.mem_left_op_right fullShare)).1 $$ H2
  icases H2' with ⟨H2, H4⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-! ## The host operations after the region -/

/-- The buffers the seven operations after the region touch: the four results and the seven values made of them. -/
abbrev tailRefs : List (Ref sig .tc) :=
  [main_v9_0, main_v9_1, main_v9_2, main_v9_3, main_v10, main_v11, main_v12, main_v13, main_v14, main_v15, main_v16]

/-- The same, as device buffers. -/
def S1 : Finset (DevRef τ sig) := tailRefs.toFinset.map ⟨Proc.devRef (sig := sig) (.tc : Proc τ), Proc.devRef_injective _⟩

omit [FloatOps F] in
/-- Those eleven held at a valuation, one by one. -/
theorem held_S1 (c : Dev nD) (W : Valuation τ sig (Elt F)) :
    (StableHlo.held (c : Thread nD τ) S1 W : sProp 𝕄)
      = iprop((((c : Thread nD τ).loc main_v9_0) ↦{fullShare} W (Proc.devRef .tc main_v9_0)) ∗ (((c : Thread nD τ).loc main_v9_1) ↦{fullShare} W (Proc.devRef .tc main_v9_1))
        ∗ (((c : Thread nD τ).loc main_v9_2) ↦{fullShare} W (Proc.devRef .tc main_v9_2)) ∗ (((c : Thread nD τ).loc main_v9_3) ↦{fullShare} W (Proc.devRef .tc main_v9_3))
        ∗ (((c : Thread nD τ).loc main_v10) ↦{fullShare} W (Proc.devRef .tc main_v10)) ∗ (((c : Thread nD τ).loc main_v11) ↦{fullShare} W (Proc.devRef .tc main_v11))
        ∗ (((c : Thread nD τ).loc main_v12) ↦{fullShare} W (Proc.devRef .tc main_v12)) ∗ (((c : Thread nD τ).loc main_v13) ↦{fullShare} W (Proc.devRef .tc main_v13))
        ∗ (((c : Thread nD τ).loc main_v14) ↦{fullShare} W (Proc.devRef .tc main_v14)) ∗ (((c : Thread nD τ).loc main_v15) ↦{fullShare} W (Proc.devRef .tc main_v15))
        ∗ (((c : Thread nD τ).loc main_v16) ↦{fullShare} W (Proc.devRef .tc main_v16))) := by
  unfold StableHlo.held S1
  rw [bigSep_map, bigSep_eq_bigSepL _ (by decide)]
  rfl

omit [FloatOps F] in
theorem mem_S1 {r : Ref sig .tc} (h : r ∈ tailRefs) : Proc.devRef (τ := τ) .tc r ∈ S1 :=
  Finset.mem_map_of_mem _ (List.mem_toFinset.mpr h)

omit [FloatOps F] in
/-- Each of the seven operations touches only those. -/
theorem hostOps1_S1 : ∀ op ∈ (hostOps1 : List (HloOp τ sig (Elt F))), op.bufs ⊆ S1 := by
  intro op hop
  simp only [List.mem_cons, List.mem_nil_iff, or_false] at hop
  rcases hop with rfl | rfl | rfl | rfl | rfl | rfl | rfl
  · exact Finset.insert_subset_iff.mpr ⟨mem_S1 (by decide), Finset.singleton_subset_iff.mpr (mem_S1 (by decide))⟩
  · exact Finset.insert_subset_iff.mpr ⟨mem_S1 (by decide), Finset.singleton_subset_iff.mpr (mem_S1 (by decide))⟩
  · exact Finset.insert_subset_iff.mpr ⟨mem_S1 (by decide), Finset.insert_subset_iff.mpr ⟨mem_S1 (by decide), Finset.singleton_subset_iff.mpr (mem_S1 (by decide))⟩⟩
  · exact Finset.insert_subset_iff.mpr ⟨mem_S1 (by decide), Finset.singleton_subset_iff.mpr (mem_S1 (by decide))⟩
  · exact Finset.insert_subset_iff.mpr ⟨mem_S1 (by decide), Finset.singleton_subset_iff.mpr (mem_S1 (by decide))⟩
  · exact Finset.insert_subset_iff.mpr ⟨mem_S1 (by decide), Finset.insert_subset_iff.mpr ⟨mem_S1 (by decide), Finset.singleton_subset_iff.mpr (mem_S1 (by decide))⟩⟩
  · exact Finset.insert_subset_iff.mpr ⟨mem_S1 (by decide), Finset.singleton_subset_iff.mpr (mem_S1 (by decide))⟩

/-- The eleven arguments' buffers, each at some share, at what the region left or passed by: what rides past the
    last seven operations to be read at the end. -/
def Rest (c : Dev nD) : sProp 𝕄 :=
  iprop((((c : Thread nD τ).loc main_arg0) ↦{fullShare} V m c main_arg0)
    ∗ (((c : Thread nD τ).loc main_arg1) ↦{fullShare.left} res m c 1)
    ∗ (((c : Thread nD τ).loc main_arg2) ↦{fullShare.left} res m c 2)
    ∗ (((c : Thread nD τ).loc main_arg3) ↦{fullShare} V m c main_arg3)
    ∗ (((c : Thread nD τ).loc main_arg4) ↦{fullShare} V m c main_arg4)
    ∗ (((c : Thread nD τ).loc main_arg5) ↦{fullShare} res m c 7)
    ∗ (((c : Thread nD τ).loc main_arg6) ↦{fullShare} res m c 8)
    ∗ (((c : Thread nD τ).loc main_arg7) ↦{fullShare} V m c main_arg7)
    ∗ (((c : Thread nD τ).loc main_arg8) ↦{fullShare} V m c main_arg8)
    ∗ (((c : Thread nD τ).loc main_arg9) ↦{fullShare} res m c 11)
    ∗ (((c : Thread nD τ).loc main_arg10) ↦{fullShare} res m c 12))

/-- What rides beside the eleven buffers through the last seven operations. -/
abbrev R1 (c : Dev nD) : sProp 𝕄 := iprop(Rest m c ∗ R c)

/-- The seven operations after the region, over the four results and the values made of them. -/
def seg1 : Pipeline.HostSeg (Name := ℕ) (U := UR sig nD τ) (pcfgs (F := F)) defs₀ 𝒱₀ L lv :=
  Pipeline.HostSeg.ofOps _ _ _ _ _ S1 hostOps1 hostOps1_S1
    (by intro _ h; (repeat (cases h with | head => rfl | tail _ h => ?_)); exact nomatch h) (Vt m) (R1 m)

/-! ## What no host operation writes -/

/-- The nine operations before the region write the nine values they make and nothing else. -/
theorem not_written (b : Ref sig .tc) (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8) :
    ∀ op ∈ (hostOps0 : List (HloOp τ sig (Elt F))), Proc.devRef .tc b ∉ op.writes := by
  obtain ⟨h0, h1, h2, h3, h4, h5, h6, h7, h8⟩ := hb
  intro op hop
  simp only [List.mem_cons, List.mem_nil_iff, or_false] at hop
  rcases hop with rfl | rfl | rfl | rfl | rfl | rfl | rfl | rfl | rfl <;>
    simp only [StableHlo.unary_writes, Finset.mem_singleton] <;>
    exact StableHlo.devRef_ne_of_ne ‹_›

/-- A buffer that is none of those nine values reaches the region as launched. -/
theorem V_arg (c : Dev nD) (b : Ref sig .tc) (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8) :
    V m c b = m ((c : Thread nD τ).loc b) :=
  StableHlo.after_of_forall_not_mem (b := Proc.devRef .tc b) hostOps0 (V₀ m c) (not_written b hb)

/-! ## The region -/

/-- The unscoped buffers behind no window, at the region-entry contents: they bypass the region. -/
abbrev Zc (c : Dev nD) : sProp 𝕄 :=
  Pipeline.unscopedRest (Ix := Unit) (Name := ℕ) (U := UR sig nD τ) (Lvl := ℕ) spec0 c (V m c)

/-- ENTRY: the unscoped buffers at the region-entry contents are the pipeline's arrays at entry and the bypassing rest. -/
theorem entry_split (c : Dev nD) :
    (unscopedBufs c (V m c) : sProp 𝕄) ⊢ iprop((dats m 0 c).arrays ((dats m 0 c).arrAt · 0) ∗ Zc m c) := by
  rw [Pipeline.unscopedBufs_split₀ cfgs 0 winFacts₀0.arr_unscoped c (V m c)]
  exact sep_mono (arrays_of_arrBufs m c) .rfl

/-- An input window's array is never written: it holds the launch contents at every point. -/
theorem arrAt_1 (c : Dev nD) (t : Nat) : (dats m 0 c).arrAt 1 t = m ((c : Thread nD τ).loc main_arg1) :=
  ((dats m 0 c).arrAt_in 1 rfl t).trans (V_arg m c main_arg1 (by decide))
theorem arrAt_2 (c : Dev nD) (t : Nat) : (dats m 0 c).arrAt 2 t = m ((c : Thread nD τ).loc main_arg2) :=
  ((dats m 0 c).arrAt_in 2 rfl t).trans (V_arg m c main_arg2 (by decide))
theorem arrAt_7 (c : Dev nD) (t : Nat) : (dats m 0 c).arrAt 7 t = m ((c : Thread nD τ).loc main_arg5) :=
  ((dats m 0 c).arrAt_in 7 rfl t).trans (V_arg m c main_arg5 (by decide))
theorem arrAt_8 (c : Dev nD) (t : Nat) : (dats m 0 c).arrAt 8 t = m ((c : Thread nD τ).loc main_arg6) :=
  ((dats m 0 c).arrAt_in 8 rfl t).trans (V_arg m c main_arg6 (by decide))
theorem arrAt_11 (c : Dev nD) (t : Nat) : (dats m 0 c).arrAt 11 t = m ((c : Thread nD τ).loc main_arg9) :=
  ((dats m 0 c).arrAt_in 11 rfl t).trans (V_arg m c main_arg9 (by decide))
theorem arrAt_12 (c : Dev nD) (t : Nat) : (dats m 0 c).arrAt 12 t = m ((c : Thread nD τ).loc main_arg10) :=
  ((dats m 0 c).arrAt_in 12 rfl t).trans (V_arg m c main_arg10 (by decide))

/-- A value the last seven operations make is, before them, as the region was entered. -/
theorem Vt10 (c : Dev nD) : Vt m c (Proc.devRef .tc main_v10) = V m c main_v10 := Vt_of_ne m c main_v10 (by decide)
theorem Vt11 (c : Dev nD) : Vt m c (Proc.devRef .tc main_v11) = V m c main_v11 := Vt_of_ne m c main_v11 (by decide)
theorem Vt12 (c : Dev nD) : Vt m c (Proc.devRef .tc main_v12) = V m c main_v12 := Vt_of_ne m c main_v12 (by decide)
theorem Vt13 (c : Dev nD) : Vt m c (Proc.devRef .tc main_v13) = V m c main_v13 := Vt_of_ne m c main_v13 (by decide)
theorem Vt14 (c : Dev nD) : Vt m c (Proc.devRef .tc main_v14) = V m c main_v14 := Vt_of_ne m c main_v14 (by decide)
theorem Vt15 (c : Dev nD) : Vt m c (Proc.devRef .tc main_v15) = V m c main_v15 := Vt_of_ne m c main_v15 (by decide)
theorem Vt16 (c : Dev nD) : Vt m c (Proc.devRef .tc main_v16) = V m c main_v16 := Vt_of_ne m c main_v16 (by decide)

/-- The eleven buffers of the last seven operations, held at the valuation those start from: the four results as the
    region left them, the seven values as the region was entered. -/
theorem held_S1_Vt (c : Dev nD) :
    (StableHlo.held (c : Thread nD τ) S1 (Vt m c) : sProp 𝕄)
      = iprop((((c : Thread nD τ).loc main_v9_0) ↦{fullShare} res m c 13) ∗ (((c : Thread nD τ).loc main_v9_1) ↦{fullShare} res m c 14)
        ∗ (((c : Thread nD τ).loc main_v9_2) ↦{fullShare} res m c 15) ∗ (((c : Thread nD τ).loc main_v9_3) ↦{fullShare} res m c 16)
        ∗ (((c : Thread nD τ).loc main_v10) ↦{fullShare} V m c main_v10) ∗ (((c : Thread nD τ).loc main_v11) ↦{fullShare} V m c main_v11)
        ∗ (((c : Thread nD τ).loc main_v12) ↦{fullShare} V m c main_v12) ∗ (((c : Thread nD τ).loc main_v13) ↦{fullShare} V m c main_v13)
        ∗ (((c : Thread nD τ).loc main_v14) ↦{fullShare} V m c main_v14) ∗ (((c : Thread nD τ).loc main_v15) ↦{fullShare} V m c main_v15)
        ∗ (((c : Thread nD τ).loc main_v16) ↦{fullShare} V m c main_v16)) := by
  rw [held_S1, Vt_v9_0, Vt_v9_1, Vt_v9_2, Vt_v9_3, Vt10, Vt11, Vt12, Vt13, Vt14, Vt15, Vt16]

/-- EXIT: the arrays at their final contents and the bypassing buffers make the eleven buffers of the last seven
    operations at the valuation those start from, and the eleven arguments' buffers. -/
theorem exit_join (c : Dev nD) :
    iprop((dats m 0 c).arrays ((dats m 0 c).arrAt · cfg0.N) ∗ Zc m c)
      ⊢ (iprop(StableHlo.held (c : Thread nD τ) S1 (Vt m c) ∗ Rest m c) : sProp 𝕄) := by
  unfold Zc Rest
  rw [arrays_chain, held_S1_Vt, unscopedRest0_eq]
  iintro ⟨⟨-, A1, A2, -, -, -, -, A7, A8, -, -, A11, A12, A13, A14, A15, A16⟩, ⟨Z0, Z3, Z4, Z7, Z8, -, -, -, -, Zv10, Zv11, Zv12, Zv13, Zv14, Zv15, Zv16⟩⟩
  isplitl [A13 A14 A15 A16 Zv10 Zv11 Zv12 Zv13 Zv14 Zv15 Zv16]
  · isplitl [A13]; · iexact A13
    isplitl [A14]; · iexact A14
    isplitl [A15]; · iexact A15
    isplitl [A16]; · iexact A16
    isplitl [Zv10]; · iexact Zv10
    isplitl [Zv11]; · iexact Zv11
    isplitl [Zv12]; · iexact Zv12
    isplitl [Zv13]; · iexact Zv13
    isplitl [Zv14]; · iexact Zv14
    isplitl [Zv15]; · iexact Zv15
    iexact Zv16
  isplitl [Z0]; · iexact Z0
  isplitl [A1]; · iexact A1
  isplitl [A2]; · iexact A2
  isplitl [Z3]; · iexact Z3
  isplitl [Z4]; · iexact Z4
  isplitl [A7]; · iexact A7
  isplitl [A8]; · iexact A8
  isplitl [Z7]; · iexact Z7
  isplitl [Z8]; · iexact Z8
  isplitl [A11]; · iexact A11
  iexact A12

set_option backward.isDefEq.respectTransparency.types false in
/-- THE REGION: the layout decided for the seventeen windows, no semaphore of the kernel's own, the body obligation;
    entered from what the first nine operations left — the windows' arrays into the pipeline, every other unscoped
    buffer bypassing —, left with the eleven buffers of the last seven operations and the eleven arguments' buffers. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun c t => owed_eq m c t
  pre c := iprop(StableHlo.held (c : Thread nD τ) (Pipeline.ucRefs τ sig) (StableHlo.after hostOps0 (V₀ m c)) ∗ R c)
  post c := iprop(StableHlo.held (c : Thread nD τ) S1 (Vt m c) ∗ R1 m c)
  X _ := iprop(emp)
  Y _ := iprop(emp)
  Z c := Zc m c
  hentry c := by
    rw [show StableHlo.held (c : Thread nD τ) (Pipeline.ucRefs τ sig) (StableHlo.after hostOps0 (V₀ m c)) = unscopedBufs c (V m c) from (Pipeline.unscopedBufs_held c _).symm]
    iintro ⟨⟨Hub, HO⟩, -, -⟩
    ihave H := (entry_split m c) $$ Hub
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [Φ_eq]
    iintro ⟨-, -, Hr⟩
    iexact Hr
  hout c := by
    rw [Φ_eq, Pipeline.ownSems0_none]
    iintro Hr
    isplitr; · iempintro
    isplitr; · iempintro
    iexact Hr
  hexit c := by
    iintro ⟨Ha, HO, -, HZ⟩
    ihave H := (exit_join m c) $$ [Ha HZ]
    · isplitl [Ha] <;> iassumption
    icases H with ⟨Hh, HR⟩
    imodintro
    isplitl [Hh]; · iexact Hh
    isplitl [HR]; · iexact HR
    unfold Pipeline.Dat.owesAt Pipeline.owesWithin
    icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- What the last seven operations leave for the end: their eleven buffers at the final valuation, the eleven arguments' buffers. -/
abbrev Tₙ (c : Dev nD) : sProp 𝕄 :=
  iprop(StableHlo.held (c : Thread nD τ) S1 (StableHlo.after hostOps1 (Vt m c)) ∗ Rest m c)

/-- The launch element: the pipeline library's, at the staging cells and the pipeline's transfers. -/
def u₀ : UR sig nD τ := initOf (Pipeline.cells cfgs cellOf_inj) (Pipeline.launchToks cfgs cellOf_inj)

/-- The final memory of core `c`: the three returned values as the last seven operations compute them, the arguments as launched. -/
def QY (c : Dev nD) (s : MemSt nD τ sig (Elt F)) : Prop :=
    s.mem ((c : Thread nD τ).loc main_v16) = StableHlo.after hostOps1 (Vt m c) (Proc.devRef .tc main_v16)
  ∧ s.mem ((c : Thread nD τ).loc main_v12) = StableHlo.after hostOps1 (Vt m c) (Proc.devRef .tc main_v12)
  ∧ s.mem ((c : Thread nD τ).loc main_v15) = StableHlo.after hostOps1 (Vt m c) (Proc.devRef .tc main_v15)
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)
  ∧ s.mem ((c : Thread nD τ).loc main_arg7) = m ((c : Thread nD τ).loc main_arg7)
  ∧ s.mem ((c : Thread nD τ).loc main_arg8) = m ((c : Thread nD τ).loc main_arg8)
  ∧ s.mem ((c : Thread nD τ).loc main_arg9) = m ((c : Thread nD τ).loc main_arg9)
  ∧ s.mem ((c : Thread nD τ).loc main_arg10) = m ((c : Thread nD τ).loc main_arg10)

/-- The last thread state read against a final state. -/
theorem final_read (c : Dev nD) (s' : Phys nD τ sig (Elt F)) :
    iprop(Tₙ m c ∗ SI s') ⊢ (|={Set.univ}=> iprop(⌜QY m c s'.mem⌝ ∗ SI s') : sProp 𝕄) := by
  dsimp only [Tₙ]
  rw [held_S1]
  unfold Rest
  iintro ⟨⟨⟨-, -, -, -, -, -, H12, -, -, H15, H16⟩, ⟨A0, A1, A2, A3, A4, A5, A6, A7, A8, A9, A10⟩⟩, HSI⟩
  icombine HSI H16 gives %h16
  icombine HSI H12 gives %h12
  icombine HSI H15 gives %h15
  icombine HSI A0 gives %a0
  icombine HSI A1 gives %a1
  icombine HSI A2 gives %a2
  icombine HSI A3 gives %a3
  icombine HSI A4 gives %a4
  icombine HSI A5 gives %a5
  icombine HSI A6 gives %a6
  icombine HSI A7 gives %a7
  icombine HSI A8 gives %a8
  icombine HSI A9 gives %a9
  icombine HSI A10 gives %a10
  imodintro
  isplitr
  · ipureintro
    exact ⟨Buf.eq_of_forall_mem_univ h16, Buf.eq_of_forall_mem_univ h12, Buf.eq_of_forall_mem_univ h15,
      (Buf.eq_of_forall_mem_univ a0).trans (V_arg m c main_arg0 (by decide)),
      (Buf.eq_of_forall_mem_univ a1).trans (arrAt_1 m c _),
      (Buf.eq_of_forall_mem_univ a2).trans (arrAt_2 m c _),
      (Buf.eq_of_forall_mem_univ a3).trans (V_arg m c main_arg3 (by decide)),
      (Buf.eq_of_forall_mem_univ a4).trans (V_arg m c main_arg4 (by decide)),
      (Buf.eq_of_forall_mem_univ a5).trans (arrAt_7 m c _),
      (Buf.eq_of_forall_mem_univ a6).trans (arrAt_8 m c _),
      (Buf.eq_of_forall_mem_univ a7).trans (V_arg m c main_arg7 (by decide)),
      (Buf.eq_of_forall_mem_univ a8).trans (V_arg m c main_arg8 (by decide)),
      (Buf.eq_of_forall_mem_univ a9).trans (arrAt_11 m c _),
      (Buf.eq_of_forall_mem_univ a10).trans (arrAt_12 m c _)⟩
  iexact HSI

set_option backward.isDefEq.respectTransparency.types false in
/-- At the compiled mesh, for any float values, from any memory with zero counters: every weakly fair execution of
    @main on the TensorCores terminates, and every final state holds the three returned values as the last seven
    operations compute them from the pipeline's results, and the eleven arguments as launched. -/
theorem run_main : θ_run defs (onTc (τ := τ) (main (F := F))) ⟨m, fun _ => 0, ρ⟩ (fun r => ∀ c : Dev nD,
      r.2.mem ((c.tc : Thread nD τ).loc main_v16) = StableHlo.after hostOps1 (Vt m c) (Proc.devRef .tc main_v16)
    ∧ r.2.mem ((c.tc : Thread nD τ).loc main_v12) = StableHlo.after hostOps1 (Vt m c) (Proc.devRef .tc main_v12)
    ∧ r.2.mem ((c.tc : Thread nD τ).loc main_v15) = StableHlo.after hostOps1 (Vt m c) (Proc.devRef .tc main_v15)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop(StableHlo.held (c : Thread nD τ) S1 (StableHlo.after hostOps1 (Vt m c)) ∗ (Rest m c ∗ R c))
        ⊢ (iprop((StableHlo.held (c : Thread nD τ) S1 (StableHlo.after hostOps1 (Vt m c)) ∗ Rest m c) ∗ R c) : sProp 𝕄)
      iintro ⟨Hh, HR, HO⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := QY m)
    (hfin := final_read m)
    (hQ := fun _ h => h)

end Cert.Kernel.Hand

end
-- ==== Proof.KI.Body.lean ====
/-
  The body of the two-layer LSTM cell kernel and the pipeline's proof data.

  One grid point handles two pedestrians: the body loads the thirteen input blocks whole (the x rows, the two
  layers' h and c rows, four weight matrices, four bias vectors), computes both layers' gates and states, and
  stores four output blocks whole (h and c of layer 0, h and c of layer 1). This module names what each output
  block holds after the body as a function of the input blocks (`out0_13` … `out0_16`: the single whole-block
  store of each), proves the body's triple, and gives the pipeline's proof data: the arrays as the region finds
  them (the nine host operations before the region applied to the launch memory), every input block kept, every
  output block at its named value. The h0 array and the c0 array are each read through two windows (layer 0's
  and layer 1's rows); the proof data holds each of those at half the full share.
-/
import proofs.«175595_j15547781612107_1_alg».proof.Proof.Gen.KernelIdeal.Launch
import proofs.«175595_j15547781612107_1_alg».proof.Proof.Gen.KernelIdeal.Skeleton
import proofs.«175595_j15547781612107_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays when the region is entered -/

/-- Core `c`'s buffers at launch, as a valuation. -/
abbrev V₀ (c : Dev nD) : Valuation τ sig (Elt F) := fun b => m ((c : Dev nD), b)

/-- Core `c`'s TensorCore buffers when the region is entered: the nine host operations (the transposes of the
    x rows and of the four weight matrices, and the weights' narrowing) have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole block -/

abbrev rX : Rect S2x256x2 := Rect.unit (s := S2x256x2) ![0, 0, 0] S2x256x2.size inb_S2x256x2_S2x256x2_0_0_0
abbrev rH : Rect S2x1x256x512 := Rect.unit (s := S2x1x256x512) ![0, 0, 0, 0] S2x1x256x512.size inb_S2x1x256x512_S2x1x256x512_0_0_0_0
abbrev rWi : Rect S2x2048 := Rect.unit (s := S2x2048) ![0, 0] S2x2048.size inb_S2x2048_S2x2048_0_0
abbrev rW : Rect S512x2048 := Rect.unit (s := S512x2048) ![0, 0] S512x2048.size inb_S512x2048_S512x2048_0_0
abbrev rB : Rect S2048 := Rect.unit (s := S2048) ![0] S2048.size inb_S2048_S2048_0
abbrev rO : Rect S2x256x512 := Rect.unit (s := S2x256x512) ![0, 0, 0] S2x256x512.size inb_S2x256x512_S2x256x512_0_0_0

/-! ## What the body leaves in each output window's buffer -/

/-- Window 13's staging buffer after the body (layer 0's new h rows), from the input windows' blocks: its one whole-block store. -/
def out0_13 (x0 : Vec F S2x256x2 .f32) (x1 : Vec F S2x1x256x512 .f32) (x2 : Vec F S2x1x256x512 .f32) (x5 : Vec F S2x2048 .bf16) (x6 : Vec F S512x2048 .bf16) (x7 : Vec F S2048 .f32) (x8 : Vec F S2048 .f32) : Vec F S2x256x512 .f32 :=
  View.canon [⟨rO, k0_pay12 (k0_pay3 (View.ld x2 rH)) (k0_pay6 (View.ld x0 rX) (View.ld x1 rH) (View.ld x5 rWi) (View.ld x6 rW) (View.ld x7 rB) (View.ld x8 rB))⟩]

/-- Window 14's staging buffer after the body (layer 0's new c rows), from the input windows' blocks: its one whole-block store. -/
def out0_14 (x0 : Vec F S2x256x2 .f32) (x1 : Vec F S2x1x256x512 .f32) (x2 : Vec F S2x1x256x512 .f32) (x5 : Vec F S2x2048 .bf16) (x6 : Vec F S512x2048 .bf16) (x7 : Vec F S2048 .f32) (x8 : Vec F S2048 .f32) : Vec F S2x256x512 .f32 :=
  View.canon [⟨rO, k0_pay13 (k0_pay3 (View.ld x2 rH)) (k0_pay6 (View.ld x0 rX) (View.ld x1 rH) (View.ld x5 rWi) (View.ld x6 rW) (View.ld x7 rB) (View.ld x8 rB))⟩]

/-- Window 15's staging buffer after the body (layer 1's new h rows), from the input windows' blocks: its one whole-block store. -/
def out0_15 (x0 : Vec F S2x256x2 .f32) (x1 : Vec F S2x1x256x512 .f32) (x2 : Vec F S2x1x256x512 .f32) (x3 : Vec F S2x1x256x512 .f32) (x4 : Vec F S2x1x256x512 .f32) (x5 : Vec F S2x2048 .bf16) (x6 : Vec F S512x2048 .bf16) (x7 : Vec F S2048 .f32) (x8 : Vec F S2048 .f32) (x9 : Vec F S512x2048 .bf16) (x10 : Vec F S512x2048 .bf16) (x11 : Vec F S2048 .f32) (x12 : Vec F S2048 .f32) : Vec F S2x256x512 .f32 :=
  View.canon [⟨rO, k0_pay1 (k0_pay11 (k0_pay3 (View.ld x2 rH)) (k0_pay4 (View.ld x3 rH)) (k0_pay5 (View.ld x4 rH)) (k0_pay6 (View.ld x0 rX) (View.ld x1 rH) (View.ld x5 rWi) (View.ld x6 rW) (View.ld x7 rB) (View.ld x8 rB)) (View.ld x9 rW) (View.ld x10 rW) (View.ld x11 rB) (View.ld x12 rB))⟩]

/-- Window 16's staging buffer after the body (layer 1's new c rows), from the input windows' blocks: its one whole-block store. -/
def out0_16 (x0 : Vec F S2x256x2 .f32) (x1 : Vec F S2x1x256x512 .f32) (x2 : Vec F S2x1x256x512 .f32) (x3 : Vec F S2x1x256x512 .f32) (x4 : Vec F S2x1x256x512 .f32) (x5 : Vec F S2x2048 .bf16) (x6 : Vec F S512x2048 .bf16) (x7 : Vec F S2048 .f32) (x8 : Vec F S2048 .f32) (x9 : Vec F S512x2048 .bf16) (x10 : Vec F S512x2048 .bf16) (x11 : Vec F S2048 .f32) (x12 : Vec F S2048 .f32) : Vec F S2x256x512 .f32 :=
  View.canon [⟨rO, k0_pay2 (k0_pay10 (k0_pay3 (View.ld x2 rH)) (k0_pay4 (View.ld x3 rH)) (k0_pay5 (View.ld x4 rH)) (k0_pay6 (View.ld x0 rX) (View.ld x1 rH) (View.ld x5 rWi) (View.ld x6 rW) (View.ld x7 rB) (View.ld x8 rB)) (View.ld x9 rW) (View.ld x10 rW) (View.ld x11 rB) (View.ld x12 rB))⟩]

/-- One whole-block store covers the block. -/
theorem cover0 (p0 : Vec F S2x256x512 .f32) (y : S2x256x512.Idx) :
    ∃ pc ∈ ([⟨rO, p0⟩] : List (View.Piece (Elt F) S2x256x512 .f32)), y ∈ pc.1.set :=
  View.cover_of_tiled [⟨rO, p0⟩] S2x256x512.size (by rfl) y

/-! ## The body's triple -/

set_option maxHeartbeats 4000000 in
/-- The kernel body on whole staging memrefs, the inputs' at read contents `xW` and the outputs' at anything, runs to
    the continuation holding the inputs' as they were and each output's at `out0_W` of the inputs'. -/
theorem sound_kernel (c : Dev nD) (E : Set ℕ) (i : grid0.Coords) (arg1 : Memref sig .tc .vmem S2x256x2 .f32) (harg1 : arg1.IsWhole) (arg2 : Memref sig .tc .vmem S2x1x256x512 .f32) (harg2 : arg2.IsWhole) (arg3 : Memref sig .tc .vmem S2x1x256x512 .f32) (harg3 : arg3.IsWhole) (arg4 : Memref sig .tc .vmem S2x1x256x512 .f32) (harg4 : arg4.IsWhole) (arg5 : Memref sig .tc .vmem S2x1x256x512 .f32) (harg5 : arg5.IsWhole) (arg6 : Memref sig .tc .vmem S2x2048 .bf16) (harg6 : arg6.IsWhole) (arg7 : Memref sig .tc .vmem S512x2048 .bf16) (harg7 : arg7.IsWhole) (arg8 : Memref sig .tc .vmem S2048 .f32) (harg8 : arg8.IsWhole) (arg9 : Memref sig .tc .vmem S2048 .f32) (harg9 : arg9.IsWhole) (arg10 : Memref sig .tc .vmem S512x2048 .bf16) (harg10 : arg10.IsWhole) (arg11 : Memref sig .tc .vmem S512x2048 .bf16) (harg11 : arg11.IsWhole) (arg12 : Memref sig .tc .vmem S2048 .f32) (harg12 : arg12.IsWhole) (arg13 : Memref sig .tc .vmem S2048 .f32) (harg13 : arg13.IsWhole) (arg14 : Memref sig .tc .vmem S2x256x512 .f32) (harg14 : arg14.IsWhole) (arg15 : Memref sig .tc .vmem S2x256x512 .f32) (harg15 : arg15.IsWhole) (arg16 : Memref sig .tc .vmem S2x256x512 .f32) (harg16 : arg16.IsWhole) (arg17 : Memref sig .tc .vmem S2x256x512 .f32) (harg17 : arg17.IsWhole)
    (x0 : Vec F S2x256x2 .f32) (x1 : Vec F S2x1x256x512 .f32) (x2 : Vec F S2x1x256x512 .f32) (x3 : Vec F S2x1x256x512 .f32) (x4 : Vec F S2x1x256x512 .f32) (x5 : Vec F S2x2048 .bf16) (x6 : Vec F S512x2048 .bf16) (x7 : Vec F S2048 .f32) (x8 : Vec F S2048 .f32) (x9 : Vec F S512x2048 .bf16) (x10 : Vec F S512x2048 .bf16) (x11 : Vec F S2048 .f32) (x12 : Vec F S2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x5 x6 x7 x8) ∗ owns (c : Thread nD τ) arg15 fullShare (out0_14 x0 x1 x2 x5 x6 x7 x8) ∗ owns (c : Thread nD τ) arg16 fullShare (out0_15 x0 x1 x2 x3 x4 x5 x6 x7 x8 x9 x10 x11 x12) ∗ owns (c : Thread nD τ) arg17 fullShare (out0_16 x0 x1 x2 x3 x4 x5 x6 x7 x8 x9 x10 x11 x12)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  -- the body is its sequence of whole-block loads and stores over the named payloads
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, Hk⟩
  subst hf0 hf1 hf2 hf3 hf4 hf5 hf6 hf7 hf8 hf9 hf10 hf11 hf12
  sl_exec
  sl_step
  -- every input buffer is as it was; every output buffer holds its one whole-block store, which covers the block
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover0 _)
  isplitl [H14]
  · iexists _; isplitr
    swap; · iexact H14
    ipureintro
    exact View.read_writes_eq_canon _ _ _ (cover0 _)
  isplitl [H15]
  · iexists _; isplitr
    swap; · iexact H15
    ipureintro
    exact View.read_writes_eq_canon _ _ _ (cover0 _)
  iexists _; isplitr
  swap; · iexact H16
  ipureintro
  exact View.read_writes_eq_canon _ _ _ (cover0 _)

/-! ## The pipeline's proof data -/

/-- The proof data of the one pipeline on core `c`: the arrays as the region finds them; after the body at point `t`
    each input's buffer at its block and each output's at `out0_W` of the input blocks; the invariant the scoped
    buffers no window stages (there are none); nothing owed; the two windows on the h0 array, and the two on the c0
    array, at half the full share each, every other input at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 5 t) (iblk m c 6 t) (iblk m c 7 t) (iblk m c 8 t)
    | ⟨14, _⟩ => out0_14 (iblk m c 0 t) (iblk m c 1 t) (iblk m c 2 t) (iblk m c 5 t) (iblk m c 6 t) (iblk m c 7 t) (iblk m c 8 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨_ + 17, h⟩ => absurd h (Nat.not_lt.2 (Nat.le_add_left _ _))
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.left
    | ⟨3, _⟩ => fullShare.right
    | ⟨4, _⟩ => fullShare.right
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨_ + 17, h⟩ => absurd h (Nat.not_lt.2 (Nat.le_add_left _ _))
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 5 t) (iblk m c 6 t) (iblk m c 7 t) (iblk m c 8 t) := by dsimp only [dats]
theorem after0_14 (c : Dev nD) (t : Fin cfg0.N) : (dats m 0 c).after 14 t = out0_14 (iblk m c 0 t) (iblk m c 1 t) (iblk m c 2 t) (iblk m c 5 t) (iblk m c 6 t) (iblk m c 7 t) (iblk m c 8 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- The invariant is the same at every point. -/
theorem Φ_eq (c : Dev nD) (n : Fin (cfg0.N + 1)) : (dats m 0 c).Φ n
    = Pipeline.scopedRest (Ix := Unit) (Name := ℕ) (U := UR sig nD τ) (Lvl := ℕ) (Val := Elt F) spec0 c := by
  dsimp only [dats]

/-- Nothing is owed at any point. -/
theorem owed_eq (c : Dev nD) (n : Fin (cfg0.N + 1)) : (dats m 0 c).owed n = 0 := by dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

/-- The body at any point: the inputs' memrefs hold their blocks, so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  -- each input's staging buffer holds its block; the invariant and what is owed are the same before and after
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Tail.lean ====
/-
  The host operations after the region: the four result arrays the kernel wrote are broadcast to a unit layer axis
  and concatenated pairwise along it (the stacked h rows, the stacked c rows), and layer 1's h rows are transposed
  to batch-major order. This module names the valuation those seven operations start from: the buffers as the region
  was entered, with the four result arrays at what the pipeline's write-backs left in them.
-/
import proofs.«175595_j15547781612107_1_alg».proof.Proof.KI.Body
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- Window `w`'s array after the last grid point's write-back. -/
abbrev res (c : Dev nD) (w : Fin cfg0.W) : Buf (Elt F) ((cfg0.win w).arr.view.loc (c : Thread nD τ)) := (dats m 0 c).arrAt w cfg0.N

/-- The four output windows (13 … 16), whose arrays are four distinct buffers. -/
abbrev outWin : Fin 4 → Pipeline.WinSpec sig grid0.rank := fun | 0 => spec0 13 | 1 => spec0 14 | 2 => spec0 15 | 3 => spec0 16

theorem outWin_inj : Function.Injective (Pipeline.arrRef outWin) := by decide

/-- The four result arrays after the region, as a family over `outWin`. -/
abbrev resOut (c : Dev nD) : (k : Fin 4) → Buf (Elt F) ((outWin k).arr.view.loc (c : Thread nD τ)) :=
  fun | 0 => res m c 13 | 1 => res m c 14 | 2 => res m c 15 | 3 => res m c 16

/-- The buffers the host operations after the region start from: as the region was entered, the four results as the
    region left them. -/
def Vt (c : Dev nD) : Valuation τ sig (Elt F) :=
  Pipeline.withArrays outWin c (StableHlo.after hostOps0 (V₀ m c)) (resOut m c)

theorem Vt_v9_0 (c : Dev nD) : Vt m c (Proc.devRef .tc main_v9_0) = res m c 13 :=
  Pipeline.withArrays_arr outWin outWin_inj c _ (resOut m c) 0
theorem Vt_v9_1 (c : Dev nD) : Vt m c (Proc.devRef .tc main_v9_1) = res m c 14 :=
  Pipeline.withArrays_arr outWin outWin_inj c _ (resOut m c) 1
theorem Vt_v9_2 (c : Dev nD) : Vt m c (Proc.devRef .tc main_v9_2) = res m c 15 :=
  Pipeline.withArrays_arr outWin outWin_inj c _ (resOut m c) 2
theorem Vt_v9_3 (c : Dev nD) : Vt m c (Proc.devRef .tc main_v9_3) = res m c 16 :=
  Pipeline.withArrays_arr outWin outWin_inj c _ (resOut m c) 3

/-- A buffer that is none of the four results is as the region was entered. -/
theorem Vt_of_ne (c : Dev nD) (b : Ref sig .tc) (hb : b ≠ main_v9_0 ∧ b ≠ main_v9_1 ∧ b ≠ main_v9_2 ∧ b ≠ main_v9_3) :
    Vt m c (Proc.devRef .tc b) = StableHlo.after hostOps0 (V₀ m c) (Proc.devRef .tc b) :=
  Pipeline.withArrays_of_ne outWin c _ (resOut m c) b (fun | 0 => hb.1.symm | 1 => hb.2.1.symm | 2 => hb.2.2.1.symm | 3 => hb.2.2.2.symm)

end Cert.KernelIdeal.Hand

end
-- ==== Proof.KI.Launch.lean ====
/-
  The launch of the two-layer LSTM cell program: @main as three segments, and its run.

  @main is nine host operations (the transposes of the x rows and of the four weight matrices, the weights'
  narrowing), ONE kernel region (the pipeline over seventeen windows on a grid of thirty-two points), and seven host
  operations (the four result arrays broadcast to a unit layer axis and concatenated pairwise, layer 1's h rows
  transposed). Its run, for every float model: from any memory whose semaphore counters are zero, every weakly fair
  execution of @main on the TensorCores terminates, and every final state holds the three returned values as the last
  seven operations compute them from what the pipeline's write-backs left in the four result arrays, and the eleven
  arguments as launched (`run_main`).

  Two pairs of windows share an array: windows 1 and 3 both read the h0 array, windows 2 and 4 both read the c0 array.
  So the arrays behind the seventeen windows are fifteen buffers, and at the region's entry the h0 buffer and the c0
  buffer, each held whole at the full share, are each split into the two halves of the full share their two windows
  hold (`arrays_of_arrBufs`). Every other unscoped buffer bypasses the region. At the region's exit the four result
  arrays and the seven buffers the last operations fill make the buffers those operations run over, at the valuation
  `Vt`; the eleven arguments' buffers — six of them windows' arrays, never written, five of them bypassing — ride past
  the last seven operations and are read at the end, where each is shown to hold its launch contents because no host
  operation writes an argument.
-/
import proofs.«175595_j15547781612107_1_alg».proof.Proof.KI.Tail
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pipeline library's algebra is the whole user component. -/
abbrev EP : Emb (UR sig nD τ) (MT nD τ sig Unit (Elt F) ℕ (UR sig nD τ) ℕ) := emb₁

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

abbrev R (c : Dev nD) : sProp 𝕄 := iprop(∃ W, owes (c : Thread nD τ) (0 : CellTallies nD τ sig Unit) W)

/-- The nine operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-! ## The arrays behind the windows -/

/-- The fifteen distinct buffers behind the seventeen windows' arrays. -/
theorem arrImage : Finset.univ.image (Pipeline.arrRef spec0)
    = [main_v0, main_arg1, main_arg2, main_v2, main_v4, main_arg5, main_arg6, main_v6, main_v8, main_arg9, main_arg10,
        main_v9_0, main_v9_1, main_v9_2, main_v9_3].toFinset := by decide

omit [FloatOps F] in
/-- Those buffers whole at the full share, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_arg1) ↦{fullShare} W main_arg1)
        ∗ (((c : Thread nD τ).loc main_arg2) ↦{fullShare} W main_arg2) ∗ (((c : Thread nD τ).loc main_v2) ↦{fullShare} W main_v2)
        ∗ (((c : Thread nD τ).loc main_v4) ↦{fullShare} W main_v4) ∗ (((c : Thread nD τ).loc main_arg5) ↦{fullShare} W main_arg5)
        ∗ (((c : Thread nD τ).loc main_arg6) ↦{fullShare} W main_arg6) ∗ (((c : Thread nD τ).loc main_v6) ↦{fullShare} W main_v6)
        ∗ (((c : Thread nD τ).loc main_v8) ↦{fullShare} W main_v8) ∗ (((c : Thread nD τ).loc main_arg9) ↦{fullShare} W main_arg9)
        ∗ (((c : Thread nD τ).loc main_arg10) ↦{fullShare} W main_arg10) ∗ (((c : Thread nD τ).loc main_v9_0) ↦{fullShare} W main_v9_0)
        ∗ (((c : Thread nD τ).loc main_v9_1) ↦{fullShare} W main_v9_1) ∗ (((c : Thread nD τ).loc main_v9_2) ↦{fullShare} W main_v9_2)
        ∗ (((c : Thread nD τ).loc main_v9_3) ↦{fullShare} W main_v9_3)) := by
  unfold Pipeline.arrBufs
  exact bigSep_eq_bigSepL_of_eq _ arrImage (by decide) _

/-- A window's array is a whole buffer. -/
theorem arr_pt (c : Dev nD) (w : Fin cfg0.W) (G : Buf (Elt F) ((cfg0.win w).arr.view.loc (c : Thread nD τ))) :
    ((cfg0.win w).arr.view.loc (c : Thread nD τ) ↦[(cfg0.win w).arr.view.set]{(dats m 0 c).share w} G : sProp 𝕄)
      = ((cfg0.win w).arr.view.loc (c : Thread nD τ) ↦{(dats m 0 c).share w} G) := by
  rw [(arr_whole0 w).set_eq_univ]

/-- The pipeline's arrays at contents `G`, window by window: each a whole buffer, the h0 and c0 arrays at half the full share
    per window. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_v0) ↦{fullShare} G 0) ∗ (((c : Thread nD τ).loc main_arg1) ↦{fullShare.left} G 1)
        ∗ (((c : Thread nD τ).loc main_arg2) ↦{fullShare.left} G 2) ∗ (((c : Thread nD τ).loc main_arg1) ↦{fullShare.right} G 3)
        ∗ (((c : Thread nD τ).loc main_arg2) ↦{fullShare.right} G 4) ∗ (((c : Thread nD τ).loc main_v2) ↦{fullShare} G 5)
        ∗ (((c : Thread nD τ).loc main_v4) ↦{fullShare} G 6) ∗ (((c : Thread nD τ).loc main_arg5) ↦{fullShare} G 7)
        ∗ (((c : Thread nD τ).loc main_arg6) ↦{fullShare} G 8) ∗ (((c : Thread nD τ).loc main_v6) ↦{fullShare} G 9)
        ∗ (((c : Thread nD τ).loc main_v8) ↦{fullShare} G 10) ∗ (((c : Thread nD τ).loc main_arg9) ↦{fullShare} G 11)
        ∗ (((c : Thread nD τ).loc main_arg10) ↦{fullShare} G 12) ∗ (((c : Thread nD τ).loc main_v9_0) ↦{fullShare} G 13)
        ∗ (((c : Thread nD τ).loc main_v9_1) ↦{fullShare} G 14) ∗ (((c : Thread nD τ).loc main_v9_2) ↦{fullShare} G 15)
        ∗ (((c : Thread nD τ).loc main_v9_3) ↦{fullShare} G 16)) := by
  unfold Pipeline.Dat.arrays
  refine (bigSep_congr fun w _ => arr_pt m c w (G w)).trans ?_
  rw [bigSep_W0]
  rfl

/-- ENTRY, the arrays: the fifteen buffers behind the windows' arrays, whole at the region-entry contents, make the
    pipeline's arrays at entry — the h0 buffer and the c0 buffer each split into the halves their two windows hold. -/
theorem arrays_of_arrBufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_chain]
  iintro ⟨H0, H1, H2, H5, H6, H7, H8, H9, H10, H11, H12, H13, H14, H15, H16⟩
  ihave H1' := (pointsTo_share (PosShare.mem_left_op_right fullShare)).1 $$ H1
  icases H1' with ⟨H1, H3⟩
  ihave H2' := (pointsTo_share (PosShare.mem_left_op_right fullShare)).1 $$ H2
  icases H2' with ⟨H2, H4⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-! ## The host operations after the region -/

/-- The buffers the seven operations after the region touch: the four results and the seven values made of them. -/
abbrev tailRefs : List (Ref sig .tc) :=
  [main_v9_0, main_v9_1, main_v9_2, main_v9_3, main_v10, main_v11, main_v12, main_v13, main_v14, main_v15, main_v16]

/-- The same, as device buffers. -/
def S1 : Finset (DevRef τ sig) := tailRefs.toFinset.map ⟨Proc.devRef (sig := sig) (.tc : Proc τ), Proc.devRef_injective _⟩

omit [FloatOps F] in
/-- Those eleven held at a valuation, one by one. -/
theorem held_S1 (c : Dev nD) (W : Valuation τ sig (Elt F)) :
    (StableHlo.held (c : Thread nD τ) S1 W : sProp 𝕄)
      = iprop((((c : Thread nD τ).loc main_v9_0) ↦{fullShare} W (Proc.devRef .tc main_v9_0)) ∗ (((c : Thread nD τ).loc main_v9_1) ↦{fullShare} W (Proc.devRef .tc main_v9_1))
        ∗ (((c : Thread nD τ).loc main_v9_2) ↦{fullShare} W (Proc.devRef .tc main_v9_2)) ∗ (((c : Thread nD τ).loc main_v9_3) ↦{fullShare} W (Proc.devRef .tc main_v9_3))
        ∗ (((c : Thread nD τ).loc main_v10) ↦{fullShare} W (Proc.devRef .tc main_v10)) ∗ (((c : Thread nD τ).loc main_v11) ↦{fullShare} W (Proc.devRef .tc main_v11))
        ∗ (((c : Thread nD τ).loc main_v12) ↦{fullShare} W (Proc.devRef .tc main_v12)) ∗ (((c : Thread nD τ).loc main_v13) ↦{fullShare} W (Proc.devRef .tc main_v13))
        ∗ (((c : Thread nD τ).loc main_v14) ↦{fullShare} W (Proc.devRef .tc main_v14)) ∗ (((c : Thread nD τ).loc main_v15) ↦{fullShare} W (Proc.devRef .tc main_v15))
        ∗ (((c : Thread nD τ).loc main_v16) ↦{fullShare} W (Proc.devRef .tc main_v16))) := by
  unfold StableHlo.held S1
  rw [bigSep_map, bigSep_eq_bigSepL _ (by decide)]
  rfl

omit [FloatOps F] in
theorem mem_S1 {r : Ref sig .tc} (h : r ∈ tailRefs) : Proc.devRef (τ := τ) .tc r ∈ S1 :=
  Finset.mem_map_of_mem _ (List.mem_toFinset.mpr h)

omit [FloatOps F] in
/-- Each of the seven operations touches only those. -/
theorem hostOps1_S1 : ∀ op ∈ (hostOps1 : List (HloOp τ sig (Elt F))), op.bufs ⊆ S1 := by
  intro op hop
  simp only [List.mem_cons, List.mem_nil_iff, or_false] at hop
  rcases hop with rfl | rfl | rfl | rfl | rfl | rfl | rfl
  · exact Finset.insert_subset_iff.mpr ⟨mem_S1 (by decide), Finset.singleton_subset_iff.mpr (mem_S1 (by decide))⟩
  · exact Finset.insert_subset_iff.mpr ⟨mem_S1 (by decide), Finset.singleton_subset_iff.mpr (mem_S1 (by decide))⟩
  · exact Finset.insert_subset_iff.mpr ⟨mem_S1 (by decide), Finset.insert_subset_iff.mpr ⟨mem_S1 (by decide), Finset.singleton_subset_iff.mpr (mem_S1 (by decide))⟩⟩
  · exact Finset.insert_subset_iff.mpr ⟨mem_S1 (by decide), Finset.singleton_subset_iff.mpr (mem_S1 (by decide))⟩
  · exact Finset.insert_subset_iff.mpr ⟨mem_S1 (by decide), Finset.singleton_subset_iff.mpr (mem_S1 (by decide))⟩
  · exact Finset.insert_subset_iff.mpr ⟨mem_S1 (by decide), Finset.insert_subset_iff.mpr ⟨mem_S1 (by decide), Finset.singleton_subset_iff.mpr (mem_S1 (by decide))⟩⟩
  · exact Finset.insert_subset_iff.mpr ⟨mem_S1 (by decide), Finset.singleton_subset_iff.mpr (mem_S1 (by decide))⟩

/-- The eleven arguments' buffers, each at some share, at what the region left or passed by: what rides past the
    last seven operations to be read at the end. -/
def Rest (c : Dev nD) : sProp 𝕄 :=
  iprop((((c : Thread nD τ).loc main_arg0) ↦{fullShare} V m c main_arg0)
    ∗ (((c : Thread nD τ).loc main_arg1) ↦{fullShare.left} res m c 1)
    ∗ (((c : Thread nD τ).loc main_arg2) ↦{fullShare.left} res m c 2)
    ∗ (((c : Thread nD τ).loc main_arg3) ↦{fullShare} V m c main_arg3)
    ∗ (((c : Thread nD τ).loc main_arg4) ↦{fullShare} V m c main_arg4)
    ∗ (((c : Thread nD τ).loc main_arg5) ↦{fullShare} res m c 7)
    ∗ (((c : Thread nD τ).loc main_arg6) ↦{fullShare} res m c 8)
    ∗ (((c : Thread nD τ).loc main_arg7) ↦{fullShare} V m c main_arg7)
    ∗ (((c : Thread nD τ).loc main_arg8) ↦{fullShare} V m c main_arg8)
    ∗ (((c : Thread nD τ).loc main_arg9) ↦{fullShare} res m c 11)
    ∗ (((c : Thread nD τ).loc main_arg10) ↦{fullShare} res m c 12))

/-- What rides beside the eleven buffers through the last seven operations. -/
abbrev R1 (c : Dev nD) : sProp 𝕄 := iprop(Rest m c ∗ R c)

/-- The seven operations after the region, over the four results and the values made of them. -/
def seg1 : Pipeline.HostSeg (Name := ℕ) (U := UR sig nD τ) (pcfgs (F := F)) defs₀ 𝒱₀ L lv :=
  Pipeline.HostSeg.ofOps _ _ _ _ _ S1 hostOps1 hostOps1_S1
    (by intro _ h; (repeat (cases h with | head => rfl | tail _ h => ?_)); exact nomatch h) (Vt m) (R1 m)

/-! ## What no host operation writes -/

/-- The nine operations before the region write the nine values they make and nothing else. -/
theorem not_written (b : Ref sig .tc) (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8) :
    ∀ op ∈ (hostOps0 : List (HloOp τ sig (Elt F))), Proc.devRef .tc b ∉ op.writes := by
  obtain ⟨h0, h1, h2, h3, h4, h5, h6, h7, h8⟩ := hb
  intro op hop
  simp only [List.mem_cons, List.mem_nil_iff, or_false] at hop
  rcases hop with rfl | rfl | rfl | rfl | rfl | rfl | rfl | rfl | rfl <;>
    simp only [StableHlo.unary_writes, Finset.mem_singleton] <;>
    exact StableHlo.devRef_ne_of_ne ‹_›

/-- A buffer that is none of those nine values reaches the region as launched. -/
theorem V_arg (c : Dev nD) (b : Ref sig .tc) (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8) :
    V m c b = m ((c : Thread nD τ).loc b) :=
  StableHlo.after_of_forall_not_mem (b := Proc.devRef .tc b) hostOps0 (V₀ m c) (not_written b hb)

/-! ## The region -/

/-- The unscoped buffers behind no window, at the region-entry contents: they bypass the region. -/
abbrev Zc (c : Dev nD) : sProp 𝕄 :=
  Pipeline.unscopedRest (Ix := Unit) (Name := ℕ) (U := UR sig nD τ) (Lvl := ℕ) spec0 c (V m c)

/-- ENTRY: the unscoped buffers at the region-entry contents are the pipeline's arrays at entry and the bypassing rest. -/
theorem entry_split (c : Dev nD) :
    (unscopedBufs c (V m c) : sProp 𝕄) ⊢ iprop((dats m 0 c).arrays ((dats m 0 c).arrAt · 0) ∗ Zc m c) := by
  rw [Pipeline.unscopedBufs_split₀ cfgs 0 winFacts₀0.arr_unscoped c (V m c)]
  exact sep_mono (arrays_of_arrBufs m c) .rfl

/-- An input window's array is never written: it holds the launch contents at every point. -/
theorem arrAt_1 (c : Dev nD) (t : Nat) : (dats m 0 c).arrAt 1 t = m ((c : Thread nD τ).loc main_arg1) :=
  ((dats m 0 c).arrAt_in 1 rfl t).trans (V_arg m c main_arg1 (by decide))
theorem arrAt_2 (c : Dev nD) (t : Nat) : (dats m 0 c).arrAt 2 t = m ((c : Thread nD τ).loc main_arg2) :=
  ((dats m 0 c).arrAt_in 2 rfl t).trans (V_arg m c main_arg2 (by decide))
theorem arrAt_7 (c : Dev nD) (t : Nat) : (dats m 0 c).arrAt 7 t = m ((c : Thread nD τ).loc main_arg5) :=
  ((dats m 0 c).arrAt_in 7 rfl t).trans (V_arg m c main_arg5 (by decide))
theorem arrAt_8 (c : Dev nD) (t : Nat) : (dats m 0 c).arrAt 8 t = m ((c : Thread nD τ).loc main_arg6) :=
  ((dats m 0 c).arrAt_in 8 rfl t).trans (V_arg m c main_arg6 (by decide))
theorem arrAt_11 (c : Dev nD) (t : Nat) : (dats m 0 c).arrAt 11 t = m ((c : Thread nD τ).loc main_arg9) :=
  ((dats m 0 c).arrAt_in 11 rfl t).trans (V_arg m c main_arg9 (by decide))
theorem arrAt_12 (c : Dev nD) (t : Nat) : (dats m 0 c).arrAt 12 t = m ((c : Thread nD τ).loc main_arg10) :=
  ((dats m 0 c).arrAt_in 12 rfl t).trans (V_arg m c main_arg10 (by decide))

/-- A value the last seven operations make is, before them, as the region was entered. -/
theorem Vt10 (c : Dev nD) : Vt m c (Proc.devRef .tc main_v10) = V m c main_v10 := Vt_of_ne m c main_v10 (by decide)
theorem Vt11 (c : Dev nD) : Vt m c (Proc.devRef .tc main_v11) = V m c main_v11 := Vt_of_ne m c main_v11 (by decide)
theorem Vt12 (c : Dev nD) : Vt m c (Proc.devRef .tc main_v12) = V m c main_v12 := Vt_of_ne m c main_v12 (by decide)
theorem Vt13 (c : Dev nD) : Vt m c (Proc.devRef .tc main_v13) = V m c main_v13 := Vt_of_ne m c main_v13 (by decide)
theorem Vt14 (c : Dev nD) : Vt m c (Proc.devRef .tc main_v14) = V m c main_v14 := Vt_of_ne m c main_v14 (by decide)
theorem Vt15 (c : Dev nD) : Vt m c (Proc.devRef .tc main_v15) = V m c main_v15 := Vt_of_ne m c main_v15 (by decide)
theorem Vt16 (c : Dev nD) : Vt m c (Proc.devRef .tc main_v16) = V m c main_v16 := Vt_of_ne m c main_v16 (by decide)

/-- The eleven buffers of the last seven operations, held at the valuation those start from: the four results as the
    region left them, the seven values as the region was entered. -/
theorem held_S1_Vt (c : Dev nD) :
    (StableHlo.held (c : Thread nD τ) S1 (Vt m c) : sProp 𝕄)
      = iprop((((c : Thread nD τ).loc main_v9_0) ↦{fullShare} res m c 13) ∗ (((c : Thread nD τ).loc main_v9_1) ↦{fullShare} res m c 14)
        ∗ (((c : Thread nD τ).loc main_v9_2) ↦{fullShare} res m c 15) ∗ (((c : Thread nD τ).loc main_v9_3) ↦{fullShare} res m c 16)
        ∗ (((c : Thread nD τ).loc main_v10) ↦{fullShare} V m c main_v10) ∗ (((c : Thread nD τ).loc main_v11) ↦{fullShare} V m c main_v11)
        ∗ (((c : Thread nD τ).loc main_v12) ↦{fullShare} V m c main_v12) ∗ (((c : Thread nD τ).loc main_v13) ↦{fullShare} V m c main_v13)
        ∗ (((c : Thread nD τ).loc main_v14) ↦{fullShare} V m c main_v14) ∗ (((c : Thread nD τ).loc main_v15) ↦{fullShare} V m c main_v15)
        ∗ (((c : Thread nD τ).loc main_v16) ↦{fullShare} V m c main_v16)) := by
  rw [held_S1, Vt_v9_0, Vt_v9_1, Vt_v9_2, Vt_v9_3, Vt10, Vt11, Vt12, Vt13, Vt14, Vt15, Vt16]

/-- EXIT: the arrays at their final contents and the bypassing buffers make the eleven buffers of the last seven
    operations at the valuation those start from, and the eleven arguments' buffers. -/
theorem exit_join (c : Dev nD) :
    iprop((dats m 0 c).arrays ((dats m 0 c).arrAt · cfg0.N) ∗ Zc m c)
      ⊢ (iprop(StableHlo.held (c : Thread nD τ) S1 (Vt m c) ∗ Rest m c) : sProp 𝕄) := by
  unfold Zc Rest
  rw [arrays_chain, held_S1_Vt, unscopedRest0_eq]
  iintro ⟨⟨-, A1, A2, -, -, -, -, A7, A8, -, -, A11, A12, A13, A14, A15, A16⟩, ⟨Z0, Z3, Z4, Z7, Z8, -, -, -, -, Zv10, Zv11, Zv12, Zv13, Zv14, Zv15, Zv16⟩⟩
  isplitl [A13 A14 A15 A16 Zv10 Zv11 Zv12 Zv13 Zv14 Zv15 Zv16]
  · isplitl [A13]; · iexact A13
    isplitl [A14]; · iexact A14
    isplitl [A15]; · iexact A15
    isplitl [A16]; · iexact A16
    isplitl [Zv10]; · iexact Zv10
    isplitl [Zv11]; · iexact Zv11
    isplitl [Zv12]; · iexact Zv12
    isplitl [Zv13]; · iexact Zv13
    isplitl [Zv14]; · iexact Zv14
    isplitl [Zv15]; · iexact Zv15
    iexact Zv16
  isplitl [Z0]; · iexact Z0
  isplitl [A1]; · iexact A1
  isplitl [A2]; · iexact A2
  isplitl [Z3]; · iexact Z3
  isplitl [Z4]; · iexact Z4
  isplitl [A7]; · iexact A7
  isplitl [A8]; · iexact A8
  isplitl [Z7]; · iexact Z7
  isplitl [Z8]; · iexact Z8
  isplitl [A11]; · iexact A11
  iexact A12

set_option backward.isDefEq.respectTransparency.types false in
/-- THE REGION: the layout decided for the seventeen windows, no semaphore of the kernel's own, the body obligation;
    entered from what the first nine operations left — the windows' arrays into the pipeline, every other unscoped
    buffer bypassing —, left with the eleven buffers of the last seven operations and the eleven arguments' buffers. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun c t => owed_eq m c t
  pre c := iprop(StableHlo.held (c : Thread nD τ) (Pipeline.ucRefs τ sig) (StableHlo.after hostOps0 (V₀ m c)) ∗ R c)
  post c := iprop(StableHlo.held (c : Thread nD τ) S1 (Vt m c) ∗ R1 m c)
  X _ := iprop(emp)
  Y _ := iprop(emp)
  Z c := Zc m c
  hentry c := by
    rw [show StableHlo.held (c : Thread nD τ) (Pipeline.ucRefs τ sig) (StableHlo.after hostOps0 (V₀ m c)) = unscopedBufs c (V m c) from (Pipeline.unscopedBufs_held c _).symm]
    iintro ⟨⟨Hub, HO⟩, -, -⟩
    ihave H := (entry_split m c) $$ Hub
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [Φ_eq]
    iintro ⟨-, -, Hr⟩
    iexact Hr
  hout c := by
    rw [Φ_eq, Pipeline.ownSems0_none]
    iintro Hr
    isplitr; · iempintro
    isplitr; · iempintro
    iexact Hr
  hexit c := by
    iintro ⟨Ha, HO, -, HZ⟩
    ihave H := (exit_join m c) $$ [Ha HZ]
    · isplitl [Ha] <;> iassumption
    icases H with ⟨Hh, HR⟩
    imodintro
    isplitl [Hh]; · iexact Hh
    isplitl [HR]; · iexact HR
    unfold Pipeline.Dat.owesAt Pipeline.owesWithin
    icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- What the last seven operations leave for the end: their eleven buffers at the final valuation, the eleven arguments' buffers. -/
abbrev Tₙ (c : Dev nD) : sProp 𝕄 :=
  iprop(StableHlo.held (c : Thread nD τ) S1 (StableHlo.after hostOps1 (Vt m c)) ∗ Rest m c)

/-- The launch element: the pipeline library's, at the staging cells and the pipeline's transfers. -/
def u₀ : UR sig nD τ := initOf (Pipeline.cells cfgs cellOf_inj) (Pipeline.launchToks cfgs cellOf_inj)

/-- The final memory of core `c`: the three returned values as the last seven operations compute them, the arguments as launched. -/
def QY (c : Dev nD) (s : MemSt nD τ sig (Elt F)) : Prop :=
    s.mem ((c : Thread nD τ).loc main_v16) = StableHlo.after hostOps1 (Vt m c) (Proc.devRef .tc main_v16)
  ∧ s.mem ((c : Thread nD τ).loc main_v12) = StableHlo.after hostOps1 (Vt m c) (Proc.devRef .tc main_v12)
  ∧ s.mem ((c : Thread nD τ).loc main_v15) = StableHlo.after hostOps1 (Vt m c) (Proc.devRef .tc main_v15)
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)
  ∧ s.mem ((c : Thread nD τ).loc main_arg7) = m ((c : Thread nD τ).loc main_arg7)
  ∧ s.mem ((c : Thread nD τ).loc main_arg8) = m ((c : Thread nD τ).loc main_arg8)
  ∧ s.mem ((c : Thread nD τ).loc main_arg9) = m ((c : Thread nD τ).loc main_arg9)
  ∧ s.mem ((c : Thread nD τ).loc main_arg10) = m ((c : Thread nD τ).loc main_arg10)

/-- The last thread state read against a final state. -/
theorem final_read (c : Dev nD) (s' : Phys nD τ sig (Elt F)) :
    iprop(Tₙ m c ∗ SI s') ⊢ (|={Set.univ}=> iprop(⌜QY m c s'.mem⌝ ∗ SI s') : sProp 𝕄) := by
  dsimp only [Tₙ]
  rw [held_S1]
  unfold Rest
  iintro ⟨⟨⟨-, -, -, -, -, -, H12, -, -, H15, H16⟩, ⟨A0, A1, A2, A3, A4, A5, A6, A7, A8, A9, A10⟩⟩, HSI⟩
  icombine HSI H16 gives %h16
  icombine HSI H12 gives %h12
  icombine HSI H15 gives %h15
  icombine HSI A0 gives %a0
  icombine HSI A1 gives %a1
  icombine HSI A2 gives %a2
  icombine HSI A3 gives %a3
  icombine HSI A4 gives %a4
  icombine HSI A5 gives %a5
  icombine HSI A6 gives %a6
  icombine HSI A7 gives %a7
  icombine HSI A8 gives %a8
  icombine HSI A9 gives %a9
  icombine HSI A10 gives %a10
  imodintro
  isplitr
  · ipureintro
    exact ⟨Buf.eq_of_forall_mem_univ h16, Buf.eq_of_forall_mem_univ h12, Buf.eq_of_forall_mem_univ h15,
      (Buf.eq_of_forall_mem_univ a0).trans (V_arg m c main_arg0 (by decide)),
      (Buf.eq_of_forall_mem_univ a1).trans (arrAt_1 m c _),
      (Buf.eq_of_forall_mem_univ a2).trans (arrAt_2 m c _),
      (Buf.eq_of_forall_mem_univ a3).trans (V_arg m c main_arg3 (by decide)),
      (Buf.eq_of_forall_mem_univ a4).trans (V_arg m c main_arg4 (by decide)),
      (Buf.eq_of_forall_mem_univ a5).trans (arrAt_7 m c _),
      (Buf.eq_of_forall_mem_univ a6).trans (arrAt_8 m c _),
      (Buf.eq_of_forall_mem_univ a7).trans (V_arg m c main_arg7 (by decide)),
      (Buf.eq_of_forall_mem_univ a8).trans (V_arg m c main_arg8 (by decide)),
      (Buf.eq_of_forall_mem_univ a9).trans (arrAt_11 m c _),
      (Buf.eq_of_forall_mem_univ a10).trans (arrAt_12 m c _)⟩
  iexact HSI

set_option backward.isDefEq.respectTransparency.types false in
/-- At the compiled mesh, for any float values, from any memory with zero counters: every weakly fair execution of
    @main on the TensorCores terminates, and every final state holds the three returned values as the last seven
    operations compute them from the pipeline's results, and the eleven arguments as launched. -/
theorem run_main : θ_run defs (onTc (τ := τ) (main (F := F))) ⟨m, fun _ => 0, ρ⟩ (fun r => ∀ c : Dev nD,
      r.2.mem ((c.tc : Thread nD τ).loc main_v16) = StableHlo.after hostOps1 (Vt m c) (Proc.devRef .tc main_v16)
    ∧ r.2.mem ((c.tc : Thread nD τ).loc main_v12) = StableHlo.after hostOps1 (Vt m c) (Proc.devRef .tc main_v12)
    ∧ r.2.mem ((c.tc : Thread nD τ).loc main_v15) = StableHlo.after hostOps1 (Vt m c) (Proc.devRef .tc main_v15)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop(StableHlo.held (c : Thread nD τ) S1 (StableHlo.after hostOps1 (Vt m c)) ∗ (Rest m c ∗ R c))
        ⊢ (iprop((StableHlo.held (c : Thread nD τ) S1 (StableHlo.after hostOps1 (Vt m c)) ∗ Rest m c) ∗ R c) : sProp 𝕄)
      iintro ⟨Hh, HR, HO⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := QY m)
    (hfin := final_read m)
    (hQ := fun _ h => h)

end Cert.KernelIdeal.Hand

end
-- ==== Proof.Spec.lean ====
/-
  The two-layer, single-step LSTM cell, row by row, on the extended reals.

  A row is one (pedestrian p, batch element b) pair. Layer 0 reads the row's two input features and its layer-0
  hidden and cell rows; layer 1 reads layer 0's new hidden row and the row's layer-1 hidden and cell rows. Each
  layer's 2048 gate pre-activations are the input row against the input weights plus the hidden row against the
  hidden weights plus the two biases; the four 512-wide gates are cut out of them in the order i, f, g, o;
  c' = σ(f)·c + σ(i)·tanh(g) and h' = σ(o)·tanh(c'). This module states those functions once, over plain
  coordinates; both programs are shown to compute them, index by index.
-/
import Idealize.ShloMosaic.PureOps.Ideal
import Idealize.ShloMosaic.Lib.ValueIdx

noncomputable section

open scoped BigOperators

namespace Cert.LstmSpec

open Idealize.ShloMosaic Idealize.ShloMosaic.ValueIdx

/-- An array of rank 1, 2, 3, 4 read at coordinates. -/
abbrev at1 {n0 : Nat} (A : (⟨1, ![n0]⟩ : Shape).Idx → EReal) (a : Fin n0) : EReal := A (ix1 a)
abbrev at2 {n0 n1 : Nat} (A : (⟨2, ![n0, n1]⟩ : Shape).Idx → EReal) (a : Fin n0) (b : Fin n1) : EReal := A (ix2 a b)
abbrev at3 {n0 n1 n2 : Nat} (A : (⟨3, ![n0, n1, n2]⟩ : Shape).Idx → EReal) (a : Fin n0) (b : Fin n1) (c : Fin n2) : EReal := A (ix3 a b c)
abbrev at4 {n0 n1 n2 n3 : Nat} (A : (⟨4, ![n0, n1, n2, n3]⟩ : Shape).Idx → EReal) (a : Fin n0) (b : Fin n1) (c : Fin n2) (d : Fin n3) : EReal :=
  A (ix4 a b c d)

/-- Gate `k` (0: input, 1: forget, 2: cell candidate, 3: output) of hidden unit `u` sits at column `512 k + u`. -/
abbrev col (k : Fin 4) (u : Fin 512) : Fin 2048 := ⟨512 * k.val + u.val, by omega⟩

/-- A flattened row index R = 256·p + b names pedestrian `R / 256` and batch element `R % 256`. -/
abbrev rowP (R : Fin 16384) : Fin 64 := ⟨R.val / 256, by omega⟩
abbrev rowB (R : Fin 16384) : Fin 256 := ⟨R.val % 256, by omega⟩

/-- One layer's gate pre-activations at one row: the input row `x` against the input weights, plus the hidden row `h`
    against the hidden weights, plus the input bias, plus the hidden bias (summed in this order). -/
def gate {n : Nat} (x : Fin n → EReal) (h : Fin 512 → EReal) (Wi : Fin 2048 → Fin n → EReal) (Wh : Fin 2048 → Fin 512 → EReal)
    (bi bh : Fin 2048 → EReal) (j : Fin 2048) : EReal :=
  (∑ k, x k * Wi j k) + (∑ k, h k * Wh j k) + bi j + bh j

/-- The same four terms summed the other way round: input product, input bias, hidden product, hidden bias. -/
theorem gate_eq {n : Nat} (x : Fin n → EReal) (h : Fin 512 → EReal) (Wi : Fin 2048 → Fin n → EReal) (Wh : Fin 2048 → Fin 512 → EReal)
    (bi bh : Fin 2048 → EReal) (j : Fin 2048) :
    (∑ k, x k * Wi j k) + bi j + (∑ k, h k * Wh j k) + bh j = gate x h Wi Wh bi bh j := by
  unfold gate; rw [add_right_comm (∑ k, x k * Wi j k) (bi j)]

/-- The new cell row from the gate pre-activations `g` and the old cell row `c`: σ(f)·c + σ(i)·tanh(g). -/
def cNew (g : Fin 2048 → EReal) (c : Fin 512 → EReal) (u : Fin 512) : EReal :=
  Ideal.logistic (g (col 1 u)) * c u + Ideal.logistic (g (col 0 u)) * Ideal.tanh (g (col 2 u))

/-- The new hidden row: σ(o)·tanh(c'). -/
def hNew (g : Fin 2048 → EReal) (c : Fin 512 → EReal) (u : Fin 512) : EReal :=
  Ideal.logistic (g (col 3 u)) * Ideal.tanh (cNew g c u)

section Cell

variable (X : (⟨3, ![256, 64, 2]⟩ : Shape).Idx → EReal) (H C : (⟨4, ![64, 2, 256, 512]⟩ : Shape).Idx → EReal)
  (Wi0 : (⟨2, ![2048, 2]⟩ : Shape).Idx → EReal) (Wh0 : (⟨2, ![2048, 512]⟩ : Shape).Idx → EReal) (bi0 bh0 : (⟨1, ![2048]⟩ : Shape).Idx → EReal)
  (Wi1 Wh1 : (⟨2, ![2048, 512]⟩ : Shape).Idx → EReal) (bi1 bh1 : (⟨1, ![2048]⟩ : Shape).Idx → EReal)

/-- Layer 0's gate pre-activations at row (p, b). -/
def g0 (p : Fin 64) (b : Fin 256) : Fin 2048 → EReal :=
  gate (fun k => at3 X b p k) (fun k => at4 H p 0 b k) (at2 Wi0) (at2 Wh0) (at1 bi0) (at1 bh0)
/-- Layer 0's new cell and hidden rows at row (p, b). -/
def c0' (p : Fin 64) (b : Fin 256) : Fin 512 → EReal := cNew (g0 X H Wi0 Wh0 bi0 bh0 p b) (fun u => at4 C p 0 b u)
def h0' (p : Fin 64) (b : Fin 256) : Fin 512 → EReal := hNew (g0 X H Wi0 Wh0 bi0 bh0 p b) (fun u => at4 C p 0 b u)
/-- Layer 1's gate pre-activations at row (p, b): its input row is layer 0's new hidden row. -/
def g1 (p : Fin 64) (b : Fin 256) : Fin 2048 → EReal :=
  gate (h0' X H C Wi0 Wh0 bi0 bh0 p b) (fun k => at4 H p 1 b k) (at2 Wi1) (at2 Wh1) (at1 bi1) (at1 bh1)
/-- Layer 1's new cell and hidden rows at row (p, b). -/
def c1' (p : Fin 64) (b : Fin 256) : Fin 512 → EReal := cNew (g1 X H C Wi0 Wh0 bi0 bh0 Wi1 Wh1 bi1 bh1 p b) (fun u => at4 C p 1 b u)
def h1' (p : Fin 64) (b : Fin 256) : Fin 512 → EReal := hNew (g1 X H C Wi0 Wh0 bi0 bh0 Wi1 Wh1 bi1 bh1 p b) (fun u => at4 C p 1 b u)

/-- The three results as whole arrays: the last layer's hidden rows laid out batch-major, and the two layers'
    hidden rows, and cell rows, stacked along the layer axis. -/
def out : (⟨3, ![256, 64, 512]⟩ : Shape).Idx → EReal := fun i => h1' X H C Wi0 Wh0 bi0 bh0 Wi1 Wh1 bi1 bh1 (i 1) (i 0) (i 2)
def hn : (⟨4, ![64, 2, 256, 512]⟩ : Shape).Idx → EReal := fun i =>
  if (i 1).val = 0 then h0' X H C Wi0 Wh0 bi0 bh0 (i 0) (i 2) (i 3) else h1' X H C Wi0 Wh0 bi0 bh0 Wi1 Wh1 bi1 bh1 (i 0) (i 2) (i 3)
def cn : (⟨4, ![64, 2, 256, 512]⟩ : Shape).Idx → EReal := fun i =>
  if (i 1).val = 0 then c0' X H C Wi0 Wh0 bi0 bh0 (i 0) (i 2) (i 3) else c1' X H C Wi0 Wh0 bi0 bh0 Wi1 Wh1 bi1 bh1 (i 0) (i 2) (i 3)

end Cell

end Cert.LstmSpec

end
-- ==== Proof.KI.Pay.lean ====
/-
  The four output blocks of one grid point, read at an element.

  A block holds two pedestrians' rows: row (pl, b) of the block is the (512-row) matrix row 256·pl + b. At element
  (pl, b, u) layer 0's stored h and c, and layer 1's stored h and c, are the cell functions of Spec.lean applied to that
  row of the input blocks: the x row, the h and c rows of each layer, the four weight blocks read transposed, the four
  bias blocks. At the ideal instance the narrowing of the matrix operands is the identity and each product into the zero
  accumulator is the plain sum over the contracted axis.
-/
import proofs.«175595_j15547781612107_1_alg».proof.Proof.KI.Body
import proofs.«175595_j15547781612107_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Cert.LstmSpec
open Idealize.ShloMosaic Idealize.ShloMosaic.ValueIdx

/-- Layer 0's gate pre-activations of block row (pl, b), from the x block, layer 0's h block, the two weight blocks
    (stored input-major: entry (k, j) is weight (j, k)) and the two bias blocks. -/
def blkG0 (x0 : Vec Ideal S2x256x2 .f32) (x1 : Vec Ideal S2x1x256x512 .f32) (x5 : Vec Ideal S2x2048 .bf16) (x6 : Vec Ideal S512x2048 .bf16)
    (x7 x8 : Vec Ideal S2048 .f32) (pl : Fin 2) (b : Fin 256) : Fin 2048 → EReal :=
  gate (fun k => x0 (ix3 pl b k)) (fun k => x1 (ix4 pl 0 b k)) (fun j k => x5 (ix2 k j)) (fun j k => x6 (ix2 k j))
    (fun j => x7 (ix1 j)) (fun j => x8 (ix1 j))

/-- Layer 1's gate pre-activations of block row (pl, b): its input row is layer 0's new h row. -/
def blkG1 (x0 : Vec Ideal S2x256x2 .f32) (x1 x2 x3 : Vec Ideal S2x1x256x512 .f32) (x5 : Vec Ideal S2x2048 .bf16) (x6 : Vec Ideal S512x2048 .bf16)
    (x7 x8 : Vec Ideal S2048 .f32) (x9 x10 : Vec Ideal S512x2048 .bf16) (x11 x12 : Vec Ideal S2048 .f32) (pl : Fin 2) (b : Fin 256) : Fin 2048 → EReal :=
  gate (hNew (blkG0 x0 x1 x5 x6 x7 x8 pl b) (fun v => x2 (ix4 pl 0 b v))) (fun k => x3 (ix4 pl 0 b k)) (fun j k => x9 (ix2 k j)) (fun j k => x10 (ix2 k j))
    (fun j => x11 (ix1 j)) (fun j => x12 (ix1 j))

namespace Pay

/-- Row (pl, b) of a block is row 256·pl + b of the 512-row matrices the body computes with. -/
abbrev brow (pl : Fin 2) (b : Fin 256) : Fin 512 := ⟨256 * pl.val + b.val, by omega⟩

section Layout
variable {α : Type}

/-- A [2,1,256,512] block viewed [2,256,512]: element (pl, b, u) is element (pl, 0, b, u). -/
theorem cast_2x1x256x512_2x256x512 (v : S2x1x256x512.Idx → α) (h : S2x1x256x512.ShapeCasts S2x256x512)
    (pl : Fin 2) (b : Fin 256) (u : Fin 512) :
    shapeCast S2x256x512 v h (ix3 pl b u) = v (ix4 pl (0 : Fin 1) b u) :=
  shapeCast_apply v h _ _ (by
    rw [Shape.rowMajor_val_four, Shape.rowMajor_val_three]
    show ((pl.val * 1 + 0) * 256 + b.val) * 512 + u.val = (pl.val * 256 + b.val) * 512 + u.val
    omega)

/-- A [2,256,512] array viewed [512,512]: row 256·pl + b is row (pl, b). -/
theorem cast_2x256x512_512x512 (v : S2x256x512.Idx → α) (h : S2x256x512.ShapeCasts S512x512)
    (pl : Fin 2) (b : Fin 256) (u : Fin 512) :
    shapeCast S512x512 v h (ix2 (brow pl b) u) = v (ix3 pl b u) :=
  shapeCast_apply v h _ _ (by
    rw [Shape.rowMajor_val_three, Shape.rowMajor_val_two]
    show (pl.val * 256 + b.val) * 512 + u.val = (256 * pl.val + b.val) * 512 + u.val
    omega)

/-- A [2,256,2] array viewed [512,2]: row 256·pl + b is row (pl, b). -/
theorem cast_2x256x2_512x2 (v : S2x256x2.Idx → α) (h : S2x256x2.ShapeCasts S512x2)
    (pl : Fin 2) (b : Fin 256) (k : Fin 2) :
    shapeCast S512x2 v h (ix2 (brow pl b) k) = v (ix3 pl b k) :=
  shapeCast_apply v h _ _ (by
    rw [Shape.rowMajor_val_three, Shape.rowMajor_val_two]
    show (pl.val * 256 + b.val) * 2 + k.val = (256 * pl.val + b.val) * 2 + k.val
    omega)

/-- A [512,512] matrix viewed [2,256,512]: element (pl, b, u) is row 256·pl + b at u. -/
theorem cast_512x512_2x256x512 (v : S512x512.Idx → α) (h : S512x512.ShapeCasts S2x256x512)
    (pl : Fin 2) (b : Fin 256) (u : Fin 512) :
    shapeCast S2x256x512 v h (ix3 pl b u) = v (ix2 (brow pl b) u) :=
  shapeCast_apply v h _ _ (by
    rw [Shape.rowMajor_val_three, Shape.rowMajor_val_two]
    show (256 * pl.val + b.val) * 512 + u.val = (pl.val * 256 + b.val) * 512 + u.val
    omega)

/-- A bias vector laid along every row of the gate matrix reads its entry of the column. -/
theorem bias_row (v : S2048.Idx → α) (h1 : S2048.ShapeCasts S1x2048) (hb : S1x2048.Broadcasts S512x2048)
    (r : Fin 512) (j : Fin 2048) :
    broadcastTo S512x2048 (shapeCast S1x2048 v h1) hb (ix2 r j) = v (ix1 j) :=
  (broadcastTo_1b_ab_apply (shapeCast S1x2048 v h1) hb r j).trans (shapeCast_a_1a_apply v h1 (0 : Fin 1) j)

end Layout

/-! ## The two matrix products -/

/-- The operands' indices of the 2-wide product at output (r, j) and inner index q: the left one's are (r, q), the right
    one's (q, j), axis by axis. -/
theorem lhs_x_0 (i : S512x2048.Idx) (q : dot_S512x2_S2x2048_S512x2048_1_0_0_1_n_n.contr.Idx) :
    (dot_S512x2_S2x2048_S512x2048_1_0_0_1_n_n.lhsIdx i q 0).val = (i 0).val := by
  unfold DotDims.lhsIdx
  rw [dif_neg (show ¬(0 : Fin S512x2.rank) ∈ dot_S512x2_S2x2048_S512x2048_1_0_0_1_n_n.lhsBatch by decide), dif_pos (show (0 : Fin S512x2.rank) ∈ dot_S512x2_S2x2048_S512x2048_1_0_0_1_n_n.lhsNonContracting by decide)]
  rfl
theorem lhs_x_1 (i : S512x2048.Idx) (q : dot_S512x2_S2x2048_S512x2048_1_0_0_1_n_n.contr.Idx) :
    (dot_S512x2_S2x2048_S512x2048_1_0_0_1_n_n.lhsIdx i q 1).val = (q ⟨0, by decide⟩).val :=
  dot_S512x2_S2x2048_S512x2048_1_0_0_1_n_n.lhsIdx_val_of_single rfl i q
theorem rhs_x_0 (i : S512x2048.Idx) (q : dot_S512x2_S2x2048_S512x2048_1_0_0_1_n_n.contr.Idx) :
    (dot_S512x2_S2x2048_S512x2048_1_0_0_1_n_n.rhsIdx i q 0).val = (q ⟨0, by decide⟩).val :=
  dot_S512x2_S2x2048_S512x2048_1_0_0_1_n_n.rhsIdx_val_of_single rfl i q
theorem rhs_x_1 (i : S512x2048.Idx) (q : dot_S512x2_S2x2048_S512x2048_1_0_0_1_n_n.contr.Idx) :
    (dot_S512x2_S2x2048_S512x2048_1_0_0_1_n_n.rhsIdx i q 1).val = (i 1).val := by
  unfold DotDims.rhsIdx
  rw [dif_neg (show ¬(1 : Fin S2x2048.rank) ∈ dot_S512x2_S2x2048_S512x2048_1_0_0_1_n_n.rhsBatch by decide), dif_pos (show (1 : Fin S2x2048.rank) ∈ dot_S512x2_S2x2048_S512x2048_1_0_0_1_n_n.rhsNonContracting by decide)]
  rfl

/-- The product of a 512×2 matrix with a 2×2048 matrix into the zero matrix, at (r, j): the sum over the 2 inner entries. -/
theorem prod_x {φ₁ φ₂ : FTy} (l : FVec Ideal S512x2 φ₁) (w : FVec Ideal S2x2048 φ₂) (r : Fin 512) (j : Fin 2048) :
    matmul dot_S512x2_S2x2048_S512x2048_1_0_0_1_n_n none l w (constant (F := Ideal) S512x2048 .f32 0x00000000#32) (ix2 r j)
      = ∑ k : Fin 2, l (ix2 r k) * w (ix2 k j) := by
  refine (Ideal.matmul_constant_zero_apply dot_S512x2_S2x2048_S512x2048_1_0_0_1_n_n none l w (ix2 r j)).trans ?_
  rw [← Equiv.sum_comp (contrEquiv1 dot_S512x2_S2x2048_S512x2048_1_0_0_1_n_n 2 rfl rfl).symm]
  refine Finset.sum_congr rfl fun k _ => ?_
  have hk := contrEquiv1_symm_val dot_S512x2_S2x2048_S512x2048_1_0_0_1_n_n 2 rfl rfl k
  have el : dot_S512x2_S2x2048_S512x2048_1_0_0_1_n_n.lhsIdx (ix2 r j) ((contrEquiv1 dot_S512x2_S2x2048_S512x2048_1_0_0_1_n_n 2 rfl rfl).symm k) = ix2 r k := funext fun a => Fin.ext (by
    match a with
    | ⟨0, _⟩ => exact lhs_x_0 _ _
    | ⟨1, _⟩ => exact (lhs_x_1 _ _).trans hk)
  have er : dot_S512x2_S2x2048_S512x2048_1_0_0_1_n_n.rhsIdx (ix2 r j) ((contrEquiv1 dot_S512x2_S2x2048_S512x2048_1_0_0_1_n_n 2 rfl rfl).symm k) = ix2 k j := funext fun a => Fin.ext (by
    match a with
    | ⟨0, _⟩ => exact (rhs_x_0 _ _).trans hk
    | ⟨1, _⟩ => exact rhs_x_1 _ _)
  rw [el, er]

/-- The same for the 512-wide product. -/
theorem lhs_h_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_h_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem rhs_h_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem rhs_h_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- The product of a 512×512 matrix with a 512×2048 matrix into the zero matrix, at (r, j): the sum over the 512 inner entries. -/
theorem prod_h {φ₁ φ₂ : FTy} (l : FVec Ideal S512x512 φ₁) (w : FVec Ideal S512x2048 φ₂) (r : Fin 512) (j : Fin 2048) :
    matmul dot_S512x512_S512x2048_S512x2048_1_0_0_1_n_n none l w (constant (F := Ideal) S512x2048 .f32 0x00000000#32) (ix2 r j)
      = ∑ k : Fin 512, l (ix2 r k) * w (ix2 k j) := by
  refine (Ideal.matmul_constant_zero_apply dot_S512x512_S512x2048_S512x2048_1_0_0_1_n_n none l w (ix2 r j)).trans ?_
  rw [← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 r j) ((contrEquiv1 dot_S512x512_S512x2048_S512x2048_1_0_0_1_n_n 512 rfl rfl).symm k) = ix2 r k := funext fun a => Fin.ext (by
    match a with
    | ⟨0, _⟩ => exact lhs_h_0 _ _
    | ⟨1, _⟩ => exact (lhs_h_1 _ _).trans hk)
  have er : dot_S512x512_S512x2048_S512x2048_1_0_0_1_n_n.rhsIdx (ix2 r j) ((contrEquiv1 dot_S512x512_S512x2048_S512x2048_1_0_0_1_n_n 512 rfl rfl).symm k) = ix2 k j := funext fun a => Fin.ext (by
    match a with
    | ⟨0, _⟩ => exact (rhs_h_0 _ _).trans hk
    | ⟨1, _⟩ => exact rhs_h_1 _ _)
  rw [el, er]

/-! ## The operand rows and the gate matrix -/

/-- The all-zero offsets of a whole-block access, at each rank. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section Rows
variable {α : Type}

/-- A [2,1,256,512] block flattened to 512 rows: row 256·pl + b at u is element (pl, 0, b, u). -/
theorem rows_h (v : S2x1x256x512.Idx → α) (h1 : S2x1x256x512.ShapeCasts S2x256x512) (h2 : S2x256x512.ShapeCasts S512x512)
    (pl : Fin 2) (b : Fin 256) (u : Fin 512) :
    shapeCast S512x512 (shapeCast S2x256x512 v h1) h2 (ix2 (brow pl b) u) = v (ix4 pl (0 : Fin 1) b u) :=
  (cast_2x256x512_512x512 (shapeCast S2x256x512 v h1) h2 pl b u).trans (cast_2x1x256x512_2x256x512 v h1 pl b u)

/-- The x block flattened to 512 rows: row 256·pl + b at k is element (pl, b, k). -/
theorem rows_x (v : S2x256x2.Idx → α) (h1 : S2x256x2.ShapeCasts S2x256x2) (h2 : S2x256x2.ShapeCasts S512x2)
    (pl : Fin 2) (b : Fin 256) (k : Fin 2) :
    shapeCast S512x2 (shapeCast S2x256x2 v h1) h2 (ix2 (brow pl b) k) = v (ix3 pl b k) :=
  (cast_2x256x2_512x2 (shapeCast S2x256x2 v h1) h2 pl b k).trans (congrFun (shapeCast_self v h1) (ix3 pl b k))

end Rows

/-- The three flattened state blocks at row 256·pl + b. -/
theorem pay3_apply (v : Vec Ideal S2x1x256x512 .f32) (pl : Fin 2) (b : Fin 256) (u : Fin 512) :
    k0_pay3 (F := Ideal) v (ix2 (brow pl b) u) = v (ix4 pl (0 : Fin 1) b u) :=
  rows_h v shapeCasts_S2x1x256x512_S2x256x512 shapeCasts_S2x256x512_S512x512 pl b u
theorem pay4_apply (v : Vec Ideal S2x1x256x512 .f32) (pl : Fin 2) (b : Fin 256) (u : Fin 512) :
    k0_pay4 (F := Ideal) v (ix2 (brow pl b) u) = v (ix4 pl (0 : Fin 1) b u) :=
  rows_h v shapeCasts_S2x1x256x512_S2x256x512 shapeCasts_S2x256x512_S512x512 pl b u
theorem pay5_apply (v : Vec Ideal S2x1x256x512 .f32) (pl : Fin 2) (b : Fin 256) (u : Fin 512) :
    k0_pay5 (F := Ideal) v (ix2 (brow pl b) u) = v (ix4 pl (0 : Fin 1) b u) :=
  rows_h v shapeCasts_S2x1x256x512_S2x256x512 shapeCasts_S2x256x512_S512x512 pl b u

/-- Equal arguments give equal gate rows. -/
theorem gate_congr {n : Nat} {x x' : Fin n → EReal} {h h' : Fin 512 → EReal} {Wi Wi' : Fin 2048 → Fin n → EReal}
    {Wh Wh' : Fin 2048 → Fin 512 → EReal} {bi bi' bh bh' : Fin 2048 → EReal}
    (ex : x = x') (eh : h = h') (ei : Wi = Wi') (ew : Wh = Wh') (e1 : bi = bi') (e2 : bh = bh') :
    gate x h Wi Wh bi bh = gate x' h' Wi' Wh' bi' bh' := by
  rw [ex, eh, ei, ew, e1, e2]

/-- Layer 0's gate matrix from its operands, at (r, j): the two products into zero, then the two bias rows, added in
    that order — Spec's `gate` of row r of the two left operands and the columns j of the two weight blocks. -/
theorem gmat0 (l : FVec Ideal S512x2 .bf16) (h : FVec Ideal S512x512 .bf16) (wi : FVec Ideal S2x2048 .bf16)
    (wh : FVec Ideal S512x2048 .bf16) (bi bh : FVec Ideal S2048 .f32) (r : Fin 512) (j : Fin 2048) :
    addf (addf (addf
        (matmul dot_S512x2_S2x2048_S512x2048_1_0_0_1_n_n none l wi (constant (F := Ideal) S512x2048 .f32 0x00000000#32))
        (matmul dot_S512x512_S512x2048_S512x2048_1_0_0_1_n_n none h wh (constant (F := Ideal) S512x2048 .f32 0x00000000#32)))
        (broadcastTo S512x2048 (shapeCast S1x2048 bi shapeCasts_S2048_S1x2048) broadcasts_S1x2048_S512x2048))
        (broadcastTo S512x2048 (shapeCast S1x2048 bh shapeCasts_S2048_S1x2048) broadcasts_S1x2048_S512x2048) (ix2 r j)
      = gate (fun k => l (ix2 r k)) (fun k => h (ix2 r k)) (fun j k => wi (ix2 k j)) (fun j k => wh (ix2 k j))
          (fun j => bi (ix1 j)) (fun j => bh (ix1 j)) j := by
  unfold gate
  exact congrArg₂ (· + ·) (congrArg₂ (· + ·) (congrArg₂ (· + ·) (prod_x l wi r j) (prod_h h wh r j))
    (bias_row bi shapeCasts_S2048_S1x2048 broadcasts_S1x2048_S512x2048 r j))
    (bias_row bh shapeCasts_S2048_S1x2048 broadcasts_S1x2048_S512x2048 r j)

/-- Layer 1's gate matrix likewise: both left operands are 512 wide. -/
theorem gmat1 (l h : FVec Ideal S512x512 .bf16) (wi wh : FVec Ideal S512x2048 .bf16) (bi bh : FVec Ideal S2048 .f32)
    (r : Fin 512) (j : Fin 2048) :
    addf (addf (addf
        (matmul dot_S512x512_S512x2048_S512x2048_1_0_0_1_n_n none l wi (constant (F := Ideal) S512x2048 .f32 0x00000000#32))
        (matmul dot_S512x512_S512x2048_S512x2048_1_0_0_1_n_n none h wh (constant (F := Ideal) S512x2048 .f32 0x00000000#32)))
        (broadcastTo S512x2048 (shapeCast S1x2048 bi shapeCasts_S2048_S1x2048) broadcasts_S1x2048_S512x2048))
        (broadcastTo S512x2048 (shapeCast S1x2048 bh shapeCasts_S2048_S1x2048) broadcasts_S1x2048_S512x2048) (ix2 r j)
      = gate (fun k => l (ix2 r k)) (fun k => h (ix2 r k)) (fun j k => wi (ix2 k j)) (fun j k => wh (ix2 k j))
          (fun j => bi (ix1 j)) (fun j => bh (ix1 j)) j := by
  unfold gate
  exact congrArg₂ (· + ·) (congrArg₂ (· + ·) (congrArg₂ (· + ·) (prod_h l wi r j) (prod_h h wh r j))
    (bias_row bi shapeCasts_S2048_S1x2048 broadcasts_S1x2048_S512x2048 r j))
    (bias_row bh shapeCasts_S2048_S1x2048 broadcasts_S1x2048_S512x2048 r j)

/-- Layer 0's gate matrix at row 256·pl + b is the gate row of block row (pl, b). -/
theorem g0_apply (x0 : Vec Ideal S2x256x2 .f32) (x1 : Vec Ideal S2x1x256x512 .f32) (x5 : Vec Ideal S2x2048 .bf16) (x6 : Vec Ideal S512x2048 .bf16)
    (x7 x8 : Vec Ideal S2048 .f32) (pl : Fin 2) (b : Fin 256) (j : Fin 2048) :
    k0_pay6 (F := Ideal) x0 x1 x5 x6 x7 x8 (ix2 (brow pl b) j) = blkG0 x0 x1 x5 x6 x7 x8 pl b j := by
  refine (gmat0 (truncf .bf16 (shapeCast S512x2 (shapeCast S2x256x2 x0 shapeCasts_S2x256x2_S2x256x2) shapeCasts_S2x256x2_S512x2) bitsLt_bf16_f32)
    (truncf .bf16 (shapeCast S512x512 (shapeCast S2x256x512 x1 shapeCasts_S2x1x256x512_S2x256x512) shapeCasts_S2x256x512_S512x512) bitsLt_bf16_f32)
    (shapeCast S2x2048 x5 shapeCasts_S2x2048_S2x2048) (shapeCast S512x2048 x6 shapeCasts_S512x2048_S512x2048) x7 x8 (brow pl b) j).trans ?_
  unfold blkG0
  exact congrFun (gate_congr
    (funext fun k => rows_x x0 shapeCasts_S2x256x2_S2x256x2 shapeCasts_S2x256x2_S512x2 pl b k)
    (funext fun k => rows_h x1 shapeCasts_S2x1x256x512_S2x256x512 shapeCasts_S2x256x512_S512x512 pl b k)
    (funext fun j => funext fun k => congrFun (shapeCast_self x5 shapeCasts_S2x2048_S2x2048) (ix2 k j))
    (funext fun j => funext fun k => congrFun (shapeCast_self x6 shapeCasts_S512x2048_S512x2048) (ix2 k j))
    rfl rfl) j

/-! ## The cell: the four gates cut out of a gate matrix, and the two state updates -/

section Cut
variable {α : Type}

/-- Gate k's 512 columns cut out of a gate matrix: column u of the cut is column 512·k + u. -/
theorem gate_cut (k : Fin 4) (o : Nat) (ho : o = 512 * k.val) (v : S512x2048.Idx → α) (h : S512x2048.Slices ![0, o] S512x512)
    (r : Fin 512) (u : Fin 512) :
    extractStridedSlice S512x512 ![0, o] v h (ix2 r u) = v (ix2 r (col k u)) :=
  slice2_axis1_apply o v h r u (col k u) (by subst ho; rfl)

end Cut

/-- The new cell matrix from the old one `c` and a gate matrix `g`, at (r, u): Spec's `cNew` of row r of each. -/
theorem cell_c (c : FVec Ideal S512x512 .f32) (g : FVec Ideal S512x2048 .f32) (r u : Fin 512) :
    k0_pay7 (F := Ideal) c g (ix2 r u) = cNew (fun j => g (ix2 r j)) (fun v => c (ix2 r v)) u := by
  unfold cNew
  exact congrArg₂ (· + ·)
    (congrArg₂ (· * ·) (congrArg Ideal.logistic (gate_cut 1 512 rfl g slices_S512x2048_o0_512_S512x512 r u)) rfl)
    (congrArg₂ (· * ·) (congrArg Ideal.logistic (gate_cut 0 0 rfl g slices_S512x2048_o0_0_S512x512 r u))
      (congrArg Ideal.tanh (gate_cut 2 1024 rfl g slices_S512x2048_o0_1024_S512x512 r u)))

/-- The new hidden matrix likewise: Spec's `hNew`. -/
theorem cell_h (c : FVec Ideal S512x512 .f32) (g : FVec Ideal S512x2048 .f32) (r u : Fin 512) :
    k0_pay8 (F := Ideal) c g (ix2 r u) = hNew (fun j => g (ix2 r j)) (fun v => c (ix2 r v)) u := by
  unfold hNew
  exact congrArg₂ (· * ·) (congrArg Ideal.logistic (gate_cut 3 1536 rfl g slices_S512x2048_o0_1536_S512x512 r u))
    (congrArg Ideal.tanh (cell_c c g r u))

/-- Layer 1's gate matrix at (r, j): its input row is layer 0's new hidden row r. -/
theorem g1_apply (c0 h1 : FVec Ideal S512x512 .f32) (g : FVec Ideal S512x2048 .f32) (x9 x10 : Vec Ideal S512x2048 .bf16)
    (x11 x12 : Vec Ideal S2048 .f32) (r : Fin 512) (j : Fin 2048) :
    k0_pay9 (F := Ideal) c0 h1 g x9 x10 x11 x12 (ix2 r j)
      = gate (hNew (fun j => g (ix2 r j)) (fun v => c0 (ix2 r v))) (fun k => h1 (ix2 r k)) (fun j k => x9 (ix2 k j)) (fun j k => x10 (ix2 k j))
          (fun j => x11 (ix1 j)) (fun j => x12 (ix1 j)) j := by
  refine (gmat1 (truncf .bf16 (k0_pay8 (F := Ideal) c0 g) bitsLt_bf16_f32) (truncf .bf16 h1 bitsLt_bf16_f32)
    (shapeCast S512x2048 x9 shapeCasts_S512x2048_S512x2048) (shapeCast S512x2048 x10 shapeCasts_S512x2048_S512x2048) x11 x12 r j).trans ?_
  exact congrFun (gate_congr
    (funext fun k => cell_h c0 g r k)
    rfl
    (funext fun j => funext fun k => congrFun (shapeCast_self x9 shapeCasts_S512x2048_S512x2048) (ix2 k j))
    (funext fun j => funext fun k => congrFun (shapeCast_self x10 shapeCasts_S512x2048_S512x2048) (ix2 k j))
    rfl rfl) j

/-- Layer 1's two state updates are the same cell applied to layer 1's gate matrix and old cell matrix. -/
theorem cell1_c (c0 h1 c1 : FVec Ideal S512x512 .f32) (g : FVec Ideal S512x2048 .f32) (x9 x10 : Vec Ideal S512x2048 .bf16)
    (x11 x12 : Vec Ideal S2048 .f32) (r u : Fin 512) :
    k0_pay10 (F := Ideal) c0 h1 c1 g x9 x10 x11 x12 (ix2 r u)
      = cNew (fun j => k0_pay9 (F := Ideal) c0 h1 g x9 x10 x11 x12 (ix2 r j)) (fun v => c1 (ix2 r v)) u :=
  cell_c c1 (k0_pay9 (F := Ideal) c0 h1 g x9 x10 x11 x12) r u
theorem cell1_h (c0 h1 c1 : FVec Ideal S512x512 .f32) (g : FVec Ideal S512x2048 .f32) (x9 x10 : Vec Ideal S512x2048 .bf16)
    (x11 x12 : Vec Ideal S2048 .f32) (r u : Fin 512) :
    k0_pay11 (F := Ideal) c0 h1 c1 g x9 x10 x11 x12 (ix2 r u)
      = hNew (fun j => k0_pay9 (F := Ideal) c0 h1 g x9 x10 x11 x12 (ix2 r j)) (fun v => c1 (ix2 r v)) u :=
  cell_h c1 (k0_pay9 (F := Ideal) c0 h1 g x9 x10 x11 x12) r u

/-! ## The four stores -/

theorem ld_rX (x : Vec Ideal S2x256x2 .f32) : View.ld x rX = x := View.ld_unit_zero (S := S2x256x2) hz3 _ x
theorem ld_rH (x : Vec Ideal S2x1x256x512 .f32) : View.ld x rH = x := View.ld_unit_zero (S := S2x1x256x512) hz4 _ x
theorem ld_rWi (x : Vec Ideal S2x2048 .bf16) : View.ld x rWi = x := View.ld_unit_zero (S := S2x2048) hz2 _ x
theorem ld_rW (x : Vec Ideal S512x2048 .bf16) : View.ld x rW = x := View.ld_unit_zero (S := S512x2048) hz2 _ x
theorem ld_rB (x : Vec Ideal S2048 .f32) : View.ld x rB = x := View.ld_unit_zero (S := S2048) hz1 _ x

/-- Each output block is its one whole-block store's value, of the input blocks themselves. -/
theorem out13_eq (x0 : Vec Ideal S2x256x2 .f32) (x1 x2 : Vec Ideal S2x1x256x512 .f32) (x5 : Vec Ideal S2x2048 .bf16) (x6 : Vec Ideal S512x2048 .bf16)
    (x7 x8 : Vec Ideal S2048 .f32) :
    out0_13 (F := Ideal) x0 x1 x2 x5 x6 x7 x8
      = k0_pay12 (F := Ideal) (k0_pay3 (F := Ideal) x2) (k0_pay6 (F := Ideal) x0 x1 x5 x6 x7 x8) := by
  unfold out0_13
  rw [View.canon_unit_zero hz3]
  simp only [ld_rX, ld_rH, ld_rWi, ld_rW, ld_rB]
theorem out14_eq (x0 : Vec Ideal S2x256x2 .f32) (x1 x2 : Vec Ideal S2x1x256x512 .f32) (x5 : Vec Ideal S2x2048 .bf16) (x6 : Vec Ideal S512x2048 .bf16)
    (x7 x8 : Vec Ideal S2048 .f32) :
    out0_14 (F := Ideal) x0 x1 x2 x5 x6 x7 x8
      = k0_pay13 (F := Ideal) (k0_pay3 (F := Ideal) x2) (k0_pay6 (F := Ideal) x0 x1 x5 x6 x7 x8) := by
  unfold out0_14
  rw [View.canon_unit_zero hz3]
  simp only [ld_rX, ld_rH, ld_rWi, ld_rW, ld_rB]
theorem out15_eq (x0 : Vec Ideal S2x256x2 .f32) (x1 x2 x3 x4 : Vec Ideal S2x1x256x512 .f32) (x5 : Vec Ideal S2x2048 .bf16) (x6 : Vec Ideal S512x2048 .bf16)
    (x7 x8 : Vec Ideal S2048 .f32) (x9 x10 : Vec Ideal S512x2048 .bf16) (x11 x12 : Vec Ideal S2048 .f32) :
    out0_15 (F := Ideal) x0 x1 x2 x3 x4 x5 x6 x7 x8 x9 x10 x11 x12
      = k0_pay1 (F := Ideal) (k0_pay11 (F := Ideal) (k0_pay3 (F := Ideal) x2) (k0_pay4 (F := Ideal) x3) (k0_pay5 (F := Ideal) x4)
          (k0_pay6 (F := Ideal) x0 x1 x5 x6 x7 x8) x9 x10 x11 x12) := by
  unfold out0_15
  rw [View.canon_unit_zero hz3]
  simp only [ld_rX, ld_rH, ld_rWi, ld_rW, ld_rB]
theorem out16_eq (x0 : Vec Ideal S2x256x2 .f32) (x1 x2 x3 x4 : Vec Ideal S2x1x256x512 .f32) (x5 : Vec Ideal S2x2048 .bf16) (x6 : Vec Ideal S512x2048 .bf16)
    (x7 x8 : Vec Ideal S2048 .f32) (x9 x10 : Vec Ideal S512x2048 .bf16) (x11 x12 : Vec Ideal S2048 .f32) :
    out0_16 (F := Ideal) x0 x1 x2 x3 x4 x5 x6 x7 x8 x9 x10 x11 x12
      = k0_pay2 (F := Ideal) (k0_pay10 (F := Ideal) (k0_pay3 (F := Ideal) x2) (k0_pay4 (F := Ideal) x3) (k0_pay5 (F := Ideal) x4)
          (k0_pay6 (F := Ideal) x0 x1 x5 x6 x7 x8) x9 x10 x11 x12) := by
  unfold out0_16
  rw [View.canon_unit_zero hz3]
  simp only [ld_rX, ld_rH, ld_rWi, ld_rW, ld_rB]

/-- Layer 0's new hidden row of block row (pl, b) is row 256·pl + b of the kernel's hidden matrix, and its gate row
    is that row of the gate matrix. -/
theorem h0_row (x0 : Vec Ideal S2x256x2 .f32) (x1 x2 : Vec Ideal S2x1x256x512 .f32) (x5 : Vec Ideal S2x2048 .bf16) (x6 : Vec Ideal S512x2048 .bf16)
    (x7 x8 : Vec Ideal S2048 .f32) (pl : Fin 2) (b : Fin 256) :
    hNew (fun j => k0_pay6 (F := Ideal) x0 x1 x5 x6 x7 x8 (ix2 (brow pl b) j)) (fun v => k0_pay3 (F := Ideal) x2 (ix2 (brow pl b) v))
      = hNew (blkG0 x0 x1 x5 x6 x7 x8 pl b) (fun v => x2 (ix4 pl 0 b v)) :=
  congrArg₂ hNew (funext fun j => g0_apply x0 x1 x5 x6 x7 x8 pl b j) (funext fun v => pay3_apply x2 pl b v)

/-- Layer 1's gate matrix at row 256·pl + b is the gate row of block row (pl, b). -/
theorem g1_blk (x0 : Vec Ideal S2x256x2 .f32) (x1 x2 x3 : Vec Ideal S2x1x256x512 .f32) (x5 : Vec Ideal S2x2048 .bf16) (x6 : Vec Ideal S512x2048 .bf16)
    (x7 x8 : Vec Ideal S2048 .f32) (x9 x10 : Vec Ideal S512x2048 .bf16) (x11 x12 : Vec Ideal S2048 .f32) (pl : Fin 2) (b : Fin 256) (j : Fin 2048) :
    k0_pay9 (F := Ideal) (k0_pay3 (F := Ideal) x2) (k0_pay4 (F := Ideal) x3) (k0_pay6 (F := Ideal) x0 x1 x5 x6 x7 x8) x9 x10 x11 x12 (ix2 (brow pl b) j)
      = blkG1 x0 x1 x2 x3 x5 x6 x7 x8 x9 x10 x11 x12 pl b j := by
  refine (g1_apply (k0_pay3 (F := Ideal) x2) (k0_pay4 (F := Ideal) x3) (k0_pay6 (F := Ideal) x0 x1 x5 x6 x7 x8) x9 x10 x11 x12 (brow pl b) j).trans ?_
  unfold blkG1
  exact congrFun (gate_congr (h0_row x0 x1 x2 x5 x6 x7 x8 pl b) (funext fun k => pay4_apply x3 pl b k) rfl rfl rfl rfl) j

end Pay

open Pay

variable (x0 : Vec Ideal S2x256x2 .f32) (x1 x2 x3 x4 : Vec Ideal S2x1x256x512 .f32) (x5 : Vec Ideal S2x2048 .bf16) (x6 : Vec Ideal S512x2048 .bf16)
  (x7 x8 : Vec Ideal S2048 .f32) (x9 x10 : Vec Ideal S512x2048 .bf16) (x11 x12 : Vec Ideal S2048 .f32)

/-- Layer 0's stored h block at element (pl, b, u). -/
theorem out13_apply (pl : Fin 2) (b : Fin 256) (u : Fin 512) :
    out0_13 (F := Ideal) x0 x1 x2 x5 x6 x7 x8 (ix3 pl b u) = hNew (blkG0 x0 x1 x5 x6 x7 x8 pl b) (fun v => x2 (ix4 pl 0 b v)) u := by
  refine (congrFun (out13_eq x0 x1 x2 x5 x6 x7 x8) (ix3 pl b u)).trans ?_
  refine (cast_512x512_2x256x512 (k0_pay8 (F := Ideal) (k0_pay3 (F := Ideal) x2) (k0_pay6 (F := Ideal) x0 x1 x5 x6 x7 x8))
    shapeCasts_S512x512_S2x256x512 pl b u).trans ?_
  refine (cell_h (k0_pay3 (F := Ideal) x2) (k0_pay6 (F := Ideal) x0 x1 x5 x6 x7 x8) (brow pl b) u).trans ?_
  exact congrFun (h0_row x0 x1 x2 x5 x6 x7 x8 pl b) u

/-- Layer 0's stored c block at element (pl, b, u). -/
theorem out14_apply (pl : Fin 2) (b : Fin 256) (u : Fin 512) :
    out0_14 (F := Ideal) x0 x1 x2 x5 x6 x7 x8 (ix3 pl b u) = cNew (blkG0 x0 x1 x5 x6 x7 x8 pl b) (fun v => x2 (ix4 pl 0 b v)) u := by
  refine (congrFun (out14_eq x0 x1 x2 x5 x6 x7 x8) (ix3 pl b u)).trans ?_
  refine (cast_512x512_2x256x512 (k0_pay7 (F := Ideal) (k0_pay3 (F := Ideal) x2) (k0_pay6 (F := Ideal) x0 x1 x5 x6 x7 x8))
    shapeCasts_S512x512_S2x256x512 pl b u).trans ?_
  refine (cell_c (k0_pay3 (F := Ideal) x2) (k0_pay6 (F := Ideal) x0 x1 x5 x6 x7 x8) (brow pl b) u).trans ?_
  exact congrFun (congrArg₂ cNew (funext fun j => g0_apply x0 x1 x5 x6 x7 x8 pl b j) (funext fun v => pay3_apply x2 pl b v)) u

/-- Layer 1's stored h block at element (pl, b, u). -/
theorem out15_apply (pl : Fin 2) (b : Fin 256) (u : Fin 512) :
    out0_15 (F := Ideal) x0 x1 x2 x3 x4 x5 x6 x7 x8 x9 x10 x11 x12 (ix3 pl b u)
      = hNew (blkG1 x0 x1 x2 x3 x5 x6 x7 x8 x9 x10 x11 x12 pl b) (fun v => x4 (ix4 pl 0 b v)) u := by
  refine (congrFun (out15_eq x0 x1 x2 x3 x4 x5 x6 x7 x8 x9 x10 x11 x12) (ix3 pl b u)).trans ?_
  refine (cast_512x512_2x256x512 (k0_pay11 (F := Ideal) (k0_pay3 (F := Ideal) x2) (k0_pay4 (F := Ideal) x3) (k0_pay5 (F := Ideal) x4)
    (k0_pay6 (F := Ideal) x0 x1 x5 x6 x7 x8) x9 x10 x11 x12) shapeCasts_S512x512_S2x256x512 pl b u).trans ?_
  refine (cell1_h (k0_pay3 (F := Ideal) x2) (k0_pay4 (F := Ideal) x3) (k0_pay5 (F := Ideal) x4)
    (k0_pay6 (F := Ideal) x0 x1 x5 x6 x7 x8) x9 x10 x11 x12 (brow pl b) u).trans ?_
  exact congrFun (congrArg₂ hNew (funext fun j => g1_blk x0 x1 x2 x3 x5 x6 x7 x8 x9 x10 x11 x12 pl b j)
    (funext fun v => pay5_apply x4 pl b v)) u

/-- Layer 1's stored c block at element (pl, b, u). -/
theorem out16_apply (pl : Fin 2) (b : Fin 256) (u : Fin 512) :
    out0_16 (F := Ideal) x0 x1 x2 x3 x4 x5 x6 x7 x8 x9 x10 x11 x12 (ix3 pl b u)
      = cNew (blkG1 x0 x1 x2 x3 x5 x6 x7 x8 x9 x10 x11 x12 pl b) (fun v => x4 (ix4 pl 0 b v)) u := by
  refine (congrFun (out16_eq x0 x1 x2 x3 x4 x5 x6 x7 x8 x9 x10 x11 x12) (ix3 pl b u)).trans ?_
  refine (cast_512x512_2x256x512 (k0_pay10 (F := Ideal) (k0_pay3 (F := Ideal) x2) (k0_pay4 (F := Ideal) x3) (k0_pay5 (F := Ideal) x4)
    (k0_pay6 (F := Ideal) x0 x1 x5 x6 x7 x8) x9 x10 x11 x12) shapeCasts_S512x512_S2x256x512 pl b u).trans ?_
  refine (cell1_c (k0_pay3 (F := Ideal) x2) (k0_pay4 (F := Ideal) x3) (k0_pay5 (F := Ideal) x4)
    (k0_pay6 (F := Ideal) x0 x1 x5 x6 x7 x8) x9 x10 x11 x12 (brow pl b) u).trans ?_
  exact congrFun (congrArg₂ cNew (funext fun j => g1_blk x0 x1 x2 x3 x5 x6 x7 x8 x9 x10 x11 x12 pl b j)
    (funext fun v => pay5_apply x4 pl b v)) u

end Cert.KernelIdeal.Hand

end
-- ==== Proof.KI.Value.lean ====
/-
  From the blocks the grid points store to the four result arrays.

  The region runs 32 grid points; point t handles pedestrians 2t and 2t + 1. Each of the four output windows (layer 0's
  new hidden and cell rows, layer 1's new hidden and cell rows) has block shape [2, 256, 512] and block index (t, 0, 0)
  in its [64, 256, 512] array, so the 32 blocks tile the array along the pedestrian axis and every point's block is
  written back once. This module shows that each result array, after the last write-back, is the cell function of
  Spec.lean of the eleven argument arrays, index by index:

  * the arrays behind the input windows are the arguments themselves (h, c, the four biases) or, after the nine host
    operations that precede the region, the x argument with its first two axes swapped and the four weight matrices
    transposed (the narrowing that follows each weight transpose is the identity on the extended reals);
  * an input block's entry is therefore an argument's entry: row (pl, b) of point t's x, h and c blocks is row
    (2t + pl, b) of the arguments (layer 0 for windows 1 and 2, layer 1 for windows 3 and 4), and the weight and bias
    blocks are the whole transposed weights and the whole biases;
  * hence the gate pre-activations of a block row are the cell's gate pre-activations of that argument row, layer 1's
    input row being layer 0's new hidden row, and the stored rows are the cell's new hidden and cell rows;
  * so what point t writes back is block t of one function of the arguments, and since pedestrian p lies in the block of
    point p / 2 the blocks cover the array.
-/
import proofs.«175595_j15547781612107_1_alg».proof.Proof.KI.Tail
import proofs.«175595_j15547781612107_1_alg».proof.Proof.KI.Pay
import proofs.«175595_j15547781612107_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Hand

open Cert.KernelIdeal Cert.KernelIdeal.Gen Cert.LstmSpec
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-! ## The arrays behind the windows

Nine host operations run before the region: the x array is the argument with its first two axes swapped, and each
of the four weight matrices is transposed and then narrowed. No operation writes an argument array, so the windows on
the h and c arrays and on the four bias vectors read the arguments themselves. -/

theorem V_v0 (c : Dev nD) : (V m c main_v0 : S64x256x2.Idx → EReal)
    = transpose S64x256x2 [1, 0, 2] (m ((c.tc : Thread nD τ).loc main_arg0)) transposes_S256x64x2_S64x256x2_1_0_2 := by
  show StableHlo.after hostOps0 _ (Proc.devRef .tc main_v0) = _
  after_results

theorem V_v2 (c : Dev nD) : (V m c main_v2 : S2x2048.Idx → EReal)
    = truncf (F := Ideal) .bf16 (transpose S2x2048 [1, 0] (m ((c.tc : Thread nD τ).loc main_arg3)) transposes_S2048x2_S2x2048_1_0) bitsLt_bf16_f32 := by
  show StableHlo.after hostOps0 _ (Proc.devRef .tc main_v2) = _
  after_results

theorem V_v4 (c : Dev nD) : (V m c main_v4 : S512x2048.Idx → EReal)
    = truncf (F := Ideal) .bf16 (transpose S512x2048 [1, 0] (m ((c.tc : Thread nD τ).loc main_arg4)) transposes_S2048x512_S512x2048_1_0) bitsLt_bf16_f32 := by
  show StableHlo.after hostOps0 _ (Proc.devRef .tc main_v4) = _
  after_results

theorem V_v6 (c : Dev nD) : (V m c main_v6 : S512x2048.Idx → EReal)
    = truncf (F := Ideal) .bf16 (transpose S512x2048 [1, 0] (m ((c.tc : Thread nD τ).loc main_arg7)) transposes_S2048x512_S512x2048_1_0) bitsLt_bf16_f32 := by
  show StableHlo.after hostOps0 _ (Proc.devRef .tc main_v6) = _
  after_results

theorem V_v8 (c : Dev nD) : (V m c main_v8 : S512x2048.Idx → EReal)
    = truncf (F := Ideal) .bf16 (transpose S512x2048 [1, 0] (m ((c.tc : Thread nD τ).loc main_arg8)) transposes_S2048x512_S512x2048_1_0) bitsLt_bf16_f32 := by
  show StableHlo.after hostOps0 _ (Proc.devRef .tc main_v8) = _
  after_results

theorem V_arg1 (c : Dev nD) : V m c main_arg1 = m ((c.tc : Thread nD τ).loc main_arg1) := by
  show StableHlo.after hostOps0 _ (Proc.devRef .tc main_arg1) = _
  after_results

theorem V_arg2 (c : Dev nD) : V m c main_arg2 = m ((c.tc : Thread nD τ).loc main_arg2) := by
  show StableHlo.after hostOps0 _ (Proc.devRef .tc main_arg2) = _
  after_results

theorem V_arg5 (c : Dev nD) : V m c main_arg5 = m ((c.tc : Thread nD τ).loc main_arg5) := by
  show StableHlo.after hostOps0 _ (Proc.devRef .tc main_arg5) = _
  after_results

theorem V_arg6 (c : Dev nD) : V m c main_arg6 = m ((c.tc : Thread nD τ).loc main_arg6) := by
  show StableHlo.after hostOps0 _ (Proc.devRef .tc main_arg6) = _
  after_results

theorem V_arg9 (c : Dev nD) : V m c main_arg9 = m ((c.tc : Thread nD τ).loc main_arg9) := by
  show StableHlo.after hostOps0 _ (Proc.devRef .tc main_arg9) = _
  after_results

theorem V_arg10 (c : Dev nD) : V m c main_arg10 = m ((c.tc : Thread nD τ).loc main_arg10) := by
  show StableHlo.after hostOps0 _ (Proc.devRef .tc main_arg10) = _
  after_results

/-- The x array at (p, b, k) is the argument at (b, p, k). -/
theorem V_v0_apply (c : Dev nD) (p : Fin 64) (b : Fin 256) (k : Fin 2) :
    (V m c main_v0 : S64x256x2.Idx → EReal) (ix3 p b k) = (m ((c.tc : Thread nD τ).loc main_arg0) : S256x64x2.Idx → EReal) (ix3 b p k) := by
  rw [V_v0]
  exact transpose_apply _ _ _ _ _ fun a => match a with | ⟨0, _⟩ => rfl | ⟨1, _⟩ => rfl | ⟨2, _⟩ => rfl

/-- Each weight array the region reads is stored input-major: its entry (k, j) is the argument's weight (j, k). -/
theorem V_v2_apply (c : Dev nD) (k : Fin 2) (j : Fin 2048) :
    (V m c main_v2 : S2x2048.Idx → EReal) (ix2 k j) = (m ((c.tc : Thread nD τ).loc main_arg3) : S2048x2.Idx → EReal) (ix2 j k) := by
  rw [V_v2]
  exact (truncf_apply (ψ := .bf16) _ bitsLt_bf16_f32 _).trans (transpose_ix2_apply _ _ _ _)

theorem V_v4_apply (c : Dev nD) (k : Fin 512) (j : Fin 2048) :
    (V m c main_v4 : S512x2048.Idx → EReal) (ix2 k j) = (m ((c.tc : Thread nD τ).loc main_arg4) : S2048x512.Idx → EReal) (ix2 j k) := by
  rw [V_v4]
  exact (truncf_apply (ψ := .bf16) _ bitsLt_bf16_f32 _).trans (transpose_ix2_apply _ _ _ _)

theorem V_v6_apply (c : Dev nD) (k : Fin 512) (j : Fin 2048) :
    (V m c main_v6 : S512x2048.Idx → EReal) (ix2 k j) = (m ((c.tc : Thread nD τ).loc main_arg7) : S2048x512.Idx → EReal) (ix2 j k) := by
  rw [V_v6]
  exact (truncf_apply (ψ := .bf16) _ bitsLt_bf16_f32 _).trans (transpose_ix2_apply _ _ _ _)

theorem V_v8_apply (c : Dev nD) (k : Fin 512) (j : Fin 2048) :
    (V m c main_v8 : S512x2048.Idx → EReal) (ix2 k j) = (m ((c.tc : Thread nD τ).loc main_arg8) : S2048x512.Idx → EReal) (ix2 j k) := by
  rw [V_v8]
  exact (truncf_apply (ψ := .bf16) _ bitsLt_bf16_f32 _).trans (transpose_ix2_apply _ _ _ _)

/-! ## The input blocks at a grid point

The grid has 32 points; point `t` handles pedestrians `2t` and `2t + 1`. -/

theorem point_lt (t : Fin cfg0.N) : t.val < 32 := lt_of_lt_of_eq t.isLt N_0

/-- The pedestrian that row `pl` of point `t`'s blocks belongs to. -/
abbrev ped (t : Fin cfg0.N) (pl : Fin 2) : Fin 64 := ⟨2 * t.val + pl.val, by have := point_lt t; omega⟩

/-- The block indices of the windows that move with the grid, decided over its 32 points: block `t` along the
    pedestrian axis; on the layer axis of the h and c arrays, layer 0 for windows 1 and 2 and layer 1 for windows 3 and 4. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)
theorem idx2 : ∀ t : Fin cfg0.N, win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)
theorem idx3 : ∀ t : Fin cfg0.N, win0_3.index t (0 : Fin 4) = t.val ∧ win0_3.index t (1 : Fin 4) = 1 ∧ win0_3.index t (2 : Fin 4) = 0 ∧ win0_3.index t (3 : Fin 4) = 0 :=
  (by decide +kernel : ∀ t : Fin grid0.N, _)
theorem idx4 : ∀ t : Fin cfg0.N, win0_4.index t (0 : Fin 4) = t.val ∧ win0_4.index t (1 : Fin 4) = 1 ∧ win0_4.index t (2 : Fin 4) = 0 ∧ win0_4.index t (3 : Fin 4) = 0 :=
  (by decide +kernel : ∀ t : Fin grid0.N, _)
/-- The weight and bias windows hold their whole array at every point: block index 0 on every axis. -/
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 1) = 0 := (by decide +kernel : ∀ t : Fin grid0.N, _)
theorem idx8 : ∀ t : Fin cfg0.N, win0_8.index t (0 : Fin 1) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx10 : ∀ t : Fin cfg0.N, win0_10.index t (0 : Fin 2) = 0 ∧ win0_10.index t (1 : Fin 2) = 0 := (by decide +kernel : ∀ t : Fin grid0.N, _)
theorem idx11 : ∀ t : Fin cfg0.N, win0_11.index t (0 : Fin 1) = 0 := (by decide +kernel : ∀ t : Fin grid0.N, _)
theorem idx12 : ∀ t : Fin cfg0.N, win0_12.index t (0 : Fin 1) = 0 := (by decide +kernel : ∀ t : Fin grid0.N, _)

/-- The x block's entry (pl, b, k) is the argument's entry (b, 2t + pl, k). -/
theorem iblk0_apply (c : Dev nD) (t : Fin cfg0.N) (pl : Fin 2) (b : Fin 256) (k : Fin 2) :
    (iblk m c 0 t : Vec Ideal S2x256x2 .f32) (ix3 pl b k)
      = (m ((c.tc : Thread nD τ).loc main_arg0) : S256x64x2.Idx → EReal) (ix3 b (ped t pl) k) := by
  obtain ⟨e0, e1, e2⟩ := idx0 t
  refine Eq.trans ?_ (V_v0_apply m c (ped t pl) b k)
  unfold iblk
  rw [View.read_apply]
  show (V m c main_v0 : S64x256x2.Idx → EReal) _ = _
  refine congrArg (V m c main_v0 : S64x256x2.Idx → EReal) (funext fun a => Fin.ext ?_)
  match a with
  | ⟨0, _⟩ => show win0_0.index t (0 : Fin 3) * 2 + 1 * pl.val = 2 * t.val + pl.val; omega
  | ⟨1, _⟩ => show win0_0.index t (1 : Fin 3) * 256 + 1 * b.val = b.val; omega
  | ⟨2, _⟩ => show win0_0.index t (2 : Fin 3) * 2 + 1 * k.val = k.val; omega

/-- The h and c blocks: entry (pl, 0, b, k) of windows 1 and 2 is the argument's layer-0 entry (2t + pl, 0, b, k), and of
    windows 3 and 4 its layer-1 entry (2t + pl, 1, b, k). -/
theorem iblk1_apply (c : Dev nD) (t : Fin cfg0.N) (pl : Fin 2) (b : Fin 256) (k : Fin 512) :
    (iblk m c 1 t : Vec Ideal S2x1x256x512 .f32) (ix4 pl 0 b k)
      = (m ((c.tc : Thread nD τ).loc main_arg1) : S64x2x256x512.Idx → EReal) (ix4 (ped t pl) 0 b k) := by
  obtain ⟨e0, e1, e2, e3⟩ := idx1 t
  unfold iblk
  rw [View.read_apply]
  show V m c main_arg1 _ = _
  rw [V_arg1]
  refine congrArg (m ((c.tc : Thread nD τ).loc main_arg1) : S64x2x256x512.Idx → EReal) (funext fun a => Fin.ext ?_)
  match a with
  | ⟨0, _⟩ => show win0_1.index t (0 : Fin 4) * 2 + 1 * pl.val = 2 * t.val + pl.val; omega
  | ⟨1, _⟩ => show win0_1.index t (1 : Fin 4) * 1 + 1 * 0 = 0; omega
  | ⟨2, _⟩ => show win0_1.index t (2 : Fin 4) * 256 + 1 * b.val = b.val; omega
  | ⟨3, _⟩ => show win0_1.index t (3 : Fin 4) * 512 + 1 * k.val = k.val; omega

theorem iblk2_apply (c : Dev nD) (t : Fin cfg0.N) (pl : Fin 2) (b : Fin 256) (k : Fin 512) :
    (iblk m c 2 t : Vec Ideal S2x1x256x512 .f32) (ix4 pl 0 b k)
      = (m ((c.tc : Thread nD τ).loc main_arg2) : S64x2x256x512.Idx → EReal) (ix4 (ped t pl) 0 b k) := by
  obtain ⟨e0, e1, e2, e3⟩ := idx2 t
  unfold iblk
  rw [View.read_apply]
  show V m c main_arg2 _ = _
  rw [V_arg2]
  refine congrArg (m ((c.tc : Thread nD τ).loc main_arg2) : S64x2x256x512.Idx → EReal) (funext fun a => Fin.ext ?_)
  match a with
  | ⟨0, _⟩ => show win0_2.index t (0 : Fin 4) * 2 + 1 * pl.val = 2 * t.val + pl.val; omega
  | ⟨1, _⟩ => show win0_2.index t (1 : Fin 4) * 1 + 1 * 0 = 0; omega
  | ⟨2, _⟩ => show win0_2.index t (2 : Fin 4) * 256 + 1 * b.val = b.val; omega
  | ⟨3, _⟩ => show win0_2.index t (3 : Fin 4) * 512 + 1 * k.val = k.val; omega

theorem iblk3_apply (c : Dev nD) (t : Fin cfg0.N) (pl : Fin 2) (b : Fin 256) (k : Fin 512) :
    (iblk m c 3 t : Vec Ideal S2x1x256x512 .f32) (ix4 pl 0 b k)
      = (m ((c.tc : Thread nD τ).loc main_arg1) : S64x2x256x512.Idx → EReal) (ix4 (ped t pl) 1 b k) := by
  obtain ⟨e0, e1, e2, e3⟩ := idx3 t
  unfold iblk
  rw [View.read_apply]
  show V m c main_arg1 _ = _
  rw [V_arg1]
  refine congrArg (m ((c.tc : Thread nD τ).loc main_arg1) : S64x2x256x512.Idx → EReal) (funext fun a => Fin.ext ?_)
  match a with
  | ⟨0, _⟩ => show win0_3.index t (0 : Fin 4) * 2 + 1 * pl.val = 2 * t.val + pl.val; omega
  | ⟨1, _⟩ => show win0_3.index t (1 : Fin 4) * 1 + 1 * 0 = 1; omega
  | ⟨2, _⟩ => show win0_3.index t (2 : Fin 4) * 256 + 1 * b.val = b.val; omega
  | ⟨3, _⟩ => show win0_3.index t (3 : Fin 4) * 512 + 1 * k.val = k.val; omega

theorem iblk4_apply (c : Dev nD) (t : Fin cfg0.N) (pl : Fin 2) (b : Fin 256) (k : Fin 512) :
    (iblk m c 4 t : Vec Ideal S2x1x256x512 .f32) (ix4 pl 0 b k)
      = (m ((c.tc : Thread nD τ).loc main_arg2) : S64x2x256x512.Idx → EReal) (ix4 (ped t pl) 1 b k) := by
  obtain ⟨e0, e1, e2, e3⟩ := idx4 t
  unfold iblk
  rw [View.read_apply]
  show V m c main_arg2 _ = _
  rw [V_arg2]
  refine congrArg (m ((c.tc : Thread nD τ).loc main_arg2) : S64x2x256x512.Idx → EReal) (funext fun a => Fin.ext ?_)
  match a with
  | ⟨0, _⟩ => show win0_4.index t (0 : Fin 4) * 2 + 1 * pl.val = 2 * t.val + pl.val; omega
  | ⟨1, _⟩ => show win0_4.index t (1 : Fin 4) * 1 + 1 * 0 = 1; omega
  | ⟨2, _⟩ => show win0_4.index t (2 : Fin 4) * 256 + 1 * b.val = b.val; omega
  | ⟨3, _⟩ => show win0_4.index t (3 : Fin 4) * 512 + 1 * k.val = k.val; omega

/-- The weight blocks are the whole transposed matrices: entry (k, j) is the argument's weight (j, k). -/
theorem iblk5_apply (c : Dev nD) (t : Fin cfg0.N) (k : Fin 2) (j : Fin 2048) :
    (iblk m c 5 t : Vec Ideal S2x2048 .bf16) (ix2 k j)
      = (m ((c.tc : Thread nD τ).loc main_arg3) : S2048x2.Idx → EReal) (ix2 j k) := by
  obtain ⟨e0, e1⟩ := idx5 t
  refine Eq.trans ?_ (V_v2_apply m c k j)
  unfold iblk
  rw [View.read_apply]
  show (V m c main_v2 : S2x2048.Idx → EReal) _ = _
  refine congrArg (V m c main_v2 : S2x2048.Idx → EReal) (funext fun a => Fin.ext ?_)
  match a with
  | ⟨0, _⟩ => show win0_5.index t (0 : Fin 2) * 2 + 1 * k.val = k.val; omega
  | ⟨1, _⟩ => show win0_5.index t (1 : Fin 2) * 2048 + 1 * j.val = j.val; omega

theorem iblk6_apply (c : Dev nD) (t : Fin cfg0.N) (k : Fin 512) (j : Fin 2048) :
    (iblk m c 6 t : Vec Ideal S512x2048 .bf16) (ix2 k j)
      = (m ((c.tc : Thread nD τ).loc main_arg4) : S2048x512.Idx → EReal) (ix2 j k) := by
  obtain ⟨e0, e1⟩ := idx6 t
  refine Eq.trans ?_ (V_v4_apply m c k j)
  unfold iblk
  rw [View.read_apply]
  show (V m c main_v4 : S512x2048.Idx → EReal) _ = _
  refine congrArg (V m c main_v4 : S512x2048.Idx → EReal) (funext fun a => Fin.ext ?_)
  match a with
  | ⟨0, _⟩ => show win0_6.index t (0 : Fin 2) * 512 + 1 * k.val = k.val; omega
  | ⟨1, _⟩ => show win0_6.index t (1 : Fin 2) * 2048 + 1 * j.val = j.val; omega

theorem iblk9_apply (c : Dev nD) (t : Fin cfg0.N) (k : Fin 512) (j : Fin 2048) :
    (iblk m c 9 t : Vec Ideal S512x2048 .bf16) (ix2 k j)
      = (m ((c.tc : Thread nD τ).loc main_arg7) : S2048x512.Idx → EReal) (ix2 j k) := by
  obtain ⟨e0, e1⟩ := idx9 t
  refine Eq.trans ?_ (V_v6_apply m c k j)
  unfold iblk
  rw [View.read_apply]
  show (V m c main_v6 : S512x2048.Idx → EReal) _ = _
  refine congrArg (V m c main_v6 : S512x2048.Idx → EReal) (funext fun a => Fin.ext ?_)
  match a with
  | ⟨0, _⟩ => show win0_9.index t (0 : Fin 2) * 512 + 1 * k.val = k.val; omega
  | ⟨1, _⟩ => show win0_9.index t (1 : Fin 2) * 2048 + 1 * j.val = j.val; omega

theorem iblk10_apply (c : Dev nD) (t : Fin cfg0.N) (k : Fin 512) (j : Fin 2048) :
    (iblk m c 10 t : Vec Ideal S512x2048 .bf16) (ix2 k j)
      = (m ((c.tc : Thread nD τ).loc main_arg8) : S2048x512.Idx → EReal) (ix2 j k) := by
  obtain ⟨e0, e1⟩ := idx10 t
  refine Eq.trans ?_ (V_v8_apply m c k j)
  unfold iblk
  rw [View.read_apply]
  show (V m c main_v8 : S512x2048.Idx → EReal) _ = _
  refine congrArg (V m c main_v8 : S512x2048.Idx → EReal) (funext fun a => Fin.ext ?_)
  match a with
  | ⟨0, _⟩ => show win0_10.index t (0 : Fin 2) * 512 + 1 * k.val = k.val; omega
  | ⟨1, _⟩ => show win0_10.index t (1 : Fin 2) * 2048 + 1 * j.val = j.val; omega

/-- The bias blocks are the whole bias vectors. -/
theorem iblk7_apply (c : Dev nD) (t : Fin cfg0.N) (j : Fin 2048) :
    (iblk m c 7 t : Vec Ideal S2048 .f32) (ix1 j) = (m ((c.tc : Thread nD τ).loc main_arg5) : S2048.Idx → EReal) (ix1 j) := by
  have e0 := idx7 t
  unfold iblk
  rw [View.read_apply]
  show V m c main_arg5 _ = _
  rw [V_arg5]
  refine congrArg (m ((c.tc : Thread nD τ).loc main_arg5) : S2048.Idx → EReal) (funext fun a => Fin.ext ?_)
  match a with
  | ⟨0, _⟩ => show win0_7.index t (0 : Fin 1) * 2048 + 1 * j.val = j.val; omega

theorem iblk8_apply (c : Dev nD) (t : Fin cfg0.N) (j : Fin 2048) :
    (iblk m c 8 t : Vec Ideal S2048 .f32) (ix1 j) = (m ((c.tc : Thread nD τ).loc main_arg6) : S2048.Idx → EReal) (ix1 j) := by
  have e0 := idx8 t
  unfold iblk
  rw [View.read_apply]
  show V m c main_arg6 _ = _
  rw [V_arg6]
  refine congrArg (m ((c.tc : Thread nD τ).loc main_arg6) : S2048.Idx → EReal) (funext fun a => Fin.ext ?_)
  match a with
  | ⟨0, _⟩ => show win0_8.index t (0 : Fin 1) * 2048 + 1 * j.val = j.val; omega

theorem iblk11_apply (c : Dev nD) (t : Fin cfg0.N) (j : Fin 2048) :
    (iblk m c 11 t : Vec Ideal S2048 .f32) (ix1 j) = (m ((c.tc : Thread nD τ).loc main_arg9) : S2048.Idx → EReal) (ix1 j) := by
  have e0 := idx11 t
  unfold iblk
  rw [View.read_apply]
  show V m c main_arg9 _ = _
  rw [V_arg9]
  refine congrArg (m ((c.tc : Thread nD τ).loc main_arg9) : S2048.Idx → EReal) (funext fun a => Fin.ext ?_)
  match a with
  | ⟨0, _⟩ => show win0_11.index t (0 : Fin 1) * 2048 + 1 * j.val = j.val; omega

theorem iblk12_apply (c : Dev nD) (t : Fin cfg0.N) (j : Fin 2048) :
    (iblk m c 12 t : Vec Ideal S2048 .f32) (ix1 j) = (m ((c.tc : Thread nD τ).loc main_arg10) : S2048.Idx → EReal) (ix1 j) := by
  have e0 := idx12 t
  unfold iblk
  rw [View.read_apply]
  show V m c main_arg10 _ = _
  rw [V_arg10]
  refine congrArg (m ((c.tc : Thread nD τ).loc main_arg10) : S2048.Idx → EReal) (funext fun a => Fin.ext ?_)
  match a with
  | ⟨0, _⟩ => show win0_12.index t (0 : Fin 1) * 2048 + 1 * j.val = j.val; omega

/-! ## The rows of a point's blocks are the cell's rows -/

/-- The gate pre-activations depend only on the values of their six arguments. -/
theorem gate_congr {n : Nat} {x x' : Fin n → EReal} {h h' : Fin 512 → EReal} {Wi Wi' : Fin 2048 → Fin n → EReal}
    {Wh Wh' : Fin 2048 → Fin 512 → EReal} {bi bi' bh bh' : Fin 2048 → EReal}
    (hx : ∀ k, x k = x' k) (hh : ∀ k, h k = h' k) (hWi : ∀ j k, Wi j k = Wi' j k) (hWh : ∀ j k, Wh j k = Wh' j k)
    (hbi : ∀ j, bi j = bi' j) (hbh : ∀ j, bh j = bh' j) : gate x h Wi Wh bi bh = gate x' h' Wi' Wh' bi' bh' := by
  obtain rfl : x = x' := funext hx
  obtain rfl : h = h' := funext hh
  obtain rfl : Wi = Wi' := funext fun j => funext (hWi j)
  obtain rfl : Wh = Wh' := funext fun j => funext (hWh j)
  obtain rfl : bi = bi' := funext hbi
  obtain rfl : bh = bh' := funext hbh
  rfl

/-- Layer 0's gates of block row (pl, b) at point `t` are the cell's layer-0 gates of row (2t + pl, b). -/
theorem blkG0_eq (c : Dev nD) (t : Fin cfg0.N) (pl : Fin 2) (b : Fin 256) :
    blkG0 (iblk m c 0 t) (iblk m c 1 t) (iblk m c 5 t) (iblk m c 6 t) (iblk m c 7 t) (iblk m c 8 t) pl b
      = g0 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (ped t pl) b := by
  unfold blkG0 g0
  exact gate_congr (fun k => iblk0_apply m c t pl b k) (fun k => iblk1_apply m c t pl b k) (fun j k => iblk5_apply m c t k j)
    (fun j k => iblk6_apply m c t k j) (fun j => iblk7_apply m c t j) (fun j => iblk8_apply m c t j)

/-- Layer 0's old cell row of block row (pl, b). -/
theorem blkC0_eq (c : Dev nD) (t : Fin cfg0.N) (pl : Fin 2) (b : Fin 256) :
    (fun v => (iblk m c 2 t : Vec Ideal S2x1x256x512 .f32) (ix4 pl 0 b v)) = fun u => at4 (m ((c.tc : Thread nD τ).loc main_arg2)) (ped t pl) 0 b u :=
  funext fun v => iblk2_apply m c t pl b v

/-- Layer 1's old cell row of block row (pl, b). -/
theorem blkC1_eq (c : Dev nD) (t : Fin cfg0.N) (pl : Fin 2) (b : Fin 256) :
    (fun v => (iblk m c 4 t : Vec Ideal S2x1x256x512 .f32) (ix4 pl 0 b v)) = fun u => at4 (m ((c.tc : Thread nD τ).loc main_arg2)) (ped t pl) 1 b u :=
  funext fun v => iblk4_apply m c t pl b v

/-- Layer 1's gates of block row (pl, b) at point `t` are the cell's layer-1 gates of row (2t + pl, b): its input row is
    layer 0's new hidden row of the same row. -/
theorem blkG1_eq (c : Dev nD) (t : Fin cfg0.N) (pl : Fin 2) (b : Fin 256) :
    blkG1 (iblk m c 0 t) (iblk m c 1 t) (iblk m c 2 t) (iblk m c 3 t) (iblk m c 5 t) (iblk m c 6 t) (iblk m c 7 t) (iblk m c 8 t) (iblk m c 9 t) (iblk m c 10 t) (iblk m c 11 t) (iblk m c 12 t) pl b
      = g1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ped t pl) b := by
  unfold blkG1 g1
  refine gate_congr (fun k => ?_) (fun k => iblk3_apply m c t pl b k) (fun j k => iblk9_apply m c t k j)
    (fun j k => iblk10_apply m c t k j) (fun j => iblk11_apply m c t j) (fun j => iblk12_apply m c t j)
  unfold h0'
  rw [blkG0_eq, blkC0_eq]

/-! ## The rows a point stores -/

/-- Layer 0's stored hidden row of block row (pl, b) is the cell's new layer-0 hidden row of row (2t + pl, b). -/
theorem h0_row (c : Dev nD) (t : Fin cfg0.N) (pl : Fin 2) (b : Fin 256) (u : Fin 512) :
    hNew (blkG0 (iblk m c 0 t) (iblk m c 1 t) (iblk m c 5 t) (iblk m c 6 t) (iblk m c 7 t) (iblk m c 8 t) pl b) (fun v => (iblk m c 2 t : Vec Ideal S2x1x256x512 .f32) (ix4 pl 0 b v)) u
      = h0' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ped t pl) b u := by
  unfold h0'
  rw [blkG0_eq, blkC0_eq]

/-- Layer 0's stored cell row. -/
theorem c0_row (c : Dev nD) (t : Fin cfg0.N) (pl : Fin 2) (b : Fin 256) (u : Fin 512) :
    cNew (blkG0 (iblk m c 0 t) (iblk m c 1 t) (iblk m c 5 t) (iblk m c 6 t) (iblk m c 7 t) (iblk m c 8 t) pl b) (fun v => (iblk m c 2 t : Vec Ideal S2x1x256x512 .f32) (ix4 pl 0 b v)) u
      = c0' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ped t pl) b u := by
  unfold c0'
  rw [blkG0_eq, blkC0_eq]

/-- Layer 1's stored hidden row. -/
theorem h1_row (c : Dev nD) (t : Fin cfg0.N) (pl : Fin 2) (b : Fin 256) (u : Fin 512) :
    hNew (blkG1 (iblk m c 0 t) (iblk m c 1 t) (iblk m c 2 t) (iblk m c 3 t) (iblk m c 5 t) (iblk m c 6 t) (iblk m c 7 t) (iblk m c 8 t) (iblk m c 9 t) (iblk m c 10 t) (iblk m c 11 t) (iblk m c 12 t) pl b) (fun v => (iblk m c 4 t : Vec Ideal S2x1x256x512 .f32) (ix4 pl 0 b v)) u
      = h1' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ped t pl) b u := by
  unfold h1'
  rw [blkG1_eq, blkC1_eq]

/-- Layer 1's stored cell row. -/
theorem c1_row (c : Dev nD) (t : Fin cfg0.N) (pl : Fin 2) (b : Fin 256) (u : Fin 512) :
    cNew (blkG1 (iblk m c 0 t) (iblk m c 1 t) (iblk m c 2 t) (iblk m c 3 t) (iblk m c 5 t) (iblk m c 6 t) (iblk m c 7 t) (iblk m c 8 t) (iblk m c 9 t) (iblk m c 10 t) (iblk m c 11 t) (iblk m c 12 t) pl b) (fun v => (iblk m c 4 t : Vec Ideal S2x1x256x512 .f32) (ix4 pl 0 b v)) u
      = c1' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ped t pl) b u := by
  unfold c1'
  rw [blkG1_eq, blkC1_eq]

/-! ## From blocks to the arrays

Each output window's block index at point `t` is (t, 0, 0) with block shape [2, 256, 512]: the 32 blocks tile the
[64, 256, 512] array along the pedestrian axis, and what point `t` writes back is block `t` of one function of the
argument arrays. So after the last write-back the array holds that function. -/

/-- Window 13 (layer 0's hidden rows) moves along the pedestrian axis, block `t` at point `t`. -/
theorem idx13 : ∀ t : Fin cfg0.N, win0_13.index t (0 : Fin 3) = t.val ∧ win0_13.index t (1 : Fin 3) = 0 ∧ win0_13.index t (2 : Fin 3) = 0 :=
  (by decide +kernel : ∀ t : Fin grid0.N, _)

/-- Element (pl, b, u) of window 13's block at point `t` sits at (2t + pl, b, u) of its array. -/
theorem emb13 (t : Fin cfg0.N) (pl : Fin 2) (b : Fin 256) (u : Fin 512) :
    ((cfg0.win 13).blk t).view.emb (ix3 pl b u) = (ix3 (ped t pl) b u : S64x256x512.Idx) := by
  obtain ⟨e0, e1, e2⟩ := idx13 t
  funext a
  apply Fin.ext
  match a with
  | ⟨0, _⟩ => show win0_13.index t (0 : Fin 3) * 2 + 1 * pl.val = 2 * t.val + pl.val; omega
  | ⟨1, _⟩ => show win0_13.index t (1 : Fin 3) * 256 + 1 * b.val = b.val; omega
  | ⟨2, _⟩ => show win0_13.index t (2 : Fin 3) * 512 + 1 * u.val = u.val; omega

/-- What point `t` writes back through window 13 is block `t` of the whole-array function. -/
theorem flushed13_eq (c : Dev nD) (t : Fin cfg0.N) :
    (dats m 0 c).flushed 13 t = ((cfg0.win 13).blk t).view.read (Elt Ideal)
      (fun i => h0' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1) (i 2)) := by
  show (cfg0.win 13).cut (grid0.coords t) ((dats m 0 c).after 13 t) = _
  rw [after0_13]
  funext y
  obtain ⟨pl, b, u, rfl⟩ : ∃ (pl : Fin 2) (b : Fin 256) (u : Fin 512), y = ix3 pl b u := ⟨y 0, y 1, y 2, eq_ix3 y⟩
  rw [View.read_apply, emb13]
  show out0_13 (F := Ideal) (iblk m c 0 t) (iblk m c 1 t) (iblk m c 2 t) (iblk m c 5 t) (iblk m c 6 t) (iblk m c 7 t) (iblk m c 8 t) (ix3 pl b u) = h0' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ped t pl) b u
  rw [out13_apply]
  exact h0_row m c t pl b u

/-- An index of the array lies in point `t`'s block iff each coordinate lies in the block's range on its axis. -/
theorem mem_blk13 (t : Fin cfg0.N) (i : S64x256x512.Idx) :
    i ∈ ((cfg0.win 13).blk t).view.set ↔ ∀ a : Fin 3, win0_13.index t a * S2x256x512.size a ≤ (i a).val ∧ (i a).val < win0_13.index t a * S2x256x512.size a + S2x256x512.size a := by
  show i ∈ ((View.whole main_v9_0).slice (win0_13.rect t)).set ↔ _
  rw [View.set_slice_whole, Rect.mem_set_unit]
  exact Iff.rfl

/-- Every index of the array is in some point's block: pedestrian `p` belongs to point `p / 2`. -/
theorem cover13 (i : S64x256x512.Idx) : ∃ t : Fin cfg0.N, (cfg0.win 13).flush t = true ∧ i ∈ ((cfg0.win 13).blk t).view.set := by
  have h0 : (i 0).val < 64 := (i 0).isLt
  have h1 : (i 1).val < 256 := (i 1).isLt
  have h2 : (i 2).val < 512 := (i 2).isLt
  obtain ⟨t, ht⟩ : ∃ t : Fin cfg0.N, t.val = (i 0).val / 2 := ⟨⟨(i 0).val / 2, by rw [show cfg0.N = 32 from N_0]; omega⟩, rfl⟩
  obtain ⟨e0, e1, e2⟩ := idx13 t
  refine ⟨t, flush0_13 t, ?_⟩
  rw [mem_blk13]
  intro a
  match a with
  | ⟨0, _⟩ => show win0_13.index t (0 : Fin 3) * 2 ≤ (i 0).val ∧ (i 0).val < win0_13.index t (0 : Fin 3) * 2 + 2; omega
  | ⟨1, _⟩ => show win0_13.index t (1 : Fin 3) * 256 ≤ (i 1).val ∧ (i 1).val < win0_13.index t (1 : Fin 3) * 256 + 256; omega
  | ⟨2, _⟩ => show win0_13.index t (2 : Fin 3) * 512 ≤ (i 2).val ∧ (i 2).val < win0_13.index t (2 : Fin 3) * 512 + 512; omega

/-- Window 14 (layer 0's cell rows) moves the same way. -/
theorem idx14 : ∀ t : Fin cfg0.N, win0_14.index t (0 : Fin 3) = t.val ∧ win0_14.index t (1 : Fin 3) = 0 ∧ win0_14.index t (2 : Fin 3) = 0 :=
  (by decide +kernel : ∀ t : Fin grid0.N, _)

/-- Element (pl, b, u) of window 14's block at point `t` sits at (2t + pl, b, u) of its array. -/
theorem emb14 (t : Fin cfg0.N) (pl : Fin 2) (b : Fin 256) (u : Fin 512) :
    ((cfg0.win 14).blk t).view.emb (ix3 pl b u) = (ix3 (ped t pl) b u : S64x256x512.Idx) := by
  obtain ⟨e0, e1, e2⟩ := idx14 t
  funext a
  apply Fin.ext
  match a with
  | ⟨0, _⟩ => show win0_14.index t (0 : Fin 3) * 2 + 1 * pl.val = 2 * t.val + pl.val; omega
  | ⟨1, _⟩ => show win0_14.index t (1 : Fin 3) * 256 + 1 * b.val = b.val; omega
  | ⟨2, _⟩ => show win0_14.index t (2 : Fin 3) * 512 + 1 * u.val = u.val; omega

/-- What point `t` writes back through window 14 is block `t` of the whole-array function. -/
theorem flushed14_eq (c : Dev nD) (t : Fin cfg0.N) :
    (dats m 0 c).flushed 14 t = ((cfg0.win 14).blk t).view.read (Elt Ideal)
      (fun i => c0' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1) (i 2)) := by
  show (cfg0.win 14).cut (grid0.coords t) ((dats m 0 c).after 14 t) = _
  rw [after0_14]
  funext y
  obtain ⟨pl, b, u, rfl⟩ : ∃ (pl : Fin 2) (b : Fin 256) (u : Fin 512), y = ix3 pl b u := ⟨y 0, y 1, y 2, eq_ix3 y⟩
  rw [View.read_apply, emb14]
  show out0_14 (F := Ideal) (iblk m c 0 t) (iblk m c 1 t) (iblk m c 2 t) (iblk m c 5 t) (iblk m c 6 t) (iblk m c 7 t) (iblk m c 8 t) (ix3 pl b u) = c0' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ped t pl) b u
  rw [out14_apply]
  exact c0_row m c t pl b u

/-- An index of the array lies in point `t`'s block iff each coordinate lies in the block's range on its axis. -/
theorem mem_blk14 (t : Fin cfg0.N) (i : S64x256x512.Idx) :
    i ∈ ((cfg0.win 14).blk t).view.set ↔ ∀ a : Fin 3, win0_14.index t a * S2x256x512.size a ≤ (i a).val ∧ (i a).val < win0_14.index t a * S2x256x512.size a + S2x256x512.size a := by
  show i ∈ ((View.whole main_v9_1).slice (win0_14.rect t)).set ↔ _
  rw [View.set_slice_whole, Rect.mem_set_unit]
  exact Iff.rfl

/-- Every index of the array is in some point's block: pedestrian `p` belongs to point `p / 2`. -/
theorem cover14 (i : S64x256x512.Idx) : ∃ t : Fin cfg0.N, (cfg0.win 14).flush t = true ∧ i ∈ ((cfg0.win 14).blk t).view.set := by
  have h0 : (i 0).val < 64 := (i 0).isLt
  have h1 : (i 1).val < 256 := (i 1).isLt
  have h2 : (i 2).val < 512 := (i 2).isLt
  obtain ⟨t, ht⟩ : ∃ t : Fin cfg0.N, t.val = (i 0).val / 2 := ⟨⟨(i 0).val / 2, by rw [show cfg0.N = 32 from N_0]; omega⟩, rfl⟩
  obtain ⟨e0, e1, e2⟩ := idx14 t
  refine ⟨t, flush0_14 t, ?_⟩
  rw [mem_blk14]
  intro a
  match a with
  | ⟨0, _⟩ => show win0_14.index t (0 : Fin 3) * 2 ≤ (i 0).val ∧ (i 0).val < win0_14.index t (0 : Fin 3) * 2 + 2; omega
  | ⟨1, _⟩ => show win0_14.index t (1 : Fin 3) * 256 ≤ (i 1).val ∧ (i 1).val < win0_14.index t (1 : Fin 3) * 256 + 256; omega
  | ⟨2, _⟩ => show win0_14.index t (2 : Fin 3) * 512 ≤ (i 2).val ∧ (i 2).val < win0_14.index t (2 : Fin 3) * 512 + 512; omega

/-- Window 15 (layer 1's hidden rows) moves the same way. -/
theorem idx15 : ∀ t : Fin cfg0.N, win0_15.index t (0 : Fin 3) = t.val ∧ win0_15.index t (1 : Fin 3) = 0 ∧ win0_15.index t (2 : Fin 3) = 0 :=
  (by decide +kernel : ∀ t : Fin grid0.N, _)

/-- Element (pl, b, u) of window 15's block at point `t` sits at (2t + pl, b, u) of its array. -/
theorem emb15 (t : Fin cfg0.N) (pl : Fin 2) (b : Fin 256) (u : Fin 512) :
    ((cfg0.win 15).blk t).view.emb (ix3 pl b u) = (ix3 (ped t pl) b u : S64x256x512.Idx) := by
  obtain ⟨e0, e1, e2⟩ := idx15 t
  funext a
  apply Fin.ext
  match a with
  | ⟨0, _⟩ => show win0_15.index t (0 : Fin 3) * 2 + 1 * pl.val = 2 * t.val + pl.val; omega
  | ⟨1, _⟩ => show win0_15.index t (1 : Fin 3) * 256 + 1 * b.val = b.val; omega
  | ⟨2, _⟩ => show win0_15.index t (2 : Fin 3) * 512 + 1 * u.val = u.val; omega

/-- What point `t` writes back through window 15 is block `t` of the whole-array function. -/
theorem flushed15_eq (c : Dev nD) (t : Fin cfg0.N) :
    (dats m 0 c).flushed 15 t = ((cfg0.win 15).blk t).view.read (Elt Ideal)
      (fun i => h1' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (i 0) (i 1) (i 2)) := by
  show (cfg0.win 15).cut (grid0.coords t) ((dats m 0 c).after 15 t) = _
  rw [after0_15]
  funext y
  obtain ⟨pl, b, u, rfl⟩ : ∃ (pl : Fin 2) (b : Fin 256) (u : Fin 512), y = ix3 pl b u := ⟨y 0, y 1, y 2, eq_ix3 y⟩
  rw [View.read_apply, emb15]
  show out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 pl b u) = h1' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ped t pl) b u
  rw [out15_apply]
  exact h1_row m c t pl b u

/-- An index of the array lies in point `t`'s block iff each coordinate lies in the block's range on its axis. -/
theorem mem_blk15 (t : Fin cfg0.N) (i : S64x256x512.Idx) :
    i ∈ ((cfg0.win 15).blk t).view.set ↔ ∀ a : Fin 3, win0_15.index t a * S2x256x512.size a ≤ (i a).val ∧ (i a).val < win0_15.index t a * S2x256x512.size a + S2x256x512.size a := by
  show i ∈ ((View.whole main_v9_2).slice (win0_15.rect t)).set ↔ _
  rw [View.set_slice_whole, Rect.mem_set_unit]
  exact Iff.rfl

/-- Every index of the array is in some point's block: pedestrian `p` belongs to point `p / 2`. -/
theorem cover15 (i : S64x256x512.Idx) : ∃ t : Fin cfg0.N, (cfg0.win 15).flush t = true ∧ i ∈ ((cfg0.win 15).blk t).view.set := by
  have h0 : (i 0).val < 64 := (i 0).isLt
  have h1 : (i 1).val < 256 := (i 1).isLt
  have h2 : (i 2).val < 512 := (i 2).isLt
  obtain ⟨t, ht⟩ : ∃ t : Fin cfg0.N, t.val = (i 0).val / 2 := ⟨⟨(i 0).val / 2, by rw [show cfg0.N = 32 from N_0]; omega⟩, rfl⟩
  obtain ⟨e0, e1, e2⟩ := idx15 t
  refine ⟨t, flush0_15 t, ?_⟩
  rw [mem_blk15]
  intro a
  match a with
  | ⟨0, _⟩ => show win0_15.index t (0 : Fin 3) * 2 ≤ (i 0).val ∧ (i 0).val < win0_15.index t (0 : Fin 3) * 2 + 2; omega
  | ⟨1, _⟩ => show win0_15.index t (1 : Fin 3) * 256 ≤ (i 1).val ∧ (i 1).val < win0_15.index t (1 : Fin 3) * 256 + 256; omega
  | ⟨2, _⟩ => show win0_15.index t (2 : Fin 3) * 512 ≤ (i 2).val ∧ (i 2).val < win0_15.index t (2 : Fin 3) * 512 + 512; omega

/-- Window 16 (layer 1's cell rows) moves the same way. -/
theorem idx16 : ∀ t : Fin cfg0.N, win0_16.index t (0 : Fin 3) = t.val ∧ win0_16.index t (1 : Fin 3) = 0 ∧ win0_16.index t (2 : Fin 3) = 0 :=
  (by decide +kernel : ∀ t : Fin grid0.N, _)

/-- Element (pl, b, u) of window 16's block at point `t` sits at (2t + pl, b, u) of its array. -/
theorem emb16 (t : Fin cfg0.N) (pl : Fin 2) (b : Fin 256) (u : Fin 512) :
    ((cfg0.win 16).blk t).view.emb (ix3 pl b u) = (ix3 (ped t pl) b u : S64x256x512.Idx) := by
  obtain ⟨e0, e1, e2⟩ := idx16 t
  funext a
  apply Fin.ext
  match a with
  | ⟨0, _⟩ => show win0_16.index t (0 : Fin 3) * 2 + 1 * pl.val = 2 * t.val + pl.val; omega
  | ⟨1, _⟩ => show win0_16.index t (1 : Fin 3) * 256 + 1 * b.val = b.val; omega
  | ⟨2, _⟩ => show win0_16.index t (2 : Fin 3) * 512 + 1 * u.val = u.val; omega

/-- What point `t` writes back through window 16 is block `t` of the whole-array function. -/
theorem flushed16_eq (c : Dev nD) (t : Fin cfg0.N) :
    (dats m 0 c).flushed 16 t = ((cfg0.win 16).blk t).view.read (Elt Ideal)
      (fun i => c1' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (i 0) (i 1) (i 2)) := by
  show (cfg0.win 16).cut (grid0.coords t) ((dats m 0 c).after 16 t) = _
  rw [after0_16]
  funext y
  obtain ⟨pl, b, u, rfl⟩ : ∃ (pl : Fin 2) (b : Fin 256) (u : Fin 512), y = ix3 pl b u := ⟨y 0, y 1, y 2, eq_ix3 y⟩
  rw [View.read_apply, emb16]
  show out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 pl b u) = c1' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ped t pl) b u
  rw [out16_apply]
  exact c1_row m c t pl b u

/-- An index of the array lies in point `t`'s block iff each coordinate lies in the block's range on its axis. -/
theorem mem_blk16 (t : Fin cfg0.N) (i : S64x256x512.Idx) :
    i ∈ ((cfg0.win 16).blk t).view.set ↔ ∀ a : Fin 3, win0_16.index t a * S2x256x512.size a ≤ (i a).val ∧ (i a).val < win0_16.index t a * S2x256x512.size a + S2x256x512.size a := by
  show i ∈ ((View.whole main_v9_3).slice (win0_16.rect t)).set ↔ _
  rw [View.set_slice_whole, Rect.mem_set_unit]
  exact Iff.rfl

/-- Every index of the array is in some point's block: pedestrian `p` belongs to point `p / 2`. -/
theorem cover16 (i : S64x256x512.Idx) : ∃ t : Fin cfg0.N, (cfg0.win 16).flush t = true ∧ i ∈ ((cfg0.win 16).blk t).view.set := by
  have h0 : (i 0).val < 64 := (i 0).isLt
  have h1 : (i 1).val < 256 := (i 1).isLt
  have h2 : (i 2).val < 512 := (i 2).isLt
  obtain ⟨t, ht⟩ : ∃ t : Fin cfg0.N, t.val = (i 0).val / 2 := ⟨⟨(i 0).val / 2, by rw [show cfg0.N = 32 from N_0]; omega⟩, rfl⟩
  obtain ⟨e0, e1, e2⟩ := idx16 t
  refine ⟨t, flush0_16 t, ?_⟩
  rw [mem_blk16]
  intro a
  match a with
  | ⟨0, _⟩ => show win0_16.index t (0 : Fin 3) * 2 ≤ (i 0).val ∧ (i 0).val < win0_16.index t (0 : Fin 3) * 2 + 2; omega
  | ⟨1, _⟩ => show win0_16.index t (1 : Fin 3) * 256 ≤ (i 1).val ∧ (i 1).val < win0_16.index t (1 : Fin 3) * 256 + 256; omega
  | ⟨2, _⟩ => show win0_16.index t (2 : Fin 3) * 512 ≤ (i 2).val ∧ (i 2).val < win0_16.index t (2 : Fin 3) * 512 + 512; omega

/-! ## The four result arrays -/

theorem res13 (c : Dev nD) : res m c 13 = fun i => Cert.LstmSpec.h0' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1) (i 2) :=
  (dats m 0 c).arrAt_eq_of_cover 13 _ (fun t _ => flushed13_eq m c t) cover13
theorem res14 (c : Dev nD) : res m c 14 = fun i => Cert.LstmSpec.c0' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1) (i 2) :=
  (dats m 0 c).arrAt_eq_of_cover 14 _ (fun t _ => flushed14_eq m c t) cover14
theorem res15 (c : Dev nD) : res m c 15 = fun i => Cert.LstmSpec.h1' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (i 0) (i 1) (i 2) :=
  (dats m 0 c).arrAt_eq_of_cover 15 _ (fun t _ => flushed15_eq m c t) cover15
theorem res16 (c : Dev nD) : res m c 16 = fun i => Cert.LstmSpec.c1' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (i 0) (i 1) (i 2) :=
  (dats m 0 c).arrAt_eq_of_cover 16 _ (fun t _ => flushed16_eq m c t) cover16

end Cert.KernelIdeal.Hand

end
-- ==== Proof.KI.TailValue.lean ====
/-
  The seven host operations after the region, read at an element.

  From four result arrays R0, R1, R2, R3 (layer 0's h and c rows, layer 1's h and c rows, each [64, 256, 512]) the
  program makes: the batch-major transpose of R2 (element (b, p, u) is R2 (p, b, u)); R0 and R2 each given a unit
  layer axis and concatenated along it (element (p, l, b, u) is R0 (p, b, u) for l = 0 and R2 (p, b, u) for l = 1);
  and the same of R1 and R3.
-/
import proofs.«175595_j15547781612107_1_alg».proof.Proof.KI.Tail
import Idealize.ShloMosaic.Lib.ValueIdx
import Idealize.ShloMosaic.Lib.Pipeline.Value
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem

/-! ## The three operations at an element -/

section Ops

variable {α : Type}

/-- The batch-major transpose at (b, p, u). -/
theorem transposed_apply (R : S64x256x512.Idx → α) (b : Fin 256) (p : Fin 64) (u : Fin 512) :
    transpose S256x64x512 [1, 0, 2] R transposes_S64x256x512_S256x64x512_1_0_2 (ix3 b p u) = R (ix3 p b u) :=
  transpose_apply [1, 0, 2] R transposes_S64x256x512_S256x64x512_1_0_2 (ix3 b p u) (ix3 p b u) (fun a => match a with
    | ⟨0, _⟩ => rfl
    | ⟨1, _⟩ => rfl
    | ⟨2, _⟩ => rfl)

/-- An array given a unit layer axis, at (p, 0, b, u). -/
theorem layered_apply (R : S64x256x512.Idx → α) (p : Fin 64) (b : Fin 256) (u : Fin 512) :
    broadcastInDim S64x1x256x512 ![0, 2, 3] bcast_S64x256x512_S64x1x256x512_0_2_3 R (ix4 p 0 b u) = R (ix3 p b u) :=
  broadcastInDim_apply ![0, 2, 3] bcast_S64x256x512_S64x1x256x512_0_2_3 R (ix4 p 0 b u) (ix3 p b u) (fun a => match a with
    | ⟨0, _⟩ => rfl
    | ⟨1, _⟩ => rfl
    | ⟨2, _⟩ => rfl)

/-- Two layered arrays stacked along the layer axis, at layer 0. -/
theorem stacked_apply_zero (Ra Rb : S64x256x512.Idx → α) (p : Fin 64) (b : Fin 256) (u : Fin 512) :
    concatenate S64x2x256x512 1 [⟨S64x1x256x512, broadcastInDim S64x1x256x512 ![0, 2, 3] bcast_S64x256x512_S64x1x256x512_0_2_3 Ra⟩,
        ⟨S64x1x256x512, broadcastInDim S64x1x256x512 ![0, 2, 3] bcast_S64x256x512_S64x1x256x512_0_2_3 Rb⟩]
      concatenates_S64x1x256x512_S64x1x256x512_S64x2x256x512_d1 (ix4 p 0 b u) = Ra (ix3 p b u) := by
  refine (concatenate_pair_apply_left (t := S64x2x256x512) (s₁ := S64x1x256x512) (s₂ := S64x1x256x512) (1 : Fin 4) _ _
    concatenates_S64x1x256x512_S64x1x256x512_S64x2x256x512_d1 (ix4 p (0 : Fin 2) b u) rfl (ix4 p (0 : Fin 1) b u)
    (fun a => match a with
      | ⟨0, _⟩ => rfl
      | ⟨1, _⟩ => rfl
      | ⟨2, _⟩ => rfl
      | ⟨3, _⟩ => rfl)).trans ?_
  exact layered_apply Ra p b u

/-- Two layered arrays stacked along the layer axis, at layer 1. -/
theorem stacked_apply_one (Ra Rb : S64x256x512.Idx → α) (p : Fin 64) (b : Fin 256) (u : Fin 512) :
    concatenate S64x2x256x512 1 [⟨S64x1x256x512, broadcastInDim S64x1x256x512 ![0, 2, 3] bcast_S64x256x512_S64x1x256x512_0_2_3 Ra⟩,
        ⟨S64x1x256x512, broadcastInDim S64x1x256x512 ![0, 2, 3] bcast_S64x256x512_S64x1x256x512_0_2_3 Rb⟩]
      concatenates_S64x1x256x512_S64x1x256x512_S64x2x256x512_d1 (ix4 p 1 b u) = Rb (ix3 p b u) := by
  refine (concatenate_pair_apply_right (t := S64x2x256x512) (s₁ := S64x1x256x512) (s₂ := S64x1x256x512) (1 : Fin 4) _ _
    concatenates_S64x1x256x512_S64x1x256x512_S64x2x256x512_d1 (ix4 p (1 : Fin 2) b u) rfl rfl (ix4 p (0 : Fin 1) b u)
    (fun a ha => match a, ha with
      | ⟨0, _⟩, _ => rfl
      | ⟨1, _⟩, ha => absurd rfl ha
      | ⟨2, _⟩, _ => rfl
      | ⟨3, _⟩, _ => rfl)
    rfl).trans ?_
  exact layered_apply Rb p b u

end Ops

/-! ## The three results after the host operations, from the four result arrays -/

variable {F : FTy → Type} [FloatOps F]
variable (m : (ℓ : Loc nD τ sig) → Buf (Elt F) ℓ)

/-- The first result: layer 1's h rows transposed to batch-major order. -/
theorem tail_v16 (c : Dev nD) : StableHlo.after hostOps1 (Vt m c) (Proc.devRef .tc main_v16)
    = transpose S256x64x512 [1, 0, 2] (res m c 15) transposes_S64x256x512_S256x64x512_1_0_2 := by
  after_results
  rw [Vt_v9_2]

/-- The second result: the two layers' h rows stacked. -/
theorem tail_v12 (c : Dev nD) : StableHlo.after hostOps1 (Vt m c) (Proc.devRef .tc main_v12)
    = concatenate S64x2x256x512 1 [⟨S64x1x256x512, broadcastInDim S64x1x256x512 ![0, 2, 3] bcast_S64x256x512_S64x1x256x512_0_2_3 (res m c 13)⟩,
        ⟨S64x1x256x512, broadcastInDim S64x1x256x512 ![0, 2, 3] bcast_S64x256x512_S64x1x256x512_0_2_3 (res m c 15)⟩]
      concatenates_S64x1x256x512_S64x1x256x512_S64x2x256x512_d1 := by
  after_results
  rw [Vt_v9_0, Vt_v9_2]

/-- The third result: the two layers' c rows stacked. -/
theorem tail_v15 (c : Dev nD) : StableHlo.after hostOps1 (Vt m c) (Proc.devRef .tc main_v15)
    = concatenate S64x2x256x512 1 [⟨S64x1x256x512, broadcastInDim S64x1x256x512 ![0, 2, 3] bcast_S64x256x512_S64x1x256x512_0_2_3 (res m c 14)⟩,
        ⟨S64x1x256x512, broadcastInDim S64x1x256x512 ![0, 2, 3] bcast_S64x256x512_S64x1x256x512_0_2_3 (res m c 16)⟩]
      concatenates_S64x1x256x512_S64x1x256x512_S64x2x256x512_d1 := by
  after_results
  rw [Vt_v9_1, Vt_v9_3]

end Cert.KernelIdeal.Hand

end
-- ==== Proof.KI.Final.lean ====
/-
  The kernel program's three results as the cell functions of the argument arrays.

  The region leaves layer 0's h and c rows and layer 1's h and c rows in four arrays (Value.lean); the host
  operations after it transpose layer 1's h rows to batch-major order and stack the two layers' h rows, and c rows,
  along the layer axis (TailValue.lean). Element by element these are Spec.lean's `out`, `hn` and `cn`.
-/
import proofs.«175595_j15547781612107_1_alg».proof.Proof.KI.Value
import proofs.«175595_j15547781612107_1_alg».proof.Proof.KI.TailValue

noncomputable section

namespace Cert.KernelIdeal.Hand

open Cert.KernelIdeal Cert.KernelIdeal.Gen Cert.LstmSpec
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- The first result is layer 1's new hidden rows, batch-major. -/
theorem kernel_out (c : Dev nD) : StableHlo.after hostOps1 (Vt m c) (Proc.devRef .tc main_v16)
    = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [tail_v16, res15]
  funext i
  obtain ⟨b, p, u, rfl⟩ : ∃ (b : Fin 256) (p : Fin 64) (u : Fin 512), i = ix3 b p u := ⟨i 0, i 1, i 2, eq_ix3 i⟩
  rw [transposed_apply]
  rfl

/-- The second result is the two layers' new hidden rows, stacked along the layer axis. -/
theorem kernel_hn (c : Dev nD) : StableHlo.after hostOps1 (Vt m c) (Proc.devRef .tc main_v12)
    = hn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [tail_v12, res13, res15]
  funext i
  obtain ⟨p, l, b, u, rfl⟩ : ∃ (p : Fin 64) (l : Fin 2) (b : Fin 256) (u : Fin 512), i = ix4 p l b u := ⟨i 0, i 1, i 2, i 3, eq_ix4 i⟩
  match l with
  | ⟨0, _⟩ => rw [show (⟨0, by omega⟩ : Fin 2) = 0 from rfl, stacked_apply_zero]; rfl
  | ⟨1, _⟩ => rw [show (⟨1, by omega⟩ : Fin 2) = 1 from rfl, stacked_apply_one]; rfl

/-- The third result is the two layers' new cell rows, stacked along the layer axis. -/
theorem kernel_cn (c : Dev nD) : StableHlo.after hostOps1 (Vt m c) (Proc.devRef .tc main_v15)
    = cn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [tail_v15, res14, res16]
  funext i
  obtain ⟨p, l, b, u, rfl⟩ : ∃ (p : Fin 64) (l : Fin 2) (b : Fin 256) (u : Fin 512), i = ix4 p l b u := ⟨i 0, i 1, i 2, i 3, eq_ix4 i⟩
  match l with
  | ⟨0, _⟩ => rw [show (⟨0, by omega⟩ : Fin 2) = 0 from rfl, stacked_apply_zero]; rfl
  | ⟨1, _⟩ => rw [show (⟨1, by omega⟩ : Fin 2) = 1 from rfl, stacked_apply_one]; rfl

end Cert.KernelIdeal.Hand

end
-- ==== Proof.Ref0.lean ====
/-
  The reference, layer 0, read at a row.

  The reference flattens pedestrian p and batch element b into one row index R = 256·p + b of 16384 rows and runs
  the cell on 16384-row matrices. Read at row R and hidden unit u, its layer-0 cell state (the value the program
  names %46) and hidden state (%48) are the cell functions of Spec.lean at pedestrian R / 256 and batch element
  R % 256. The reference adds the four gate terms in the order input product, input bias, hidden product, hidden
  bias; addition of extended reals is commutative and associative, so this is Spec's `gate` (`gate_eq`). The
  reference spells the logistic function out as 1 / (1 + exp (−x)), which is the ideal instance's `logistic`.
-/
import proofs.«175595_j15547781612107_1_alg».proof.Proof.Gen.ReferenceIdeal.Read
import proofs.«175595_j15547781612107_1_alg».proof.Proof.Spec

noncomputable section

open scoped BigOperators

namespace Cert.RefValue

open Cert.ReferenceIdeal Cert.ReferenceIdeal.Read Cert.LstmSpec
open Idealize.ShloMosaic Idealize.ShloMosaic.ValueIdx

variable (x0 : (⟨S256x64x2, .f32⟩ : BufTy).Contents (Elt Ideal)) (x1 x2 : (⟨S64x2x256x512, .f32⟩ : BufTy).Contents (Elt Ideal)) (x3 : (⟨S2048x2, .f32⟩ : BufTy).Contents (Elt Ideal)) (x4 : (⟨S2048x512, .f32⟩ : BufTy).Contents (Elt Ideal)) (x5 x6 : (⟨S2048, .f32⟩ : BufTy).Contents (Elt Ideal))

/-! ## The rows the two products are taken over -/

/-- Row R = 256·p + b of the flattened input matrix (%1) is the input of batch element b and pedestrian p: the
    transpose swaps the two leading axes and the reshape merges them, pedestrian-major. -/
theorem x_row (R : Fin 16384) (k : Fin 2) :
    (val_main_v1 (F := Ideal) x0 (ix2 R k) : EReal) = at3 x0 (rowB R) (rowP R) k := by
  rw [val_main_v1_apply, val_main_v0_apply]
  refine congrArg x0 (funext fun a => Fin.ext ?_)
  have hR := R.isLt; have hk := k.isLt
  match a with
  | ⟨0, _⟩ => show (R.val * 2 + k.val) / 2 % 256 = R.val % 256; omega
  | ⟨1, _⟩ => show (R.val * 2 + k.val) / 512 = R.val / 256; omega
  | ⟨2, _⟩ => show (R.val * 2 + k.val) % 2 = k.val; omega

/-- The layer-major, row-flattened hidden states (%3) at layer l and row R = 256·p + b are the hidden row of
    pedestrian p, layer l, batch element b. -/
theorem h_stack (l : Fin 2) (R : Fin 16384) (k : Fin 512) :
    (val_main_v3 (F := Ideal) x1 (ix3 l R k) : EReal) = at4 x1 (rowP R) l (rowB R) k := by
  rw [val_main_v3_apply, val_main_v2_apply]
  refine congrArg x1 (funext fun a => Fin.ext ?_)
  have hl := l.isLt; have hR := R.isLt; have hk := k.isLt
  match a with
  | ⟨0, _⟩ => show ((l.val * 16384 + R.val) * 512 + k.val) / 131072 % 64 = R.val / 256; omega
  | ⟨1, _⟩ => show ((l.val * 16384 + R.val) * 512 + k.val) / 8388608 = l.val; omega
  | ⟨2, _⟩ => show ((l.val * 16384 + R.val) * 512 + k.val) / 512 % 256 = R.val % 256; omega
  | ⟨3, _⟩ => show ((l.val * 16384 + R.val) * 512 + k.val) % 512 = k.val; omega

/-- The same for the cell states (%5). -/
theorem c_stack (l : Fin 2) (R : Fin 16384) (k : Fin 512) :
    (val_main_v5 (F := Ideal) x2 (ix3 l R k) : EReal) = at4 x2 (rowP R) l (rowB R) k := by
  rw [val_main_v5_apply, val_main_v4_apply]
  refine congrArg x2 (funext fun a => Fin.ext ?_)
  have hl := l.isLt; have hR := R.isLt; have hk := k.isLt
  match a with
  | ⟨0, _⟩ => show ((l.val * 16384 + R.val) * 512 + k.val) / 131072 % 64 = R.val / 256; omega
  | ⟨1, _⟩ => show ((l.val * 16384 + R.val) * 512 + k.val) / 8388608 = l.val; omega
  | ⟨2, _⟩ => show ((l.val * 16384 + R.val) * 512 + k.val) / 512 % 256 = R.val % 256; omega
  | ⟨3, _⟩ => show ((l.val * 16384 + R.val) * 512 + k.val) % 512 = k.val; omega

/-- Layer 0's hidden rows (%12): the slice keeps layer 0 and the reshape drops the unit axis. -/
theorem h_row (R : Fin 16384) (k : Fin 512) :
    (val_main_v12 (F := Ideal) x1 (ix2 R k) : EReal) = at4 x1 (rowP R) 0 (rowB R) k := by
  rw [val_main_v12_apply, val_main_v11_apply]
  have e : idx_main_v11 (idx_main_v12 (ix2 R k)) = ix3 0 R k := by
    refine funext fun a => Fin.ext ?_
    have hR := R.isLt; have hk := k.isLt
    match a with
    | ⟨0, _⟩ => rfl
    | ⟨1, _⟩ => show (R.val * 512 + k.val) / 512 % 16384 = R.val; omega
    | ⟨2, _⟩ => show (R.val * 512 + k.val) % 512 = k.val; omega
  rw [e]; exact h_stack x1 0 R k

/-- Layer 0's cell rows (%43), likewise. -/
theorem c_row (R : Fin 16384) (k : Fin 512) :
    (val_main_v43 (F := Ideal) x2 (ix2 R k) : EReal) = at4 x2 (rowP R) 0 (rowB R) k := by
  rw [val_main_v43_apply, val_main_v42_apply]
  have e : idx_main_v42 (idx_main_v43 (ix2 R k)) = ix3 0 R k := by
    refine funext fun a => Fin.ext ?_
    have hR := R.isLt; have hk := k.isLt
    match a with
    | ⟨0, _⟩ => rfl
    | ⟨1, _⟩ => show (R.val * 512 + k.val) / 512 % 16384 = R.val; omega
    | ⟨2, _⟩ => show (R.val * 512 + k.val) % 512 = k.val; omega
  rw [e]; exact c_stack x2 0 R k

/-- The transposed input weights (%6) and hidden weights (%13). -/
theorem wi_at (k : Fin 2) (j : Fin 2048) : (val_main_v6 (F := Ideal) x3 (ix2 k j) : EReal) = at2 x3 j k := by
  rw [val_main_v6_apply]
  exact congrArg x3 (funext fun a => Fin.ext (by match a with | ⟨0, _⟩ => rfl | ⟨1, _⟩ => rfl))
theorem wh_at (k : Fin 512) (j : Fin 2048) : (val_main_v13 (F := Ideal) x4 (ix2 k j) : EReal) = at2 x4 j k := by
  rw [val_main_v13_apply]
  exact congrArg x4 (funext fun a => Fin.ext (by match a with | ⟨0, _⟩ => rfl | ⟨1, _⟩ => rfl))

/-- The two biases broadcast down the rows (%9, %17). -/
theorem bi_at (R : Fin 16384) (j : Fin 2048) : (val_main_v9 (F := Ideal) x5 (ix2 R j) : EReal) = at1 x5 j := by
  rw [val_main_v9_apply, val_main_v8_apply]
  exact congrArg x5 (funext fun a => Fin.ext (by match a with | ⟨0, _⟩ => rfl))
theorem bh_at (R : Fin 16384) (j : Fin 2048) : (val_main_v17 (F := Ideal) x6 (ix2 R j) : EReal) = at1 x6 j := by
  rw [val_main_v17_apply, val_main_v16_apply]
  exact congrArg x6 (funext fun a => Fin.ext (by match a with | ⟨0, _⟩ => rfl))

/-! ## The gate matrix -/

/-- The input product (%7) at row R, column j. -/
theorem x_dot (R : Fin 16384) (j : Fin 2048) :
    (val_main_v7 (F := Ideal) x0 x3 (ix2 R j) : EReal) = ∑ k : Fin 2, at3 x0 (rowB R) (rowP R) k * at2 x3 j k := by
  rw [val_main_v7_apply]
  refine Finset.sum_congr rfl fun k _ => ?_
  have hl : lidx_main_v7 (ix2 R j) k = ix2 R k :=
    funext fun a => Fin.ext (by match a with | ⟨0, _⟩ => rfl | ⟨1, _⟩ => rfl)
  have hr : ridx_main_v7 (ix2 R j) k = ix2 k j :=
    funext fun a => Fin.ext (by match a with | ⟨0, _⟩ => rfl | ⟨1, _⟩ => rfl)
  rw [hl, hr, x_row, wi_at]

/-- The hidden product (%14) at row R, column j. -/
theorem h_dot (R : Fin 16384) (j : Fin 2048) :
    (val_main_v14 (F := Ideal) x1 x4 (ix2 R j) : EReal) = ∑ k : Fin 512, at4 x1 (rowP R) 0 (rowB R) k * at2 x4 j k := by
  rw [val_main_v14_apply]
  refine Finset.sum_congr rfl fun k _ => ?_
  have hl : lidx_main_v14 (ix2 R j) k = ix2 R k :=
    funext fun a => Fin.ext (by match a with | ⟨0, _⟩ => rfl | ⟨1, _⟩ => rfl)
  have hr : ridx_main_v14 (ix2 R j) k = ix2 k j :=
    funext fun a => Fin.ext (by match a with | ⟨0, _⟩ => rfl | ⟨1, _⟩ => rfl)
  rw [hl, hr, h_row, wh_at]

/-- Layer 0's gate pre-activations (%18) at row R, column j. -/
theorem ref_g0 (R : Fin 16384) (j : Fin 2048) :
    val_main_v18 (F := Ideal) x0 x1 x3 x4 x5 x6 (ix2 R j) = g0 x0 x1 x3 x4 x5 x6 (rowP R) (rowB R) j := by
  rw [val_main_v18_apply, val_main_v15_apply, val_main_v10_apply, x_dot, bi_at, h_dot, bh_at]
  exact gate_eq _ _ _ _ _ _ j

/-! ## The four gates, the three logistic functions, the new cell and hidden rows -/

/-- The four column slices (%19 – %22) are the gate columns i, f, g, o of hidden unit u. -/
theorem gate_i (R : Fin 16384) (u : Fin 512) :
    val_main_v19 (F := Ideal) x0 x1 x3 x4 x5 x6 (ix2 R u) = g0 x0 x1 x3 x4 x5 x6 (rowP R) (rowB R) (col 0 u) := by
  rw [val_main_v19_apply]
  have e : idx_main_v19 (ix2 R u) = ix2 R (col 0 u) :=
    funext fun a => Fin.ext (by match a with | ⟨0, _⟩ => rfl | ⟨1, _⟩ => show u.val = 512 * 0 + u.val; omega)
  rw [e]; exact ref_g0 x0 x1 x3 x4 x5 x6 R (col 0 u)
theorem gate_f (R : Fin 16384) (u : Fin 512) :
    val_main_v20 (F := Ideal) x0 x1 x3 x4 x5 x6 (ix2 R u) = g0 x0 x1 x3 x4 x5 x6 (rowP R) (rowB R) (col 1 u) := by
  rw [val_main_v20_apply]
  have e : idx_main_v20 (ix2 R u) = ix2 R (col 1 u) :=
    funext fun a => Fin.ext (by match a with | ⟨0, _⟩ => rfl | ⟨1, _⟩ => show 512 + u.val = 512 * 1 + u.val; omega)
  rw [e]; exact ref_g0 x0 x1 x3 x4 x5 x6 R (col 1 u)
theorem gate_g (R : Fin 16384) (u : Fin 512) :
    val_main_v21 (F := Ideal) x0 x1 x3 x4 x5 x6 (ix2 R u) = g0 x0 x1 x3 x4 x5 x6 (rowP R) (rowB R) (col 2 u) := by
  rw [val_main_v21_apply]
  have e : idx_main_v21 (ix2 R u) = ix2 R (col 2 u) :=
    funext fun a => Fin.ext (by match a with | ⟨0, _⟩ => rfl | ⟨1, _⟩ => show 1024 + u.val = 512 * 2 + u.val; omega)
  rw [e]; exact ref_g0 x0 x1 x3 x4 x5 x6 R (col 2 u)
theorem gate_o (R : Fin 16384) (u : Fin 512) :
    val_main_v22 (F := Ideal) x0 x1 x3 x4 x5 x6 (ix2 R u) = g0 x0 x1 x3 x4 x5 x6 (rowP R) (rowB R) (col 3 u) := by
  rw [val_main_v22_apply]
  have e : idx_main_v22 (ix2 R u) = ix2 R (col 3 u) :=
    funext fun a => Fin.ext (by match a with | ⟨0, _⟩ => rfl | ⟨1, _⟩ => show 1536 + u.val = 512 * 3 + u.val; omega)
  rw [e]; exact ref_g0 x0 x1 x3 x4 x5 x6 R (col 3 u)

/-- The word 0x3F800000 is the number 1. -/
theorem one_word : Ideal.ofBits .f32 0x3F800000#32 = 1 := by
  simp [Ideal.ofBits, Ideal.ieee, -EReal.coe_mul]; norm_num

/-- 1 / (1 + exp (−x)), spelt with the word for 1 and the host's division, exponential and negation, is the
    logistic function of x. -/
theorem logistic_spelt (x : EReal) :
    (FloatOps.hostDivf (F := Ideal) (φ := .f32) (FloatOps.ofBits .f32 0x3F800000#32)
      (FloatOps.addf (FloatOps.ofBits .f32 0x3F800000#32) (FloatOps.hostUnary .exp (FloatOps.hostNegf x))) : EReal)
      = Ideal.logistic x := by
  show Ideal.div (Ideal.ofBits .f32 0x3F800000#32) (Ideal.ofBits .f32 0x3F800000#32 + Ideal.exp (-x)) = _
  rw [one_word]; rfl

/-- σ(i) (%28), σ(f) (%34) and σ(o) (%40) at row R, unit u. -/
theorem sig_i (R : Fin 16384) (u : Fin 512) :
    (val_main_v28 (F := Ideal) x0 x1 x3 x4 x5 x6 (ix2 R u) : EReal)
      = Ideal.logistic (g0 x0 x1 x3 x4 x5 x6 (rowP R) (rowB R) (col 0 u)) := by
  rw [val_main_v28_apply, val_main_v27_apply, val_main_cst_0_apply, val_main_v26_apply, val_main_v25_apply,
    val_main_cst_apply, val_main_v24_apply, val_main_v23_apply, gate_i]
  exact logistic_spelt _
theorem sig_f (R : Fin 16384) (u : Fin 512) :
    (val_main_v34 (F := Ideal) x0 x1 x3 x4 x5 x6 (ix2 R u) : EReal)
      = Ideal.logistic (g0 x0 x1 x3 x4 x5 x6 (rowP R) (rowB R) (col 1 u)) := by
  rw [val_main_v34_apply, val_main_v33_apply, val_main_cst_2_apply, val_main_v32_apply, val_main_v31_apply,
    val_main_cst_1_apply, val_main_v30_apply, val_main_v29_apply, gate_f]
  exact logistic_spelt _
theorem sig_o (R : Fin 16384) (u : Fin 512) :
    (val_main_v40 (F := Ideal) x0 x1 x3 x4 x5 x6 (ix2 R u) : EReal)
      = Ideal.logistic (g0 x0 x1 x3 x4 x5 x6 (rowP R) (rowB R) (col 3 u)) := by
  rw [val_main_v40_apply, val_main_v39_apply, val_main_cst_4_apply, val_main_v38_apply, val_main_v37_apply,
    val_main_cst_3_apply, val_main_v36_apply, val_main_v35_apply, gate_o]
  exact logistic_spelt _

/-- Layer 0's new cell state (%46) at row R, unit u. -/
theorem ref_c0 (R : Fin 16384) (u : Fin 512) :
    val_main_v46 (F := Ideal) x0 x1 x2 x3 x4 x5 x6 (ix2 R u) = c0' x0 x1 x2 x3 x4 x5 x6 (rowP R) (rowB R) u := by
  rw [val_main_v46_apply, val_main_v44_apply, val_main_v45_apply, val_main_v41_apply, sig_f, sig_i, gate_g, c_row]
  rfl

/-- Layer 0's new hidden state (%48) at row R, unit u. -/
theorem ref_h0 (R : Fin 16384) (u : Fin 512) :
    val_main_v48 (F := Ideal) x0 x1 x2 x3 x4 x5 x6 (ix2 R u) = h0' x0 x1 x2 x3 x4 x5 x6 (rowP R) (rowB R) u := by
  rw [val_main_v48_apply, val_main_v47_apply, sig_o, ref_c0]
  rfl

end Cert.RefValue

end
-- ==== Proof.Ref1.lean ====
/-
  The reference, layer 1 and the three results.

  Layer 1's input rows are layer 0's new hidden rows; read at row R = 256·p + b its cell state (%89) and hidden state
  (%91) are Spec's c1' and h1' at (p, b). The results re-lay these rows: the output (%93) is layer 1's hidden rows in
  batch-major order, and the stacked hidden states (%98) and cell states (%103) put layer 0's and layer 1's rows side
  by side along the layer axis (a concatenation of two unit-layer arrays, read by which layer the index names).
-/
import proofs.«175595_j15547781612107_1_alg».proof.Proof.Ref0

noncomputable section

open scoped BigOperators

namespace Cert.RefValue

open Cert.ReferenceIdeal Cert.ReferenceIdeal.Read Cert.LstmSpec
open Idealize.ShloMosaic Idealize.ShloMosaic.ValueIdx

variable (x0 : (⟨S256x64x2, .f32⟩ : BufTy).Contents (Elt Ideal)) (x1 x2 : (⟨S64x2x256x512, .f32⟩ : BufTy).Contents (Elt Ideal)) (x3 : (⟨S2048x2, .f32⟩ : BufTy).Contents (Elt Ideal)) (x4 : (⟨S2048x512, .f32⟩ : BufTy).Contents (Elt Ideal)) (x5 x6 : (⟨S2048, .f32⟩ : BufTy).Contents (Elt Ideal)) (x7 x8 : (⟨S2048x512, .f32⟩ : BufTy).Contents (Elt Ideal)) (x9 x10 : (⟨S2048, .f32⟩ : BufTy).Contents (Elt Ideal))

/-! ## Coordinates

Each layout operation of the reference reads its operand at an index computed from the result's index. Composed along
the chain from an argument array to a 16384-row matrix, these index functions send row R to pedestrian R / 256 and
batch element R % 256. -/

/-- The reference's constant 1.0 is the number one. -/
theorem l1_one : Ideal.ofBits .f32 0x3F800000#32 = 1 := IdealRules.sign_bit.ideal_onePat .f32

theorem l1_lidx50 (R : Fin 16384) (j : Fin 2048) (k : Fin 512) : lidx_main_v50 (ix2 R j) k = ix2 R k :=
  funext fun a => Fin.ext (by match a with | ⟨0, _⟩ => rfl | ⟨1, _⟩ => rfl)

theorem l1_ridx50 (R : Fin 16384) (j : Fin 2048) (k : Fin 512) : ridx_main_v50 (ix2 R j) k = ix2 k j :=
  funext fun a => Fin.ext (by match a with | ⟨0, _⟩ => rfl | ⟨1, _⟩ => rfl)

theorem l1_idx49 (k : Fin 512) (j : Fin 2048) : idx_main_v49 (ix2 k j) = ix2 j k :=
  funext fun a => Fin.ext (by match a with | ⟨0, _⟩ => rfl | ⟨1, _⟩ => rfl)

theorem l1_lidx57 (R : Fin 16384) (j : Fin 2048) (k : Fin 512) : lidx_main_v57 (ix2 R j) k = ix2 R k :=
  funext fun a => Fin.ext (by match a with | ⟨0, _⟩ => rfl | ⟨1, _⟩ => rfl)

theorem l1_ridx57 (R : Fin 16384) (j : Fin 2048) (k : Fin 512) : ridx_main_v57 (ix2 R j) k = ix2 k j :=
  funext fun a => Fin.ext (by match a with | ⟨0, _⟩ => rfl | ⟨1, _⟩ => rfl)

theorem l1_idx56 (k : Fin 512) (j : Fin 2048) : idx_main_v56 (ix2 k j) = ix2 j k :=
  funext fun a => Fin.ext (by match a with | ⟨0, _⟩ => rfl | ⟨1, _⟩ => rfl)

theorem l1_idx5152 (R : Fin 16384) (j : Fin 2048) : idx_main_v51 (idx_main_v52 (ix2 R j)) = ix1 j :=
  funext fun a => Fin.ext (by match a with | ⟨0, _⟩ => rfl)

theorem l1_idx5960 (R : Fin 16384) (j : Fin 2048) : idx_main_v59 (idx_main_v60 (ix2 R j)) = ix1 j :=
  funext fun a => Fin.ext (by match a with | ⟨0, _⟩ => rfl)

/-- Dropping the unit layer axis of a [1, 16384, 512] array: row R, unit k come from (0, R, k). -/
theorem l1_idx55 (R : Fin 16384) (k : Fin 512) : idx_main_v55 (ix2 R k) = ix3 (0 : Fin 1) R k :=
  funext fun a => Fin.ext (by
    have hR := R.isLt; have hk := k.isLt
    match a with
    | ⟨0, _⟩ => rfl
    | ⟨1, _⟩ => show (R.val * 512 + k.val) / 512 % 16384 = R.val; omega
    | ⟨2, _⟩ => show (R.val * 512 + k.val) % 512 = k.val; omega)

/-- The slice [1:2] along the layer axis reads layer 1. -/
theorem l1_idx54 (R : Fin 16384) (k : Fin 512) : idx_main_v54 (ix3 (0 : Fin 1) R k) = ix3 (1 : Fin 2) R k :=
  funext fun a => Fin.ext (by match a with | ⟨0, _⟩ => rfl | ⟨1, _⟩ => rfl | ⟨2, _⟩ => rfl)

/-- Row R of the flattened [2, 16384, 512] array is pedestrian R / 256, batch element R % 256. -/
theorem l1_idx3 (R : Fin 16384) (k : Fin 512) : idx_main_v3 (ix3 (1 : Fin 2) R k) = ix4 (1 : Fin 2) (rowP R) (rowB R) k :=
  funext fun a => Fin.ext (by
    have hR := R.isLt; have hk := k.isLt
    match a with
    | ⟨0, _⟩ => show ((1 * 16384 + R.val) * 512 + k.val) / 8388608 = 1; omega
    | ⟨1, _⟩ => show ((1 * 16384 + R.val) * 512 + k.val) / 131072 % 64 = R.val / 256; omega
    | ⟨2, _⟩ => show ((1 * 16384 + R.val) * 512 + k.val) / 512 % 256 = R.val % 256; omega
    | ⟨3, _⟩ => show ((1 * 16384 + R.val) * 512 + k.val) % 512 = k.val; omega)

theorem l1_idx2 (p : Fin 64) (b : Fin 256) (k : Fin 512) : idx_main_v2 (ix4 (1 : Fin 2) p b k) = ix4 p (1 : Fin 2) b k :=
  funext fun a => Fin.ext (by match a with | ⟨0, _⟩ => rfl | ⟨1, _⟩ => rfl | ⟨2, _⟩ => rfl | ⟨3, _⟩ => rfl)

/-- Layer 1's old hidden rows (%55) at row R, unit k. -/
theorem l1_v55 (R : Fin 16384) (k : Fin 512) :
    val_main_v55 (F := Ideal) x1 (ix2 R k) = at4 x1 (rowP R) 1 (rowB R) k := by
  rw [val_main_v55_apply, l1_idx55, val_main_v54_apply, l1_idx54, val_main_v3_apply, l1_idx3, val_main_v2_apply, l1_idx2]

/-! ## The gate matrix -/

/-- Layer 1's gate pre-activations (%61) at row R, column j. -/
theorem ref_g1 (R : Fin 16384) (j : Fin 2048) :
    val_main_v61 (F := Ideal) x0 x1 x2 x3 x4 x5 x6 x7 x8 x9 x10 (ix2 R j) = g1 x0 x1 x2 x3 x4 x5 x6 x7 x8 x9 x10 (rowP R) (rowB R) j := by
  have hA : (∑ k : Fin 512, val_main_v48 (F := Ideal) x0 x1 x2 x3 x4 x5 x6 (lidx_main_v50 (ix2 R j) k) * val_main_v49 (F := Ideal) x7 (ridx_main_v50 (ix2 R j) k))
      = ∑ k : Fin 512, h0' x0 x1 x2 x3 x4 x5 x6 (rowP R) (rowB R) k * at2 x7 j k :=
    Finset.sum_congr rfl fun k _ => by rw [l1_lidx50, l1_ridx50, ref_h0, val_main_v49_apply, l1_idx49]
  have hC : (∑ k : Fin 512, val_main_v55 (F := Ideal) x1 (lidx_main_v57 (ix2 R j) k) * val_main_v56 (F := Ideal) x8 (ridx_main_v57 (ix2 R j) k))
      = ∑ k : Fin 512, at4 x1 (rowP R) 1 (rowB R) k * at2 x8 j k :=
    Finset.sum_congr rfl fun k _ => by rw [l1_lidx57, l1_ridx57, l1_v55, val_main_v56_apply, l1_idx56]
  rw [val_main_v61_apply, val_main_v58_apply, val_main_v53_apply, val_main_v50_apply, val_main_v57_apply, hA, hC,
    val_main_v52_apply, val_main_v51_apply, l1_idx5152, val_main_v60_apply, val_main_v59_apply, l1_idx5960]
  exact gate_eq (h0' x0 x1 x2 x3 x4 x5 x6 (rowP R) (rowB R)) (fun k => at4 x1 (rowP R) 1 (rowB R) k) (at2 x7) (at2 x8) (at1 x9) (at1 x10) j

/-! ## The four gates, the new cell state and the new hidden state -/

theorem l1_idx62 (R : Fin 16384) (u : Fin 512) : idx_main_v62 (ix2 R u) = ix2 R (col 0 u) :=
  funext fun a => Fin.ext (by
    match a with
    | ⟨0, _⟩ => rfl
    | ⟨1, _⟩ => show u.val = 512 * 0 + u.val; omega)

theorem l1_idx63 (R : Fin 16384) (u : Fin 512) : idx_main_v63 (ix2 R u) = ix2 R (col 1 u) :=
  funext fun a => Fin.ext (by
    match a with
    | ⟨0, _⟩ => rfl
    | ⟨1, _⟩ => show 512 + u.val = 512 * 1 + u.val; omega)

theorem l1_idx64 (R : Fin 16384) (u : Fin 512) : idx_main_v64 (ix2 R u) = ix2 R (col 2 u) :=
  funext fun a => Fin.ext (by
    match a with
    | ⟨0, _⟩ => rfl
    | ⟨1, _⟩ => show 1024 + u.val = 512 * 2 + u.val; omega)

theorem l1_idx65 (R : Fin 16384) (u : Fin 512) : idx_main_v65 (ix2 R u) = ix2 R (col 3 u) :=
  funext fun a => Fin.ext (by
    match a with
    | ⟨0, _⟩ => rfl
    | ⟨1, _⟩ => show 1536 + u.val = 512 * 3 + u.val; omega)

/-- The input gate (%71): the reference's 1 / (1 + exp (−x)) at column u of the gate matrix. -/
theorem l1_gi (R : Fin 16384) (u : Fin 512) :
    val_main_v71 (F := Ideal) x0 x1 x2 x3 x4 x5 x6 x7 x8 x9 x10 (ix2 R u)
      = Ideal.logistic (g1 x0 x1 x2 x3 x4 x5 x6 x7 x8 x9 x10 (rowP R) (rowB R) (col 0 u)) := by
  rw [val_main_v71_apply, val_main_v70_apply, val_main_cst_6_apply, val_main_v69_apply, val_main_v68_apply, val_main_cst_5_apply,
    val_main_v67_apply, val_main_v66_apply, val_main_v62_apply, l1_idx62, ref_g1]
  simp only [Ideal.hostDivf_def, Ideal.addf_def, Ideal.hostUnary_exp_def, Ideal.hostNegf_def, Ideal.negf_def, Ideal.ofBits_def, l1_one]
  rfl

/-- The forget gate (%77), at column 512 + u. -/
theorem l1_gf (R : Fin 16384) (u : Fin 512) :
    val_main_v77 (F := Ideal) x0 x1 x2 x3 x4 x5 x6 x7 x8 x9 x10 (ix2 R u)
      = Ideal.logistic (g1 x0 x1 x2 x3 x4 x5 x6 x7 x8 x9 x10 (rowP R) (rowB R) (col 1 u)) := by
  rw [val_main_v77_apply, val_main_v76_apply, val_main_cst_8_apply, val_main_v75_apply, val_main_v74_apply, val_main_cst_7_apply,
    val_main_v73_apply, val_main_v72_apply, val_main_v63_apply, l1_idx63, ref_g1]
  simp only [Ideal.hostDivf_def, Ideal.addf_def, Ideal.hostUnary_exp_def, Ideal.hostNegf_def, Ideal.negf_def, Ideal.ofBits_def, l1_one]
  rfl

/-- The output gate (%83), at column 1536 + u. -/
theorem l1_go (R : Fin 16384) (u : Fin 512) :
    val_main_v83 (F := Ideal) x0 x1 x2 x3 x4 x5 x6 x7 x8 x9 x10 (ix2 R u)
      = Ideal.logistic (g1 x0 x1 x2 x3 x4 x5 x6 x7 x8 x9 x10 (rowP R) (rowB R) (col 3 u)) := by
  rw [val_main_v83_apply, val_main_v82_apply, val_main_cst_10_apply, val_main_v81_apply, val_main_v80_apply, val_main_cst_9_apply,
    val_main_v79_apply, val_main_v78_apply, val_main_v65_apply, l1_idx65, ref_g1]
  simp only [Ideal.hostDivf_def, Ideal.addf_def, Ideal.hostUnary_exp_def, Ideal.hostNegf_def, Ideal.negf_def, Ideal.ofBits_def, l1_one]
  rfl

/-- The cell candidate (%84), at column 1024 + u. -/
theorem l1_gg (R : Fin 16384) (u : Fin 512) :
    val_main_v84 (F := Ideal) x0 x1 x2 x3 x4 x5 x6 x7 x8 x9 x10 (ix2 R u)
      = Ideal.tanh (g1 x0 x1 x2 x3 x4 x5 x6 x7 x8 x9 x10 (rowP R) (rowB R) (col 2 u)) := by
  rw [val_main_v84_apply, val_main_v64_apply, l1_idx64, ref_g1]
  rfl

theorem l1_idx86 (R : Fin 16384) (k : Fin 512) : idx_main_v86 (ix2 R k) = ix3 (0 : Fin 1) R k :=
  funext fun a => Fin.ext (by
    have hR := R.isLt; have hk := k.isLt
    match a with
    | ⟨0, _⟩ => rfl
    | ⟨1, _⟩ => show (R.val * 512 + k.val) / 512 % 16384 = R.val; omega
    | ⟨2, _⟩ => show (R.val * 512 + k.val) % 512 = k.val; omega)

theorem l1_idx85 (R : Fin 16384) (k : Fin 512) : idx_main_v85 (ix3 (0 : Fin 1) R k) = ix3 (1 : Fin 2) R k :=
  funext fun a => Fin.ext (by match a with | ⟨0, _⟩ => rfl | ⟨1, _⟩ => rfl | ⟨2, _⟩ => rfl)

theorem l1_idx5 (R : Fin 16384) (k : Fin 512) : idx_main_v5 (ix3 (1 : Fin 2) R k) = ix4 (1 : Fin 2) (rowP R) (rowB R) k :=
  funext fun a => Fin.ext (by
    have hR := R.isLt; have hk := k.isLt
    match a with
    | ⟨0, _⟩ => show ((1 * 16384 + R.val) * 512 + k.val) / 8388608 = 1; omega
    | ⟨1, _⟩ => show ((1 * 16384 + R.val) * 512 + k.val) / 131072 % 64 = R.val / 256; omega
    | ⟨2, _⟩ => show ((1 * 16384 + R.val) * 512 + k.val) / 512 % 256 = R.val % 256; omega
    | ⟨3, _⟩ => show ((1 * 16384 + R.val) * 512 + k.val) % 512 = k.val; omega)

theorem l1_idx4 (p : Fin 64) (b : Fin 256) (k : Fin 512) : idx_main_v4 (ix4 (1 : Fin 2) p b k) = ix4 p (1 : Fin 2) b k :=
  funext fun a => Fin.ext (by match a with | ⟨0, _⟩ => rfl | ⟨1, _⟩ => rfl | ⟨2, _⟩ => rfl | ⟨3, _⟩ => rfl)

/-- Layer 1's old cell rows (%86) at row R, unit u. -/
theorem l1_v86 (R : Fin 16384) (u : Fin 512) :
    val_main_v86 (F := Ideal) x2 (ix2 R u) = at4 x2 (rowP R) 1 (rowB R) u := by
  rw [val_main_v86_apply, l1_idx86, val_main_v85_apply, l1_idx85, val_main_v5_apply, l1_idx5, val_main_v4_apply, l1_idx4]

/-- Layer 1's new cell state (%89) at row R, unit u. -/
theorem ref_c1 (R : Fin 16384) (u : Fin 512) :
    val_main_v89 (F := Ideal) x0 x1 x2 x3 x4 x5 x6 x7 x8 x9 x10 (ix2 R u) = c1' x0 x1 x2 x3 x4 x5 x6 x7 x8 x9 x10 (rowP R) (rowB R) u := by
  rw [val_main_v89_apply, val_main_v87_apply, val_main_v88_apply, l1_gf, l1_v86, l1_gi, l1_gg]
  rfl

/-- Layer 1's new hidden state (%91) at row R, unit u. -/
theorem ref_h1 (R : Fin 16384) (u : Fin 512) :
    val_main_v91 (F := Ideal) x0 x1 x2 x3 x4 x5 x6 x7 x8 x9 x10 (ix2 R u) = h1' x0 x1 x2 x3 x4 x5 x6 x7 x8 x9 x10 (rowP R) (rowB R) u := by
  rw [val_main_v91_apply, val_main_v90_apply, l1_go, ref_c1]
  rfl

/-! ## The three results

The results re-lay the 16384 rows: row 256·p + b is pedestrian p, batch element b. -/

/-- The row of pedestrian p and batch element b. -/
abbrev l1_row (p : Fin 64) (b : Fin 256) : Fin 16384 := ⟨256 * p.val + b.val, by omega⟩

theorem l1_rowP (p : Fin 64) (b : Fin 256) : rowP (l1_row p b) = p :=
  Fin.ext (by have hb := b.isLt; show (256 * p.val + b.val) / 256 = p.val; omega)

theorem l1_rowB (p : Fin 64) (b : Fin 256) : rowB (l1_row p b) = b :=
  Fin.ext (by have hb := b.isLt; show (256 * p.val + b.val) % 256 = b.val; omega)

/-- The output's index (b, p, u) reads row 256·p + b of the hidden-state matrix. -/
theorem l1_idx9293 (b : Fin 256) (p : Fin 64) (u : Fin 512) :
    idx_main_v92 (idx_main_v93 (ix3 b p u)) = ix2 (l1_row p b) u :=
  funext fun a => Fin.ext (by
    have hb := b.isLt; have hp := p.isLt; have hu := u.isLt
    match a with
    | ⟨0, _⟩ => show ((p.val * 256 + b.val) * 512 + u.val) / 512 = 256 * p.val + b.val; omega
    | ⟨1, _⟩ => show ((p.val * 256 + b.val) * 512 + u.val) % 512 = u.val; omega)

/-- The stacked states' index (p, l, b, u) reads layer l, row 256·p + b of the concatenation. -/
theorem l1_idx9798 (p : Fin 64) (l : Fin 2) (b : Fin 256) (u : Fin 512) :
    idx_main_v97 (idx_main_v98 (ix4 p l b u)) = ix3 l (l1_row p b) u :=
  funext fun a => Fin.ext (by
    have hb := b.isLt; have hp := p.isLt; have hu := u.isLt; have hl := l.isLt
    match a with
    | ⟨0, _⟩ => show (((l.val * 64 + p.val) * 256 + b.val) * 512 + u.val) / 8388608 = l.val; omega
    | ⟨1, _⟩ => show (((l.val * 64 + p.val) * 256 + b.val) * 512 + u.val) / 512 % 16384 = 256 * p.val + b.val; omega
    | ⟨2, _⟩ => show (((l.val * 64 + p.val) * 256 + b.val) * 512 + u.val) % 512 = u.val; omega)

theorem l1_idx102103 (p : Fin 64) (l : Fin 2) (b : Fin 256) (u : Fin 512) :
    idx_main_v102 (idx_main_v103 (ix4 p l b u)) = ix3 l (l1_row p b) u :=
  funext fun a => Fin.ext (by
    have hb := b.isLt; have hp := p.isLt; have hu := u.isLt; have hl := l.isLt
    match a with
    | ⟨0, _⟩ => show (((l.val * 64 + p.val) * 256 + b.val) * 512 + u.val) / 8388608 = l.val; omega
    | ⟨1, _⟩ => show (((l.val * 64 + p.val) * 256 + b.val) * 512 + u.val) / 512 % 16384 = 256 * p.val + b.val; omega
    | ⟨2, _⟩ => show (((l.val * 64 + p.val) * 256 + b.val) * 512 + u.val) % 512 = u.val; omega)

/-- A matrix given a leading unit axis is read at its own row and column. -/
theorem l1_idx94 (R : Fin 16384) (u : Fin 512) : idx_main_v94 (ix3 (0 : Fin 1) R u) = ix2 R u :=
  funext fun a => Fin.ext (by match a with | ⟨0, _⟩ => rfl | ⟨1, _⟩ => rfl)
theorem l1_idx95 (R : Fin 16384) (u : Fin 512) : idx_main_v95 (ix3 (0 : Fin 1) R u) = ix2 R u :=
  funext fun a => Fin.ext (by match a with | ⟨0, _⟩ => rfl | ⟨1, _⟩ => rfl)
theorem l1_idx99 (R : Fin 16384) (u : Fin 512) : idx_main_v99 (ix3 (0 : Fin 1) R u) = ix2 R u :=
  funext fun a => Fin.ext (by match a with | ⟨0, _⟩ => rfl | ⟨1, _⟩ => rfl)
theorem l1_idx100 (R : Fin 16384) (u : Fin 512) : idx_main_v100 (ix3 (0 : Fin 1) R u) = ix2 R u :=
  funext fun a => Fin.ext (by match a with | ⟨0, _⟩ => rfl | ⟨1, _⟩ => rfl)

/-- Two unit-layer arrays joined along the layer axis: layer 0 of the result is the first array. -/
theorem l1_cat_zero {α : Type} (y0 y1 : S1x16384x512.Idx → α) (R : Fin 16384) (u : Fin 512) :
    concatenate S2x16384x512 0 [⟨S1x16384x512, y0⟩, ⟨S1x16384x512, y1⟩] Gen.concatenates_S1x16384x512_S1x16384x512_S2x16384x512_d0
      (ix3 (0 : Fin 2) R u) = y0 (ix3 (0 : Fin 1) R u) :=
  concatenate_pair_apply_left (0 : Fin S2x16384x512.rank) y0 y1 Gen.concatenates_S1x16384x512_S1x16384x512_S2x16384x512_d0
    (ix3 (0 : Fin 2) R u) rfl (ix3 (0 : Fin 1) R u) (fun b => by match b with | ⟨0, _⟩ => rfl | ⟨1, _⟩ => rfl | ⟨2, _⟩ => rfl)

/-- Layer 1 of the result is the second array. -/
theorem l1_cat_one {α : Type} (y0 y1 : S1x16384x512.Idx → α) (R : Fin 16384) (u : Fin 512) :
    concatenate S2x16384x512 0 [⟨S1x16384x512, y0⟩, ⟨S1x16384x512, y1⟩] Gen.concatenates_S1x16384x512_S1x16384x512_S2x16384x512_d0
      (ix3 (1 : Fin 2) R u) = y1 (ix3 (0 : Fin 1) R u) :=
  concatenate_pair_apply_right (0 : Fin S2x16384x512.rank) y0 y1 Gen.concatenates_S1x16384x512_S1x16384x512_S2x16384x512_d0
    (ix3 (1 : Fin 2) R u) rfl rfl (ix3 (0 : Fin 1) R u)
    (fun b hb => by
      match b, hb with
      | ⟨0, _⟩, hb => exact absurd rfl hb
      | ⟨1, _⟩, _ => rfl
      | ⟨2, _⟩, _ => rfl)
    rfl

/-- The stacked hidden states before the re-layout (%96): layer 0 holds layer 0's new hidden rows. -/
theorem l1_v96_zero (R : Fin 16384) (u : Fin 512) :
    val_main_v96 (F := Ideal) x0 x1 x2 x3 x4 x5 x6 x7 x8 x9 x10 (ix3 (0 : Fin 2) R u)
      = val_main_v48 (F := Ideal) x0 x1 x2 x3 x4 x5 x6 (ix2 R u) := by
  unfold val_main_v96
  refine (l1_cat_zero _ _ R u).trans ?_
  rw [val_main_v94_apply, l1_idx94]

/-- Layer 1 of the stacked hidden states (%96) holds layer 1's new hidden rows. -/
theorem l1_v96_one (R : Fin 16384) (u : Fin 512) :
    val_main_v96 (F := Ideal) x0 x1 x2 x3 x4 x5 x6 x7 x8 x9 x10 (ix3 (1 : Fin 2) R u)
      = val_main_v91 (F := Ideal) x0 x1 x2 x3 x4 x5 x6 x7 x8 x9 x10 (ix2 R u) := by
  unfold val_main_v96
  refine (l1_cat_one _ _ R u).trans ?_
  rw [val_main_v95_apply, l1_idx95]

/-- The stacked cell states before the re-layout (%101): layer 0 holds layer 0's new cell rows. -/
theorem l1_v101_zero (R : Fin 16384) (u : Fin 512) :
    val_main_v101 (F := Ideal) x0 x1 x2 x3 x4 x5 x6 x7 x8 x9 x10 (ix3 (0 : Fin 2) R u)
      = val_main_v46 (F := Ideal) x0 x1 x2 x3 x4 x5 x6 (ix2 R u) := by
  unfold val_main_v101
  refine (l1_cat_zero _ _ R u).trans ?_
  rw [val_main_v99_apply, l1_idx99]

/-- Layer 1 of the stacked cell states (%101) holds layer 1's new cell rows. -/
theorem l1_v101_one (R : Fin 16384) (u : Fin 512) :
    val_main_v101 (F := Ideal) x0 x1 x2 x3 x4 x5 x6 x7 x8 x9 x10 (ix3 (1 : Fin 2) R u)
      = val_main_v89 (F := Ideal) x0 x1 x2 x3 x4 x5 x6 x7 x8 x9 x10 (ix2 R u) := by
  unfold val_main_v101
  refine (l1_cat_one _ _ R u).trans ?_
  rw [val_main_v100_apply, l1_idx100]

/-- The first result: layer 1's hidden rows, batch-major. -/
theorem ref_out : val_main_v93 (F := Ideal) x0 x1 x2 x3 x4 x5 x6 x7 x8 x9 x10 = out x0 x1 x2 x3 x4 x5 x6 x7 x8 x9 x10 := by
  funext i
  obtain ⟨b, p, u, rfl⟩ : ∃ (b : Fin 256) (p : Fin 64) (u : Fin 512), i = ix3 b p u := ⟨i 0, i 1, i 2, eq_ix3 i⟩
  rw [val_main_v93_apply, val_main_v92_apply, l1_idx9293, ref_h1, l1_rowP, l1_rowB]
  rfl

/-- The second result: the two layers' hidden rows stacked along the layer axis. -/
theorem ref_hn : val_main_v98 (F := Ideal) x0 x1 x2 x3 x4 x5 x6 x7 x8 x9 x10 = hn x0 x1 x2 x3 x4 x5 x6 x7 x8 x9 x10 := by
  funext i
  obtain ⟨p, l, b, u, rfl⟩ : ∃ (p : Fin 64) (l : Fin 2) (b : Fin 256) (u : Fin 512), i = ix4 p l b u :=
    ⟨i 0, i 1, i 2, i 3, eq_ix4 i⟩
  rw [val_main_v98_apply, val_main_v97_apply, l1_idx9798]
  match l with
  | ⟨0, _⟩ =>
    refine (l1_v96_zero x0 x1 x2 x3 x4 x5 x6 x7 x8 x9 x10 (l1_row p b) u).trans ?_
    rw [ref_h0, l1_rowP, l1_rowB]
    rfl
  | ⟨1, _⟩ =>
    refine (l1_v96_one x0 x1 x2 x3 x4 x5 x6 x7 x8 x9 x10 (l1_row p b) u).trans ?_
    rw [ref_h1, l1_rowP, l1_rowB]
    rfl

/-- The third result: the two layers' cell rows stacked along the layer axis. -/
theorem ref_cn : val_main_v103 (F := Ideal) x0 x1 x2 x3 x4 x5 x6 x7 x8 x9 x10 = cn x0 x1 x2 x3 x4 x5 x6 x7 x8 x9 x10 := by
  funext i
  obtain ⟨p, l, b, u, rfl⟩ : ∃ (p : Fin 64) (l : Fin 2) (b : Fin 256) (u : Fin 512), i = ix4 p l b u :=
    ⟨i 0, i 1, i 2, i 3, eq_ix4 i⟩
  rw [val_main_v103_apply, val_main_v102_apply, l1_idx102103]
  match l with
  | ⟨0, _⟩ =>
    refine (l1_v101_zero x0 x1 x2 x3 x4 x5 x6 x7 x8 x9 x10 (l1_row p b) u).trans ?_
    rw [ref_c0, l1_rowP, l1_rowB]
    rfl
  | ⟨1, _⟩ =>
    refine (l1_v101_one x0 x1 x2 x3 x4 x5 x6 x7 x8 x9 x10 (l1_row p b) u).trans ?_
    rw [ref_c1, l1_rowP, l1_rowB]
    rfl

end Cert.RefValue

end
-- ==== Proof.lean ====
/-
  The certificate of the two-layer, single-step LSTM cell kernel against its jnp reference.

  The kernel program transposes the input rows and the four weight matrices on the host, runs one pipelined
  region over 32 grid points (two pedestrians each), and stacks and transposes the region's four result arrays
  on the host. The h0 array and the c0 array are each read through two windows, so the region's launch is
  stated by hand over the library's segment-list launch theorem, each of those arrays held at half the full
  share by each of its two windows (KI/Launch.lean for the idealized kernel, K/Launch.lean the same text for the
  word-level kernel). The frames are those runs with the results dropped; the reference's frame is its run.

  The value claim: both programs compute, row by row, the cell functions of Spec.lean. The kernel adds its
  gate terms as (x·Wi + h·Wh) + bi + bh and the reference as ((x·Wi + bi) + h·Wh) + bh: addition of extended
  reals is commutative and associative, so no finiteness is needed. The kernel's logistic is the reference's
  1 / (1 + exp (−x)) by definition at the ideal instance, narrowing to bf16 is the identity there, and each
  matrix product is the plain sum over the contracted axis on both sides.
-/
import proofs.«175595_j15547781612107_1_alg».proof.Defs
import proofs.«175595_j15547781612107_1_alg».proof.Proof.Gen.Kernel
import proofs.«175595_j15547781612107_1_alg».proof.Proof.Gen.KernelIdeal
import proofs.«175595_j15547781612107_1_alg».proof.Proof.Gen.ReferenceIdeal
import proofs.«175595_j15547781612107_1_alg».proof.Proof.Gen.Pre_finite_inputs
import proofs.«175595_j15547781612107_1_alg».proof.Proof.Gen.ReferenceIdeal.Run
import proofs.«175595_j15547781612107_1_alg».proof.Proof.Gen.ReferenceIdeal.Read
import proofs.«175595_j15547781612107_1_alg».proof.Proof.K.Launch
import proofs.«175595_j15547781612107_1_alg».proof.Proof.KI.Launch
import proofs.«175595_j15547781612107_1_alg».proof.Proof.KI.Final
import proofs.«175595_j15547781612107_1_alg».proof.Proof.Ref1

noncomputable section

namespace Cert.Proof

open Idealize.ShloMosaic Idealize.SL.Sem

/-- The word-level kernel runs and leaves its arguments unchanged: its run with the results dropped. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2.2.2) (Cert.Kernel.Hand.run_main (F := Bits) m ρ)

/-- The idealized kernel likewise. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2.2.2) (Cert.KernelIdeal.Hand.run_main (F := Ideal) m ρ)

/-- The reference's frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- The reference's three results are Spec's `out`, `hn`, `cn` of its argument arrays. -/
theorem ref_res_out (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v93 m' c = Cert.LstmSpec.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) :=
  (Cert.ReferenceIdeal.Read.val_main_v93_eq m' c).trans (Cert.RefValue.ref_out _ _ _ _ _ _ _ _ _ _ _)
theorem ref_res_hn (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v98 m' c = Cert.LstmSpec.hn (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) :=
  (Cert.ReferenceIdeal.Read.val_main_v98_eq m' c).trans (Cert.RefValue.ref_hn _ _ _ _ _ _ _ _ _ _ _)
theorem ref_res_cn (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v103 m' c = Cert.LstmSpec.cn (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) :=
  (Cert.ReferenceIdeal.Read.val_main_v103_eq m' c).trans (Cert.RefValue.ref_cn _ _ _ _ _ _ _ _ _ _ _)

set_option maxHeartbeats 1000000 in
/-- Both programs end at Spec's `out`, `hn`, `cn` of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.LstmSpec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.LstmSpec.hn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.LstmSpec.cn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun _ h c => ?_) (Cert.KernelIdeal.Hand.run_main (F := Ideal) m ρ)
    obtain ⟨h16, h12, h15, hargs⟩ := h c
    exact ⟨h16.trans (Cert.KernelIdeal.Hand.kernel_out m c), h12.trans (Cert.KernelIdeal.Hand.kernel_hn m c),
      h15.trans (Cert.KernelIdeal.Hand.kernel_cn m c), hargs⟩
  · refine (θ_run Cert.ReferenceIdeal.defs _ _).mono (fun _ h c => ?_) (Cert.ReferenceIdeal.Value.run (F := Ideal) m' ρ')
    obtain ⟨h93, h98, h103, hargs⟩ := h c
    obtain ⟨e0, e1, e2, e3, e4, e5, e6, e7, e8, e9, e10⟩ := hagree c
    refine ⟨?_, ?_, ?_, hargs⟩
    · rw [h93, ref_res_out, e0, e1, e2, e3, e4, e5, e6, e7, e8, e9, e10]
    · rw [h98, ref_res_hn, e0, e1, e2, e3, e4, e5, e6, e7, e8, e9, e10]
    · rw [h103, ref_res_cn, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
